-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S3x1x128 : Shape := ⟨3, ![3, 1, 128]⟩
abbrev S256x128 : Shape := ⟨2, ![256, 128]⟩
abbrev S3x512x128 : Shape := ⟨3, ![3, 512, 128]⟩
abbrev S3x512 : Shape := ⟨2, ![3, 512]⟩
abbrev S256 : Shape := ⟨1, ![256]⟩
abbrev S_ : Shape := ⟨0, ![]⟩

class Facts : Prop where
  bcast_S_S3x1x128 : S_.BroadcastsInDim S3x1x128 (![] : Fin 0 → Fin S3x1x128.rank)
  reducesTo_S3x1x128_S_d0_1_2 : S3x1x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S3x512x128 : S_.BroadcastsInDim S3x512x128 (![] : Fin 0 → Fin S3x512x128.rank)
  reducesTo_S3x512x128_S_d0_1_2 : S3x512x128.ReducesTo [0, 1, 2] S_
  bcast_S_S3x512 : S_.BroadcastsInDim S3x512 (![] : Fin 0 → Fin S3x512.rank)
  reducesTo_S3x512_S_d0_1 : S3x512.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_arg8 : FVec F S256x128 .f32) (main_arg9 : FVec F S256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S1 32 := broadcastInDim S1 ![] bcast_S_S1 main_c_16
  let main_v45 : IVec S1 1 := cmpi .sge main_arg0 main_v44
  let main_c_17 : IVec S_ 32 := constantI S_ 32 256#32
  let main_v46 : IVec S1 32 := broadcastInDim S1 ![] bcast_S_S1 main_c_17
  let main_v47 : IVec S1 1 := cmpi .slt main_arg0 main_v46
  let main_v48 : IVec S1 1 := andi main_v45 main_v47
  let main_c_18 : IVec S_ 1 := constantI S_ 1 1#1
  let main_v49 : IVec S_ 1 := (fun x v => Host.reduce IntOp.andi x v reducesTo_S1_S_d0 h_S_) main_v48 main_c_18
  let main_v50 : IVec S_ 1 := andi main_v43 main_v49
  main_v50

def fn_part1 {F : FTy → Type} [FloatOps F] (main_arg0 : IVec S1 32) (main_arg5 : FVec F S3x512x128 .f32) (main_arg6 : FVec F S3x512 .f32) (main_arg7 : FVec F S3x512 .f32) (main_arg8 : FVec F S256x128 .f32) (main_arg9 : FVec F S256 .f32) (main_v13 : IVec S_ 1) (main_v16 : IVec S3x512x128 1) : IVec S_ 1 :=
  let main_c_5 : IVec S_ 1 := constantI S_ 1 1#1
  let main_v17 : IVec S_ 1 := (fun x v => Host.reduce IntOp.andi x v reducesTo_S3x512x128_S_d0_1_2 h_S_) main_v16 main_c_5
  let main_v18 : IVec S_ 1 := andi main_v13 main_v17
  let main_v19 : FVec F S3x512x128 .f32 := Host.absf main_arg5
  let main_cst_6 : FVec F S_ .f32 := constant S_ .f32 0x7F800000#32
  let main_v20 : FVec F S3x512x128 .f32 := broadcastInDim S3x512x128 ![] bcast_S_S3x512x128 main_cst_6
  let main_v21 : IVec S3x512x128 1 := cmpf .olt main_v19 main_v20
  let main_c_7 : IVec S_ 1 := constantI S_ 1 1#1
  let main_v22 : IVec S_ 1 := (fun x v => Host.reduce IntOp.andi x v reducesTo_S3x512x128_S_d0_1_2 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg7
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg0 main_arg8 main_arg9 main_v33

def fn {F : FTy → Type} [FloatOps F] (main_arg0 : IVec S1 32) (main_arg1 : FVec F S3x1x128 .f32) (main_arg2 : FVec F S3x1x128 .f32) (main_arg3 : FVec F S256x128 .f32) (main_arg4 : FVec F S3x512x128 .f32) (main_arg5 : FVec F S3x512x128 .f32) (main_arg6 : FVec F S3x512 .f32) (main_arg7 : FVec F S3x512 .f32) (main_arg8 : FVec F S256x128 .f32) (main_arg9 : FVec F S256 .f32) : IVec S_ 1 :=
  let main_v0 : FVec F S3x1x128 .f32 := Host.absf main_arg1
  let main_cst : FVec F S_ .f32 := constant S_ .f32 0x7F800000#32
  let main_v1 : FVec F S3x1x128 .f32 := broadcastInDim S3x1x128 ![] bcast_S_S3x1x128 main_cst
  let main_v2 : IVec S3x1x128 1 := cmpf .olt main_v0 main_v1
  let main_c : IVec S_ 1 := constantI S_ 1 1#1
  let main_v3 : IVec S_ 1 := (fun x v => Host.reduce IntOp.andi x v reducesTo_S3x1x128_S_d0_1_2 h_S_) main_v2 main_c
  let main_v4 : FVec F S3x1x128 .f32 := Host.absf main_arg2
  let main_cst_0 : FVec F S_ .f32 := constant S_ .f32 0x7F800000#32
  let main_v5 : FVec F S3x1x128 .f32 := broadcastInDim S3x1x128 ![] bcast_S_S3x1x128 main_cst_0
  let main_v6 : IVec S3x1x128 1 := cmpf .olt main_v4 main_v5
  let main_c_1 : IVec S_ 1 := constantI S_ 1 1#1
  let main_v7 : IVec S_ 1 := (fun x v => Host.reduce IntOp.andi x v reducesTo_S3x1x128_S_d0_1_2 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S3x512x128 .f32 := Host.absf main_arg4
  let main_cst_4 : FVec F S_ .f32 := constant S_ .f32 0x7F800000#32
  let main_v15 : FVec F S3x512x128 .f32 := broadcastInDim S3x512x128 ![] bcast_S_S3x512x128 main_cst_4
  let main_v16 : IVec S3x512x128 1 := cmpf .olt main_v14 main_v15
  fn_part1 (F := F) main_arg0 main_arg5 main_arg6 main_arg7 main_arg8 main_arg9 main_v13 main_v16
-- ==== Kernel.lean ====
abbrev S1 : Shape := ⟨1, ![1]⟩
abbrev S3x1x128 : Shape := ⟨3, ![3, 1, 128]⟩
abbrev S256x128 : Shape := ⟨2, ![256, 128]⟩
abbrev S3x512x128 : Shape := ⟨3, ![3, 512, 128]⟩
abbrev S3x512 : Shape := ⟨2, ![3, 512]⟩
abbrev S256 : Shape := ⟨1, ![256]⟩
abbrev S_ : Shape := ⟨0, ![]⟩
abbrev S1x256 : Shape := ⟨2, ![1, 256]⟩
abbrev S3x512x256 : Shape := ⟨3, ![3, 512, 256]⟩
abbrev S8x128 : Shape := ⟨2, ![8, 128]⟩
abbrev S1x8 : Shape := ⟨2, ![1, 8]⟩
abbrev S1x128 : Shape := ⟨2, ![1, 128]⟩
abbrev S1x512x256 : Shape := ⟨3, ![1, 512, 256]⟩
abbrev S512x256 : Shape := ⟨2, ![512, 256]⟩
abbrev S1x512 : Shape := ⟨2, ![1, 512]⟩
abbrev S512 : Shape := ⟨1, ![512]⟩
abbrev S1x1x128 : Shape := ⟨3, ![1, 1, 128]⟩

abbrev nBuf : Space → Nat
  | .hbm => 26
  | .vmem => 10
  | .smem => 1
  | _ => 0

abbrev bufTy : (tb : Table) → Fin (tcTables nBuf tb) → BufTy
  | .hbm, ⟨0, _⟩ => ⟨S1, .i32⟩
  | .hbm, ⟨1, _⟩ => ⟨S3x1x128, .f32⟩
  | .hbm, ⟨2, _⟩ => ⟨S3x1x128, .f32⟩
  | .hbm, ⟨3, _⟩ => ⟨S256x128, .f32⟩
  | .hbm, ⟨4, _⟩ => ⟨S3x512x128, .f32⟩
  | .hbm, ⟨5, _⟩ => ⟨S3x512x128, .f32⟩
  | .hbm, ⟨6, _⟩ => ⟨S3x512, .f32⟩
  | .hbm, ⟨7, _⟩ => ⟨S3x512, .f32⟩
  | .hbm, ⟨8, _⟩ => ⟨S256x128, .f32⟩
  | .hbm, ⟨9, _⟩ => ⟨S256, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1x256, .f32⟩
  | .hbm, ⟨18, _⟩ => ⟨S256x128, .bf16⟩
  | .hbm, ⟨19, _⟩ => ⟨S3x512x256, .f32⟩
  | .hbm, ⟨20, _⟩ => ⟨S3x512x256, .bf16⟩
  | .hbm, ⟨21, _⟩ => ⟨S3x512, .f32⟩
  | .hbm, ⟨22, _⟩ => ⟨S256x128, .bf16⟩
  | .hbm, ⟨23, _⟩ => ⟨S1x256, .f32⟩
  | .hbm, ⟨24, _⟩ => ⟨S3x1x128, .f32⟩
  | .hbm, ⟨25, _⟩ => ⟨S3x1x128, .f32⟩
  | .local _ .vmem, ⟨0, _⟩ => ⟨S8x128, .bf16⟩
  | .local _ .vmem, ⟨1, _⟩ => ⟨S3x1x128, .f32⟩
  | .local _ .vmem, ⟨2, _⟩ => ⟨S3x1x128, .f32⟩
  | .local _ .vmem, ⟨3, _⟩ => ⟨S3x512x256, .bf16⟩
  | .local _ .vmem, ⟨4, _⟩ => ⟨S3x512, .f32⟩
  | .local _ .vmem, ⟨5, _⟩ => ⟨S256x128, .bf16⟩
  | .local _ .vmem, ⟨6, _⟩ => ⟨S1x256, .f32⟩
  | .local _ .vmem, ⟨7, _⟩ => ⟨S1x256, .f32⟩
  | .local _ .vmem, ⟨8, _⟩ => ⟨S3x1x128, .f32⟩
  | .local _ .vmem, ⟨9, _⟩ => ⟨S3x1x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  bcast_S_S1 : S_.BroadcastsInDim S1 (![] : Fin 0 → Fin S1.rank)
  shapeCasts_S256_S1x256 : S256.ShapeCasts S1x256
  bitsLt_bf16_f32 : FTy.bits .bf16 < FTy.bits .f32
  concatenates_S3x512x128_S3x512x128_S3x512x256_d2 : Shape.Concatenates [S3x512x128, S3x512x128] S3x512x256 2
  inb_S1_S1_0 : ∀ a, (![0] : Fin 1 → Nat) a + S1.size a ≤ S1.size a
  numel1_S1 : S1.numel = 1
  iota_S1x8_d1_w32 : S1x8.Iotas .tc 32 [1]
  natLt_1_32 : 1 < 32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  inb_S3x512_S1x512_0_0 : ∀ a, (![0, 0] : Fin 2 → Nat) a + S1x512.size a ≤ S3x512.size a
  h_S1x512 : 0 < S1x512.numel
  shapeCasts_S1x512_S512 : S1x512.ShapeCasts S512
  inb_S3x1x128_S1x1x128_0_0_0 : ∀ a, (![0, 0, 0] : Fin 3 → Nat) a + S1x1x128.size a ≤ S3x1x128.size a
  h_S1x1x128 : 0 < S1x1x128.numel
  shapeCasts_S1x1x128_S1x128 : S1x1x128.ShapeCasts S1x128
  concatenates_S1x128_S1x128_S1x256_d1 : Shape.Concatenates [S1x128, S1x128] S1x256 1
  shapeCasts_S512_S1x512 : S512.ShapeCasts S1x512
  slices_S1x512_o0_0_S1x128 : S1x512.Slices ![0, 0] S1x128
  slices_S1x512_o0_128_S1x128 : S1x512.Slices ![0, 128] S1x128
  slices_S1x512_o0_256_S1x128 : S1x512.Slices ![0, 256] S1x128
  slices_S1x512_o0_384_S1x128 : S1x512.Slices ![0, 384] S1x128
  shapeCasts_S1x128_S1x1x128 : S1x128.ShapeCasts S1x1x128
  inb_S3x512x256_S1x512x256_1_0_0 : ∀ a, (![1, 0, 0] : Fin 3 → Nat) a + S1x512x256.size a ≤ S3x512x256.size a
  inb_S3x512_S1x512_1_0 : ∀ a, (![1, 0] : Fin 2 → Nat) a + S1x512.size a ≤ S3x512.size a
  inb_S3x1x128_S1x1x128_1_0_0 : ∀ a, (![1, 0, 0] : Fin 3 → Nat) a + S1x1x128.size a ≤ S3x1x128.size a
  inb_S3x512x256_S1x512x256_2_0_0 : ∀ a, (![2, 0, 0] : Fin 3 → Nat) a + S1x512x256.size a ≤ S3x512x256.size a
  inb_S3x512_S1x512_2_0 : ∀ a, (![2, 0] : Fin 2 → Nat) a + S1x512.size a ≤ S3x512.size a
  inb_S3x1x128_S1x1x128_2_0_0 : ∀ a, (![2, 0, 0] : Fin 3 → Nat) a + S1x1x128.size a ≤ S3x1x128.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  dot_S1x8_S8x128_S1x128_1_0_0_1_n_n_wf : DotDims.WF S1x8 S8x128 S1x128 [1] [0] [0] [1] [] []
  dot_S1x256_S512x256_S1x512_1_1_0_0_n_n_wf : DotDims.WF S1x256 S512x256 S1x512 [1] [1] [0] [0] [] []
  dot_S1x128_S256x128_S1x256_1_1_0_0_n_n_wf : DotDims.WF S1x128 S256x128 S1x256 [1] [1] [0] [0] [] []
  hrank0 : 0 < grid0.rank
  hstage0_0 : ∀ j, (stage0_0 j).IsWhole
  nbuf0_0 : grid0.bufCount reads0_0 false = 1
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1x128.size a ≤ S3x1x128.size a
  hwx0_1 : ∀ i : grid0.Coords, EltTy.bits .f32 = 32 ∨ (Rect.block (s := S3x1x128) S3x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x128.size a ≤ S3x1x128.size a
  hwx0_2 : ∀ i : grid0.Coords, EltTy.bits .f32 = 32 ∨ (Rect.block (s := S3x1x128) S3x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512x256.size a ≤ S3x512x256.size a
  hwx0_3 : ∀ i : grid0.Coords, EltTy.bits .bf16 = 32 ∨ (Rect.block (s := S3x512x256) S3x512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1x128.size a ≤ S3x1x128.size a
  hwx0_8 : ∀ i : grid0.Coords, EltTy.bits .f32 = 32 ∨ (Rect.block (s := S3x1x128) S3x1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x1x128.size a ≤ S3x1x128.size a
  hwx0_9 : ∀ i : grid0.Coords, EltTy.bits .f32 = 32 ∨ (Rect.block (s := S3x1x128) S3x1x128.size (cc0_transform_9 i) (hinb0_9 i)).WholeWords (EltTy.packing .f32)

variable [Facts₀]

def dot_S1x8_S8x128_S1x128_1_0_0_1_n_n : DotDims S1x8 S8x128 S1x128 where
  lhsContracting := [1]
  rhsContracting := [0]
  lhsNonContracting := [0]
  rhsNonContracting := [1]
  lhsBatch := []
  rhsBatch := []
  wf := dot_S1x8_S8x128_S1x128_1_0_0_1_n_n_wf
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf
def dot_S1x128_S256x128_S1x256_1_1_0_0_n_n : DotDims S1x128 S256x128 S1x256 where
  lhsContracting := [1]
  rhsContracting := [1]
  lhsNonContracting := [0]
  rhsNonContracting := [0]
  lhsBatch := []
  rhsBatch := []
  wf := dot_S1x128_S256x128_S1x256_1_1_0_0_n_n_wf

abbrev spec0_0 : Pipeline.WinSpec sig grid0.rank :=
  Pipeline.WinSpec.ofSpec (Memref.whole main_v2) S8x128.size reads0_0 false false 1 stage0_0 sem0_0 nbuf0_0 hstage0_0

abbrev spec0_1 : Pipeline.WinSpec sig grid0.rank :=
  Pipeline.WinSpec.ofSpec (Memref.whole main_arg1) S3x1x128.size reads0_1 false true 1 stage0_1 sem0_1 nbuf0_1 hstage0_1

abbrev spec0_2 : Pipeline.WinSpec sig grid0.rank :=
  Pipeline.WinSpec.ofSpec (Memref.whole main_arg2) S3x1x128.size reads0_2 false true 1 stage0_2 sem0_2 nbuf0_2 hstage0_2

abbrev spec0_3 : Pipeline.WinSpec sig grid0.rank :=
  Pipeline.WinSpec.ofSpec (Memref.whole main_v4) S3x512x256.size reads0_3 false true 1 stage0_3 sem0_3 nbuf0_3 hstage0_3

abbrev spec0_4 : Pipeline.WinSpec sig grid0.rank :=
  Pipeline.WinSpec.ofSpec (Memref.whole main_v5) S3x512.size reads0_4 false true 1 stage0_4 sem0_4 nbuf0_4 hstage0_4

abbrev spec0_5 : Pipeline.WinSpec sig grid0.rank :=
  Pipeline.WinSpec.ofSpec (Memref.whole main_v6) S256x128.size reads0_5 false true 1 stage0_5 sem0_5 nbuf0_5 hstage0_5

abbrev spec0_6 : Pipeline.WinSpec sig grid0.rank :=
  Pipeline.WinSpec.ofSpec (Memref.whole main_v1) S1x256.size reads0_6 false true 1 stage0_6 sem0_6 nbuf0_6 hstage0_6

abbrev spec0_7 : Pipeline.WinSpec sig grid0.rank :=
  Pipeline.WinSpec.ofSpec (Memref.whole main_v7_0) S1x256.size reads0_7 true true 1 stage0_7 sem0_7 nbuf0_7 hstage0_7

abbrev spec0_8 : Pipeline.WinSpec sig grid0.rank :=
  Pipeline.WinSpec.ofSpec (Memref.whole main_v7_1) S3x1x128.size reads0_8 true true 1 stage0_8 sem0_8 nbuf0_8 hstage0_8

abbrev spec0_9 : Pipeline.WinSpec sig grid0.rank :=
  Pipeline.WinSpec.ofSpec (Memref.whole main_v7_2) S3x1x128.size reads0_9 true true 1 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 inb_S1_S1_0 numel1_S1 pf | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S8x128.size a ≤ S256x128.size a), EltTy.bits .bf16 = 32 ∨ (Rect.block (s := S256x128) S8x128.size (cc0_transform_0 inb_S1_S1_0 numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S1 : Shape := ⟨1, ![1]⟩
abbrev S3x1x128 : Shape := ⟨3, ![3, 1, 128]⟩
abbrev S256x128 : Shape := ⟨2, ![256, 128]⟩
abbrev S3x512x128 : Shape := ⟨3, ![3, 512, 128]⟩
abbrev S3x512 : Shape := ⟨2, ![3, 512]⟩
abbrev S256 : Shape := ⟨1, ![256]⟩
abbrev S_ : Shape := ⟨0, ![]⟩
abbrev S1x1 : Shape := ⟨2, ![1, 1]⟩
abbrev S1x128 : Shape := ⟨2, ![1, 128]⟩
abbrev S1x512x128 : Shape := ⟨3, ![1, 512, 128]⟩
abbrev S512x128 : Shape := ⟨2, ![512, 128]⟩
abbrev S128x512 : Shape := ⟨2, ![128, 512]⟩
abbrev S1x512 : Shape := ⟨2, ![1, 512]⟩
abbrev S1x1x128 : Shape := ⟨3, ![1, 1, 128]⟩
abbrev S512 : Shape := ⟨1, ![512]⟩
abbrev S128x256 : Shape := ⟨2, ![128, 256]⟩
abbrev S1x256 : Shape := ⟨2, ![1, 256]⟩

abbrev nBuf : Space → Nat
  | .hbm => 196
  | .vmem => 0
  | .smem => 0
  | _ => 0

abbrev hbmTy0_0 (i : Nat) : BufTy := match i % 128 with
  | 0 => ⟨S1, .i32⟩
  | 1 => ⟨S3x1x128, .f32⟩
  | 2 => ⟨S3x1x128, .f32⟩
  | 3 => ⟨S256x128, .f32⟩
  | 4 => ⟨S3x512x128, .f32⟩
  | 5 => ⟨S3x512x128, .f32⟩
  | 6 => ⟨S3x512, .f32⟩
  | 7 => ⟨S3x512, .f32⟩
  | 8 => ⟨S256x128, .f32⟩
  | 9 => ⟨S256, .f32⟩
  | 10 => ⟨S_, .i32⟩
  | 11 => ⟨S1, .i32⟩
  | 12 => ⟨S1, .i1⟩
  | 13 => ⟨S_, .i32⟩
  | 14 => ⟨S1, .i32⟩
  | 15 => ⟨S1, .i32⟩
  | 16 => ⟨S1, .i32⟩
  | 17 => ⟨S1x1, .i32⟩
  | 18 => ⟨S1x128, .f32⟩
  | 19 => ⟨S1x512x128, .f32⟩
  | 20 => ⟨S512x128, .f32⟩
  | 21 => ⟨S128x512, .f32⟩
  | 22 => ⟨S1x512, .f32⟩
  | 23 => ⟨S1x1x128, .f32⟩
  | 24 => ⟨S1x128, .f32⟩
  | 25 => ⟨S1x512x128, .f32⟩
  | 26 => ⟨S512x128, .f32⟩
  | 27 => ⟨S128x512, .f32⟩
  | 28 => ⟨S1x512, .f32⟩
  | 29 => ⟨S1x512, .f32⟩
  | 30 => ⟨S1x512, .f32⟩
  | 31 => ⟨S512, .f32⟩
  | 32 => ⟨S1x512, .f32⟩
  | 33 => ⟨S1x512, .f32⟩
  | 34 => ⟨S1x512, .f32⟩
  | 35 => ⟨S512, .f32⟩
  | 36 => ⟨S1x512, .f32⟩
  | 37 => ⟨S1x512, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x1x128, .f32⟩
  | 51 => ⟨S1x128, .f32⟩
  | 52 => ⟨S1x128, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x512x128, .f32⟩
  | 75 => ⟨S512x128, .f32⟩
  | 76 => ⟨S128x512, .f32⟩
  | 77 => ⟨S1x512, .f32⟩
  | 78 => ⟨S1x1x128, .f32⟩
  | 79 => ⟨S1x128, .f32⟩
  | 80 => ⟨S1x512x128, .f32⟩
  | 81 => ⟨S512x128, .f32⟩
  | 82 => ⟨S128x512, .f32⟩
  | 83 => ⟨S1x512, .f32⟩
  | 84 => ⟨S1x512, .f32⟩
  | 85 => ⟨S1x512, .f32⟩
  | 86 => ⟨S512, .f32⟩
  | 87 => ⟨S1x512, .f32⟩
  | 88 => ⟨S1x512, .f32⟩
  | 89 => ⟨S1x512, .f32⟩
  | 90 => ⟨S512, .f32⟩
  | 91 => ⟨S1x512, .f32⟩
  | 92 => ⟨S1x512, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x1x128, .f32⟩
  | 106 => ⟨S1x128, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S1, .i32⟩

abbrev hbmTy0_1 (i : Nat) : BufTy := match i % 128 with
  | 0 => ⟨S1x128, .f32⟩
  | 1 => ⟨S1x512x128, .f32⟩
  | 2 => ⟨S512x128, .f32⟩
  | 3 => ⟨S128x512, .f32⟩
  | 4 => ⟨S1x512, .f32⟩
  | 5 => ⟨S1x1x128, .f32⟩
  | 6 => ⟨S1x128, .f32⟩
  | 7 => ⟨S1x512x128, .f32⟩
  | 8 => ⟨S512x128, .f32⟩
  | 9 => ⟨S128x512, .f32⟩
  | 10 => ⟨S1x512, .f32⟩
  | 11 => ⟨S1x512, .f32⟩
  | 12 => ⟨S1x512, .f32⟩
  | 13 => ⟨S512, .f32⟩
  | 14 => ⟨S1x512, .f32⟩
  | 15 => ⟨S1x512, .f32⟩
  | 16 => ⟨S1x512, .f32⟩
  | 17 => ⟨S512, .f32⟩
  | 18 => ⟨S1x512, .f32⟩
  | 19 => ⟨S1x512, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x1x128, .f32⟩
  | 33 => ⟨S1x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S1x128, .f32⟩
  | 55 => ⟨S1x128, .f32⟩
  | 56 => ⟨S1x1x128, .f32⟩
  | 57 => ⟨S1x1x128, .f32⟩
  | 58 => ⟨S1x1x128, .f32⟩
  | 59 => ⟨S3x1x128, .f32⟩
  | 60 => ⟨S1x1x128, .f32⟩
  | 61 => ⟨S1x1x128, .f32⟩
  | 62 => ⟨S1x1x128, .f32⟩
  | 63 => ⟨S3x1x128, .f32⟩
  | 64 => ⟨S128x256, .f32⟩
  | 65 => ⟨S1x256, .f32⟩
  | 66 => ⟨S1x256, .f32⟩
  | 67 => ⟨S1x256, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_6 : Ref sig .tc := ⟨.hbm, 99, rfl⟩
abbrev main_v81 : Ref sig .tc := ⟨.hbm, 100, rfl⟩
abbrev main_v82 : Ref sig .tc := ⟨.hbm, 101, rfl⟩
abbrev main_cst_7 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_8 : Ref sig .tc := ⟨.hbm, 110, rfl⟩
abbrev main_v90 : Ref sig .tc := ⟨.hbm, 111, rfl⟩
abbrev main_v91 : Ref sig .tc := ⟨.hbm, 112, rfl⟩
abbrev main_cst_9 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_10 : Ref sig .tc := ⟨.hbm, 121, rfl⟩
abbrev main_v99 : Ref sig .tc := ⟨.hbm, 122, rfl⟩
abbrev main_v100 : Ref sig .tc := ⟨.hbm, 123, rfl⟩
abbrev main_cst_11 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_12 : Ref sig .tc := ⟨.hbm, 154, rfl⟩
abbrev main_v130 : Ref sig .tc := ⟨.hbm, 155, rfl⟩
abbrev main_v131 : Ref sig .tc := ⟨.hbm, 156, rfl⟩
abbrev main_cst_13 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_14 : Ref sig .tc := ⟨.hbm, 165, rfl⟩
abbrev main_v139 : Ref sig .tc := ⟨.hbm, 166, rfl⟩
abbrev main_v140 : Ref sig .tc := ⟨.hbm, 167, rfl⟩
abbrev main_cst_15 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_16 : Ref sig .tc := ⟨.hbm, 176, rfl⟩
abbrev main_v148 : Ref sig .tc := ⟨.hbm, 177, rfl⟩
abbrev main_v149 : Ref sig .tc := ⟨.hbm, 178, rfl⟩
abbrev main_cst_17 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S3x512x128_S1x512x128_0_0_0 : S3x512x128.Slices ![0, 0, 0] S1x512x128
  shapeCasts_S1x512x128_S512x128 : S1x512x128.ShapeCasts S512x128
  transposes_S512x128_S128x512_1_0 : S512x128.Transposes [1, 0] S128x512
  slices_S3x1x128_S1x1x128_0_0_0 : S3x1x128.Slices ![0, 0, 0] S1x1x128
  shapeCasts_S1x1x128_S1x128 : S1x1x128.ShapeCasts S1x128
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  bcast_S_S1x128 : S_.BroadcastsInDim S1x128 (![] : Fin 0 → Fin S1x128.rank)
  slices_S3x512x128_S1x512x128_1_0_0 : S3x512x128.Slices ![1, 0, 0] S1x512x128
  slices_S3x1x128_S1x1x128_1_0_0 : S3x1x128.Slices ![1, 0, 0] S1x1x128
  slices_S3x512_S1x512_1_0 : S3x512.Slices ![1, 0] S1x512
  slices_S3x512x128_S1x512x128_2_0_0 : S3x512x128.Slices ![2, 0, 0] S1x512x128
  slices_S3x1x128_S1x1x128_2_0_0 : S3x1x128.Slices ![2, 0, 0] S1x1x128
  slices_S3x512_S1x512_2_0 : S3x512.Slices ![2, 0] S1x512
  bcast_S1x128_S1x1x128_1_2 : S1x128.BroadcastsInDim S1x1x128 (![1, 2] : Fin 2 → Fin S1x1x128.rank)
  concatenates_S1x1x128_S1x1x128_S1x1x128_S3x1x128_d0 : Shape.Concatenates [S1x1x128, S1x1x128, S1x1x128] S3x1x128 0
  transposes_S256x128_S128x256_1_0 : S256x128.Transposes [1, 0] S128x256
  bcast_S256_S1x256_1 : S256.BroadcastsInDim S1x256 (![1] : Fin 1 → Fin S1x256.rank)
  gather_S256x128_S1x1_S1x128_1_0_n_n_0_1_1128_wf : GatherDims.WF S256x128 S1x1 S1x128 [1] [0] [] [0] [] 1 ![1, 128]
  dot_S1x128_S128x512_S1x512_1_0_0_1_n_n_wf : DotDims.WF S1x128 S128x512 S1x512 [1] [0] [0] [1] [] []
  dot_S1x128_S128x256_S1x256_1_0_0_1_n_n_wf : DotDims.WF S1x128 S128x256 S1x256 [1] [0] [0] [1] [] []

variable [Facts₀]

def gather_S256x128_S1x1_S1x128_1_0_n_n_0_1_1128 : GatherDims S256x128 S1x1 S1x128 where
  offsetDims := [1]
  collapsedSliceDims := [0]
  operandBatchingDims := []
  startIndicesBatchingDims := []
  startIndexMap := [0]
  indexVectorDim := 1
  sliceSizes := ![1, 128]
  wf := gather_S256x128_S1x1_S1x128_1_0_n_n_0_1_1128_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf

class Facts : Prop extends Facts₀ where

variable [Facts]
-- ==== Proof.KernelBitsOk.lean ====
/-
  The word-level kernel's side condition on its prefetched table.  The table holds the token clamped into 0 … 255
  (the smaller of 255 and the larger of 0 and the token, both signed), so the embedding window's block index, the floor
  of the table word / 8, is at most 31: rows 8·⌊word/8⌋ … +7 lie inside the 256-row table whatever the token is, and
  the block starts and ends on whole words of its two-to-a-word elements.
-/
import proofs.«421514_j47012712022524_3_alg».proof.Proof.Gen.Kernel.Frame
import Idealize.ShloMosaic.Lib.StableHlo.Run
import Idealize.ShloMosaic.Lib.StableHlo.Predicate
import Idealize.ShloMosaic.Lib.ValueIdx

set_option maxRecDepth 16384

noncomputable section

namespace Cert.Kernel.Blocks

open Cert.Kernel Cert.Kernel.Gen
open Idealize.ShloMosaic Idealize.ShloMosaic.TcCoe Idealize.ShloMosaic.ValueIdx Idealize.SL.Sem

/-- A table of one word has one index. -/
private theorem S1_idx (x : S1.Idx) : x = ix1 0 := by
  funext a
  match a with
  | ⟨0, _⟩ =>
    apply Fin.ext
    have h := (x ⟨0, by decide⟩).isLt
    show (x ⟨0, _⟩).val = 0
    have hs : S1.size ⟨0, by decide⟩ = 1 := by decide
    omega

/-- A 32-bit word read signed: itself below 2³¹, itself less 2³² from there on. -/
private theorem toInt_cases (w : BitVec 32) :
    (w.toInt = w.toNat ∧ w.toNat < 2 ^ 31) ∨ (w.toInt = (w.toNat : Int) - 2 ^ 32 ∧ 2 ^ 31 ≤ w.toNat) := by
  have ht := BitVec.toInt_eq_toNat_cond w
  have hw := w.isLt
  by_cases hc : 2 * w.toNat < 2 ^ 32
  · rw [if_pos hc] at ht; exact Or.inl ⟨ht, by omega⟩
  · rw [if_neg hc] at ht; exact Or.inr ⟨by omega, by omega⟩

private theorem toInt_zero : (0#32 : BitVec 32).toInt = 0 := by decide
private theorem toInt_255 : (255#32 : BitVec 32).toInt = 255 := by decide

/-- The clamp min(255, max(0, w)), signed, lies in 0 … 255, -/
private theorem clamp_le (w : BitVec 32) : (IntOp.minsi 255#32 (IntOp.maxsi 0#32 w)).toNat ≤ 255 := by
  unfold IntOp.minsi IntOp.maxsi
  rcases toInt_cases w with ⟨ht, hlt⟩ | ⟨ht, hge⟩
  · have h1 : ¬ (w.slt 0#32 = true) := by
      simp only [BitVec.slt, toInt_zero, ht, decide_eq_true_eq]; omega
    rw [if_neg h1]
    by_cases h2 : (255#32 : BitVec 32).slt w = true
    · rw [if_pos h2]; decide
    · rw [if_neg h2]
      simp only [BitVec.slt, toInt_255, ht, decide_eq_true_eq] at h2
      omega
  · have h1 : w.slt 0#32 = true := by
      simp only [BitVec.slt, toInt_zero, ht, decide_eq_true_eq]; omega
    rw [if_pos h1]; decide

/-- and leaves a word already there. -/
private theorem clamp_eq (w : BitVec 32) (h : w.toNat < 256) : IntOp.minsi 255#32 (IntOp.maxsi 0#32 w) = w := by
  have ht : w.toInt = w.toNat := StableHlo.Predicate.toInt_eq_toNat_of_lt (by omega)
  unfold IntOp.minsi IntOp.maxsi
  have h1 : ¬ (w.slt 0#32 = true) := by
    simp only [BitVec.slt, toInt_zero, ht, decide_eq_true_eq]; omega
  rw [if_neg h1]
  have h2 : ¬ ((255#32 : BitVec 32).slt w = true) := by
    simp only [BitVec.slt, toInt_255, ht, decide_eq_true_eq]; omega
  rw [if_neg h2]

/-- The block index the embedding window's map computes from the table word: the floor of word / 8, spelt with the
    truncating division, the remainder and a correction for operands of opposite signs. -/
private def idxw (v0 : BitVec 32) : BitVec 32 :=
  Scalar.select
    (Scalar.andi
      (Scalar.cmpi .ne (Scalar.subi (Scalar.extui (Scalar.cmpi .sgt v0 0#32)) (Scalar.extui (Scalar.cmpi .slt v0 0#32)))
        (Scalar.subi (Scalar.extui (Scalar.cmpi .sgt 8#32 0#32)) (Scalar.extui (Scalar.cmpi .slt 8#32 0#32))))
      (Scalar.cmpi .ne (Scalar.remsi v0 8#32) 0#32))
    (Scalar.subi (Scalar.divsi v0 8#32) 1#32) (Scalar.divsi v0 8#32)

/-- For a word in 0 … 255 no correction is made and the division is the natural one. -/
private theorem idxw_toNat (w : BitVec 32) (hw : w.toNat ≤ 255) : (idxw w).toNat = w.toNat / 8 := by
  have ht : w.toInt = w.toNat := StableHlo.Predicate.toInt_eq_toNat_of_lt (by omega)
  have hdiv : (Scalar.divsi w 8#32).toNat = w.toNat / 8 := by
    have hcorner : ¬ IntOp.SDivCorner w 8#32 := by
      intro hc; rcases hc with hc | ⟨_, hc⟩ <;> exact absurd hc (by decide)
    have hm : w.msb = false := BitVec.msb_eq_false_iff_two_mul_lt.mpr (by omega)
    simp only [Scalar.divsi, IntOp.divsi, if_neg hcorner, BitVec.sdiv_eq, hm, show (8#32 : BitVec 32).msb = false from by decide,
      BitVec.udiv_eq, BitVec.toNat_udiv, BitVec.toNat_ofNat]
  have hslt : Scalar.cmpi .slt w 0#32 = 0#1 := by
    show BitVec.ofBool (w.slt 0#32) = 0#1
    have : w.slt 0#32 = false := by
      simp only [BitVec.slt, toInt_zero, ht, decide_eq_false_iff_not]; omega
    rw [this]; rfl
  unfold idxw
  rw [hslt]
  by_cases h0 : w.toNat = 0
  · obtain rfl : w = 0#32 := BitVec.eq_of_toNat_eq h0
    decide
  · have hsgt : Scalar.cmpi .sgt w 0#32 = 1#1 := by
      show BitVec.ofBool ((0#32 : BitVec 32).slt w) = 1#1
      have : (0#32 : BitVec 32).slt w = true := by
        simp only [BitVec.slt, toInt_zero, ht, decide_eq_true_eq]; omega
      rw [this]; rfl
    rw [hsgt]
    have hc : Scalar.andi (Scalar.cmpi .ne (Scalar.subi (Scalar.extui 1#1) (Scalar.extui 0#1))
        (Scalar.subi (Scalar.extui (Scalar.cmpi .sgt 8#32 0#32)) (Scalar.extui (Scalar.cmpi .slt 8#32 0#32))))
        (Scalar.cmpi .ne (Scalar.remsi w 8#32) 0#32) = 0#1 := by
      rw [show Scalar.cmpi .ne (Scalar.subi (Scalar.extui 1#1) (Scalar.extui 0#1))
        (Scalar.subi (Scalar.extui (Scalar.cmpi .sgt 8#32 0#32)) (Scalar.extui (Scalar.cmpi .slt 8#32 0#32))) = 0#1 from by decide]
      show (0#1 : BitVec 1) &&& _ = 0#1
      exact BitVec.zero_and
    rw [hc]
    rw [show ∀ a b : BitVec 32, Scalar.select 0#1 a b = b from fun a b => if_neg (by decide)]
    exact hdiv

section AnyInstance

variable {F : FTy → Type} [FloatOps F] (m : (ℓ : Loc nD τ sig) → Buf (Elt F) ℓ)

/-- The token word: argument 0's one entry (there is one device). -/
def word : BitVec 32 := (m (((0 : Dev nD) : Thread nD τ).loc main_arg0) : IVec S1 32) (ix1 0)

/-- The table is the clamp of argument 0 between the two broadcast constants. -/
private theorem V0 : (V m (0 : Dev nD) main_v0 : IVec S1 32)
    = minsi (broadcastInDim S1 ![] bcast_S_S1 (constantI S_ 32 255#32))
        (maxsi (broadcastInDim S1 ![] bcast_S_S1 (constantI S_ 32 0#32)) (m (((0 : Dev nD) : Thread nD τ).loc main_arg0))) := by
  dsimp only [Gen.V]
  simp only [hostOps0, hostOps0_1, hostOps0_2, List.flatten_cons, List.flatten_nil, List.append_nil, List.cons_append, List.nil_append]
  after_results
  rfl

/-- The table's one word is the token clamped into 0 … 255. -/
private theorem tbl_eq (i : S1.Idx) : (tbl m 0 : IVec S1 32) i = IntOp.minsi 255#32 (IntOp.maxsi 0#32 (word m)) := by
  rw [S1_idx i]
  unfold tbl
  show (V m (0 : Dev nD) main_v0 : IVec S1 32) (ix1 0) = _
  rw [V0]
  rfl

/-- The table's one word, as a natural number, is the token clamped into 0 … 255: at most 255, and the token itself
    when the token is already there. -/
theorem tbl_le (i : S1.Idx) : ((tbl m 0 : IVec S1 32) i).toNat ≤ 255 := by
  rw [tbl_eq]; exact clamp_le _

theorem tbl_of_lt (i : S1.Idx) (h : (word m).toNat < 256) : (tbl m 0 : IVec S1 32) i = word m := by
  rw [tbl_eq]; exact clamp_eq _ h

/-- The embedding window's index map at any contents of the table: the floor of the table word / 8, and 0. -/
private theorem transform0_eq (pf : pre0.Contents (Elt F)) (i : grid0.Coords) :
    cc0_transform_0 inb_S1_S1_0 numel1_S1 pf i = ![(idxw ((pf 0 : IVec S1 32) (ix1 0))).toNat, 0] := by
  obtain ⟨x, e⟩ : ∃ x : S1.Idx, cc0_transform_0 inb_S1_S1_0 numel1_S1 pf i = ![(idxw ((pf 0 : IVec S1 32) x)).toNat, 0] :=
    ⟨_, rfl⟩
  rw [e, S1_idx x]

/-- The pipeline's side condition: the embedding window's block lies inside the table's 256 rows. -/
theorem ok : Ok m := by
  intro i
  obtain ⟨n, hn, e⟩ : ∃ n : Nat, n ≤ 31 ∧ cc0_transform_0 inb_S1_S1_0 numel1_S1 (tbl m) i = ![n, 0] :=
    ⟨_, by rw [idxw_toNat _ (tbl_le m (ix1 0))]; have := tbl_le m (ix1 0); omega, transform0_eq (tbl m) i⟩
  rw [e]
  refine ⟨fun a => ?_, Or.inr (Or.inl (Or.inr ⟨(by decide : 2 ≤ 2), rfl, Or.inl ⟨?_, ?_⟩⟩))⟩
  · fin_cases a
    · show (n + 1) * 8 ≤ 256
      omega
    · show (0 + 1) * 128 ≤ 128
      omega
  · show 2 ∣ n * 8
    omega
  · show 2 ∣ 8
    decide

end AnyInstance

end Cert.Kernel.Blocks

end
-- ==== Proof.KernelOuts.lean ====
/-
  What the kernel body leaves in its three output buffers at the one grid point, as the body's arithmetic applied to
  the values it loads from the input blocks: the decoder output is one store of the whole [1,256] row; the new hidden
  states and the new cell states are three stores each, layer l's row at offset l of the [3,1,128] buffer.
  The values loaded are slices of the input blocks: layer l's fused weights, bias, previous hidden and cell state are
  the l-th slab of their arrays; the embedding slab, the decoder's weight and bias are loaded whole.
-/
import proofs.«421514_j47012712022524_3_alg».proof.Proof.Gen.KernelIdeal.Frame
import Idealize.ShloMosaic.Lib.Pipeline.Value

set_option maxRecDepth 16384

noncomputable section

namespace Cert.KernelIdeal.Outs

open Cert.KernelIdeal Cert.KernelIdeal.Gen
open Idealize.ShloMosaic Idealize.ShloMosaic.TcCoe Idealize.SL.Sem Idealize.ShloMosaic.Tactic

variable {F : FTy → Type} [FloatOps F]

/-! ## The values the body loads -/

/-- The token word read from the prefetched table's one entry. -/
abbrev tok (c : Dev nD) (xt0 : TbBuf0 (F := F) c tbM0_0) : Elt F .i32 :=
  View.readAt (Elt F) tbM0_0.view (Rect.unit (s := S1) ![0] S1.size inb_S1_S1_0).toLoadRect xt0 (Shape.Idx.first (numel1_S1.symm ▸ Nat.one_pos))

abbrev ldE (x0 : Vec F S8x128 .bf16) : Vec F S8x128 .bf16 :=
  View.ld x0 (Rect.unit (s := S8x128) ![0, 0] S8x128.size inb_S8x128_S8x128_0_0)
abbrev ldW0 (x3 : Vec F S3x512x256 .bf16) : Vec F S1x512x256 .bf16 :=
  View.ld x3 (Rect.unit (s := S3x512x256) ![0, 0, 0] S1x512x256.size inb_S3x512x256_S1x512x256_0_0_0)
abbrev ldW1 (x3 : Vec F S3x512x256 .bf16) : Vec F S1x512x256 .bf16 :=
  View.ld x3 (Rect.unit (s := S3x512x256) ![1, 0, 0] S1x512x256.size inb_S3x512x256_S1x512x256_1_0_0)
abbrev ldW2 (x3 : Vec F S3x512x256 .bf16) : Vec F S1x512x256 .bf16 :=
  View.ld x3 (Rect.unit (s := S3x512x256) ![2, 0, 0] S1x512x256.size inb_S3x512x256_S1x512x256_2_0_0)
abbrev ldB0 (x4 : Vec F S3x512 .f32) : Vec F S1x512 .f32 :=
  View.ld x4 (Rect.unit (s := S3x512) ![0, 0] S1x512.size inb_S3x512_S1x512_0_0)
abbrev ldB1 (x4 : Vec F S3x512 .f32) : Vec F S1x512 .f32 :=
  View.ld x4 (Rect.unit (s := S3x512) ![1, 0] S1x512.size inb_S3x512_S1x512_1_0)
abbrev ldB2 (x4 : Vec F S3x512 .f32) : Vec F S1x512 .f32 :=
  View.ld x4 (Rect.unit (s := S3x512) ![2, 0] S1x512.size inb_S3x512_S1x512_2_0)
abbrev ldS0 (x1 : Vec F S3x1x128 .f32) : Vec F S1x1x128 .f32 :=
  View.ld x1 (Rect.unit (s := S3x1x128) ![0, 0, 0] S1x1x128.size inb_S3x1x128_S1x1x128_0_0_0)
abbrev ldS1 (x1 : Vec F S3x1x128 .f32) : Vec F S1x1x128 .f32 :=
  View.ld x1 (Rect.unit (s := S3x1x128) ![1, 0, 0] S1x1x128.size inb_S3x1x128_S1x1x128_1_0_0)
abbrev ldS2 (x1 : Vec F S3x1x128 .f32) : Vec F S1x1x128 .f32 :=
  View.ld x1 (Rect.unit (s := S3x1x128) ![2, 0, 0] S1x1x128.size inb_S3x1x128_S1x1x128_2_0_0)
abbrev ldWd (x5 : Vec F S256x128 .bf16) : Vec F S256x128 .bf16 :=
  View.ld x5 (Rect.unit (s := S256x128) ![0, 0] S256x128.size inb_S256x128_S256x128_0_0)
abbrev ldBd (x6 : Vec F S1x256 .f32) : Vec F S1x256 .f32 :=
  View.ld x6 (Rect.unit (s := S1x256) ![0, 0] S1x256.size inb_S1x256_S1x256_0_0)

/-! ## The layers' values -/

section Values
variable (tw : Elt F .i32) (x0 : Vec F S8x128 .bf16) (x1 : Vec F S3x1x128 .f32) (x2 : Vec F S3x1x128 .f32)
  (x3 : Vec F S3x512x256 .bf16) (x4 : Vec F S3x512 .f32)

/-- Layer 0's new cell and hidden state, -/
def cel1 : FVec F S1x128 .f32 := k0_pay3 tw (ldE x0) (ldW0 x3) (ldB0 x4) (ldS0 x1) (ldS0 x2)
def hid1 : FVec F S1x128 .f32 := k0_pay4 tw (ldE x0) (ldW0 x3) (ldB0 x4) (ldS0 x1) (ldS0 x2)
/-- layer 1's from layer 0's hidden state, -/
def cel2 : FVec F S1x128 .f32 := k0_pay8 (hid1 tw x0 x1 x2 x3 x4) (ldW1 x3) (ldB1 x4) (ldS1 x1) (ldS1 x2)
def hid2 : FVec F S1x128 .f32 := k0_pay9 (hid1 tw x0 x1 x2 x3 x4) (ldW1 x3) (ldB1 x4) (ldS1 x1) (ldS1 x2)
/-- layer 2's from layer 1's. -/
def cel3 : FVec F S1x128 .f32 := k0_pay13 (hid2 tw x0 x1 x2 x3 x4) (ldW2 x3) (ldB2 x4) (ldS2 x1) (ldS2 x2)
def hid3 : FVec F S1x128 .f32 := k0_pay14 (hid2 tw x0 x1 x2 x3 x4) (ldW2 x3) (ldB2 x4) (ldS2 x1) (ldS2 x2)
end Values

theorem hz2 : (![0, 0] : Fin 2 → ℕ) = fun _ => 0 := by funext a; fin_cases a <;> rfl

/-- The decoder output's buffer: one store of the whole row. -/
theorem out7_eq (c : Dev nD) (i : grid0.Coords) (arg2 : Memref sig .tc .vmem S8x128 .bf16) (harg2 : arg2.IsWhole) (arg3 : Memref sig .tc .vmem S3x1x128 .f32) (harg3 : arg3.IsWhole) (arg4 : Memref sig .tc .vmem S3x1x128 .f32) (harg4 : arg4.IsWhole) (arg5 : Memref sig .tc .vmem S3x512x256 .bf16) (harg5 : arg5.IsWhole) (arg6 : Memref sig .tc .vmem S3x512 .f32) (harg6 : arg6.IsWhole) (arg7 : Memref sig .tc .vmem S256x128 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S3x1x128 .f32) (harg10 : arg10.IsWhole) (arg11 : Memref sig .tc .vmem S3x1x128 .f32) (harg11 : arg11.IsWhole)
    (x0 : Vec F S8x128 .bf16) (x1 : Vec F S3x1x128 .f32) (x2 : Vec F S3x1x128 .f32) (x3 : Vec F S3x512x256 .bf16) (x4 : Vec F S3x512 .f32) (x5 : Vec F S256x128 .bf16) (x6 : Vec F S1x256 .f32) (xt0 : TbBuf0 (F := F) c tbM0_0) :
    out0_A_7 c i arg2 harg2 arg3 harg3 arg4 harg4 arg5 harg5 arg6 harg6 arg7 harg7 arg8 harg8 arg9 harg9 arg10 harg10 arg11 harg11 x0 x1 x2 x3 x4 x5 x6 xt0
      = k0_pay1 (k0_pay17 (hid2 (tok c xt0) x0 x1 x2 x3 x4) (ldW2 x3) (ldB2 x4) (ldS2 x1) (ldS2 x2)) (ldWd x5) (ldBd x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6 xt0)]
  unfold kernelRun0_A
  dsimp only
  sl_unfold_words
  rw [View.canon_unit_zero hz2]
  simp only [View.readAt_eq_ld, Memref.IsWhole.read_unread]
  rfl

/-- The hidden states' buffer: three stores, layer l's row at offset l. -/
theorem out8_eq (c : Dev nD) (i : grid0.Coords) (arg2 : Memref sig .tc .vmem S8x128 .bf16) (harg2 : arg2.IsWhole) (arg3 : Memref sig .tc .vmem S3x1x128 .f32) (harg3 : arg3.IsWhole) (arg4 : Memref sig .tc .vmem S3x1x128 .f32) (harg4 : arg4.IsWhole) (arg5 : Memref sig .tc .vmem S3x512x256 .bf16) (harg5 : arg5.IsWhole) (arg6 : Memref sig .tc .vmem S3x512 .f32) (harg6 : arg6.IsWhole) (arg7 : Memref sig .tc .vmem S256x128 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S3x1x128 .f32) (harg10 : arg10.IsWhole) (arg11 : Memref sig .tc .vmem S3x1x128 .f32) (harg11 : arg11.IsWhole)
    (x0 : Vec F S8x128 .bf16) (x1 : Vec F S3x1x128 .f32) (x2 : Vec F S3x1x128 .f32) (x3 : Vec F S3x512x256 .bf16) (x4 : Vec F S3x512 .f32) (x5 : Vec F S256x128 .bf16) (x6 : Vec F S1x256 .f32) (xt0 : TbBuf0 (F := F) c tbM0_0) :
    out0_A_8 c i arg2 harg2 arg3 harg3 arg4 harg4 arg5 harg5 arg6 harg6 arg7 harg7 arg8 harg8 arg9 harg9 arg10 harg10 arg11 harg11 x0 x1 x2 x3 x4 x5 x6 xt0
      = View.canon [
          ⟨Rect.unit (s := S3x1x128) ![2, 0, 0] S1x1x128.size inb_S3x1x128_S1x1x128_2_0_0,
            k0_pay15 (hid2 (tok c xt0) x0 x1 x2 x3 x4) (ldW2 x3) (ldB2 x4) (ldS2 x1) (ldS2 x2)⟩,
          ⟨Rect.unit (s := S3x1x128) ![1, 0, 0] S1x1x128.size inb_S3x1x128_S1x1x128_1_0_0,
            k0_pay10 (hid1 (tok c xt0) x0 x1 x2 x3 x4) (ldW1 x3) (ldB1 x4) (ldS1 x1) (ldS1 x2)⟩,
          ⟨Rect.unit (s := S3x1x128) ![0, 0, 0] S1x1x128.size inb_S3x1x128_S1x1x128_0_0_0,
            k0_pay5 (hid1 (tok c xt0) x0 x1 x2 x3 x4)⟩] := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6 xt0)]
  unfold kernelRun0_A
  dsimp only
  sl_unfold_words
  simp only [View.readAt_eq_ld, Memref.IsWhole.read_unread]
  rfl

/-- The cell states' buffer: three stores, layer l's row at offset l. -/
theorem out9_eq (c : Dev nD) (i : grid0.Coords) (arg2 : Memref sig .tc .vmem S8x128 .bf16) (harg2 : arg2.IsWhole) (arg3 : Memref sig .tc .vmem S3x1x128 .f32) (harg3 : arg3.IsWhole) (arg4 : Memref sig .tc .vmem S3x1x128 .f32) (harg4 : arg4.IsWhole) (arg5 : Memref sig .tc .vmem S3x512x256 .bf16) (harg5 : arg5.IsWhole) (arg6 : Memref sig .tc .vmem S3x512 .f32) (harg6 : arg6.IsWhole) (arg7 : Memref sig .tc .vmem S256x128 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S3x1x128 .f32) (harg10 : arg10.IsWhole) (arg11 : Memref sig .tc .vmem S3x1x128 .f32) (harg11 : arg11.IsWhole)
    (x0 : Vec F S8x128 .bf16) (x1 : Vec F S3x1x128 .f32) (x2 : Vec F S3x1x128 .f32) (x3 : Vec F S3x512x256 .bf16) (x4 : Vec F S3x512 .f32) (x5 : Vec F S256x128 .bf16) (x6 : Vec F S1x256 .f32) (xt0 : TbBuf0 (F := F) c tbM0_0) :
    out0_A_9 c i arg2 harg2 arg3 harg3 arg4 harg4 arg5 harg5 arg6 harg6 arg7 harg7 arg8 harg8 arg9 harg9 arg10 harg10 arg11 harg11 x0 x1 x2 x3 x4 x5 x6 xt0
      = View.canon [
          ⟨Rect.unit (s := S3x1x128) ![2, 0, 0] S1x1x128.size inb_S3x1x128_S1x1x128_2_0_0,
            k0_pay16 (hid2 (tok c xt0) x0 x1 x2 x3 x4) (ldW2 x3) (ldB2 x4) (ldS2 x1) (ldS2 x2)⟩,
          ⟨Rect.unit (s := S3x1x128) ![1, 0, 0] S1x1x128.size inb_S3x1x128_S1x1x128_1_0_0,
            k0_pay11 (cel2 (tok c xt0) x0 x1 x2 x3 x4)⟩,
          ⟨Rect.unit (s := S3x1x128) ![0, 0, 0] S1x1x128.size inb_S3x1x128_S1x1x128_0_0_0,
            k0_pay6 (cel1 (tok c xt0) x0 x1 x2 x3 x4)⟩] := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6 xt0)]
  unfold kernelRun0_A
  dsimp only
  sl_unfold_words
  simp only [View.readAt_eq_ld, Memref.IsWhole.read_unread]
  rfl

end Cert.KernelIdeal.Outs

end
-- ==== Proof.Spec.lean ====
/-
  One decoding step of a three-layer LSTM with an embedding row in front and a linear decoder behind,
  written index by index on the extended reals.

  A layer's gate pre-activations at row r are  (Σ_k hin k · W_ih r k) + (Σ_k h0 k · W_hh r k) + b_ih r + b_hh r ;
  rows 0 … 127 are the input gate, 128 … 255 the forget gate, 256 … 383 the cell candidate, 384 … 511 the
  output gate.  The new cell state is σ(f) · c0 + σ(i) · tanh g, the new hidden state σ(o) · tanh c.
  The same pre-activations can be computed in fused form: one sum over 256 terms of the concatenated
  input (hin ‖ h0) against the concatenated weights (W_ih r ‖ W_hh r), plus the pre-summed bias
  b_ih r + b_hh r.  Splitting the long sum at 128 and re-associating the two bias terms shows the two forms
  equal; only commutativity and associativity of + on the extended reals are used, so no finiteness is needed.
  A one-hot selection Σ_k [k = i] · f k is f i, because 0 · y = 0 and 1 · y = y for every extended real y.
-/
import Idealize.ShloMosaic.PureOps.Ideal
import Idealize.ShloMosaic.Lib.ValueIdx
import Mathlib.Algebra.BigOperators.Fin

noncomputable section

namespace Cert.LstmStep

open Idealize.ShloMosaic Idealize.ShloMosaic.ValueIdx

/-- The model's arrays as functions of their coordinates. -/
structure Params where
  emb : Fin 256 → Fin 128 → EReal
  h0 : Fin 3 → Fin 128 → EReal
  c0 : Fin 3 → Fin 128 → EReal
  wih : Fin 3 → Fin 512 → Fin 128 → EReal
  whh : Fin 3 → Fin 512 → Fin 128 → EReal
  bih : Fin 3 → Fin 512 → EReal
  bhh : Fin 3 → Fin 512 → EReal
  wd : Fin 256 → Fin 128 → EReal
  bd : Fin 256 → EReal

/-- The arrays' coordinates read off the ten argument arrays' contents. -/
def mkParams (a1 a2 : (⟨3, ![3, 1, 128]⟩ : Shape).Idx → EReal) (a3 : (⟨2, ![256, 128]⟩ : Shape).Idx → EReal)
    (a4 a5 : (⟨3, ![3, 512, 128]⟩ : Shape).Idx → EReal) (a6 a7 : (⟨2, ![3, 512]⟩ : Shape).Idx → EReal)
    (a8 : (⟨2, ![256, 128]⟩ : Shape).Idx → EReal) (a9 : (⟨1, ![256]⟩ : Shape).Idx → EReal) : Params where
  emb r j := a3 (ix2 r j)
  h0 l j := a1 (ix3 l 0 j)
  c0 l j := a2 (ix3 l 0 j)
  wih l r k := a4 (ix3 l r k)
  whh l r k := a5 (ix3 l r k)
  bih l r := a6 (ix2 l r)
  bhh l r := a7 (ix2 l r)
  wd v k := a8 (ix2 v k)
  bd v := a9 (ix1 v)

/-- Row `128 q + j` of the 512 gate rows: entry j of quarter q. -/
def quarter (q : Fin 4) (j : Fin 128) : Fin 512 := ⟨128 * q.val + j.val, by omega⟩

/-- A layer's gate pre-activations from its input `hin`. -/
def gates (P : Params) (l : Fin 3) (hin : Fin 128 → EReal) (r : Fin 512) : EReal :=
  (∑ k, hin k * P.wih l r k) + (∑ k, P.h0 l k * P.whh l r k) + P.bih l r + P.bhh l r

/-- The layer's new cell state. -/
def cell (P : Params) (l : Fin 3) (hin : Fin 128 → EReal) (j : Fin 128) : EReal :=
  Ideal.logistic (gates P l hin (quarter 1 j)) * P.c0 l j
    + Ideal.logistic (gates P l hin (quarter 0 j)) * Ideal.tanh (gates P l hin (quarter 2 j))

/-- The layer's new hidden state. -/
def hidden (P : Params) (l : Fin 3) (hin : Fin 128 → EReal) (j : Fin 128) : EReal :=
  Ideal.logistic (gates P l hin (quarter 3 j)) * Ideal.tanh (cell P l hin j)

/-- The input of layer l at token x: the embedding row for layer 0, the layer below's hidden state above it. -/
def inp (P : Params) (x : Fin 256) : Fin 3 → Fin 128 → EReal
  | ⟨0, _⟩ => P.emb x
  | ⟨1, _⟩ => hidden P 0 (P.emb x)
  | ⟨2, _⟩ => hidden P 1 (hidden P 0 (P.emb x))

/-- The stacked new hidden and cell states. -/
def hn (P : Params) (x : Fin 256) (l : Fin 3) (j : Fin 128) : EReal := hidden P l (inp P x l) j
def cn (P : Params) (x : Fin 256) (l : Fin 3) (j : Fin 128) : EReal := cell P l (inp P x l) j

/-- The decoder's output at vocabulary entry v. -/
def logits (P : Params) (x : Fin 256) (v : Fin 256) : EReal := (∑ k, hn P x 2 k * P.wd v k) + P.bd v

/-! ## The fused form -/

/-- Two 128-vectors laid end to end. -/
def catIn (a b : Fin 128 → EReal) (k : Fin 256) : EReal :=
  if h : k.val < 128 then a ⟨k.val, h⟩ else b ⟨k.val - 128, by omega⟩

/-- A sum over the concatenation is the sum over the first half plus the sum over the second. -/
theorem sum_catIn (a b u v : Fin 128 → EReal) :
    ∑ k : Fin 256, catIn a b k * catIn u v k = (∑ k, a k * u k) + (∑ k, b k * v k) := by
  refine (Fin.sum_univ_add (fun k : Fin (128 + 128) => catIn a b k * catIn u v k)).trans ?_
  refine congrArg₂ (· + ·) (Finset.sum_congr rfl fun k _ => ?_) (Finset.sum_congr rfl fun k _ => ?_)
  · have hk : (Fin.castAdd 128 k).val < 128 := k.isLt
    simp only [catIn, dif_pos hk]
    rfl
  · have hk : ¬ (Fin.natAdd 128 k).val < 128 := by simp [Fin.natAdd]
    simp only [catIn, dif_neg hk]
    congr 2 <;> exact Fin.ext (by simp [Fin.natAdd])

/-- The fused form of the gate pre-activations is the reference form. -/
theorem gates_fused (P : Params) (l : Fin 3) (hin : Fin 128 → EReal) (r : Fin 512) :
    (∑ k : Fin 256, catIn hin (P.h0 l) k * catIn (P.wih l r) (P.whh l r) k) + (P.bih l r + P.bhh l r)
      = gates P l hin r := by
  simp only [gates, sum_catIn, add_assoc]

/-- A one-hot selection of one of eight values. -/
theorem onehot_sum (f : Fin 8 → EReal) (i : Fin 8) :
    ∑ k : Fin 8, (if k = i then (1 : EReal) else 0) * f k = f i := by
  rw [Finset.sum_eq_single i]
  · rw [if_pos rfl, one_mul]
  · intro k _ hk; rw [if_neg hk, zero_mul]
  · intro h; exact absurd (Finset.mem_univ i) h

end Cert.LstmStep

end
-- ==== Proof.KernelBlocks.lean ====
/-
  What the kernel's region finds when it is entered: the prefetched table holds the token clamped into 0 … 255, so the
  embedding window's block (rows 8·⌊token/8⌋ … +7 of the table) lies inside the 256-row table whatever the token is;
  and each input window's block read at an index, in terms of the argument arrays: the embedding slab, the two state
  arrays, the two weight arrays laid side by side along the contracted axis, the two biases added, the decoder's weight
  and its bias as a row.  Changes of float format are the identity on the extended reals.
-/
import proofs.«421514_j47012712022524_3_alg».proof.Proof.Gen.KernelIdeal.Frame
import proofs.«421514_j47012712022524_3_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.Blocks

open Cert.KernelIdeal Cert.KernelIdeal.Gen Cert.LstmStep
open Idealize.ShloMosaic Idealize.ShloMosaic.TcCoe Idealize.ShloMosaic.ValueIdx Idealize.SL.Sem

/-- A table of one word has one index. -/
private theorem S1_idx (x : S1.Idx) : x = ix1 0 := by
  funext a
  match a with
  | ⟨0, _⟩ =>
    apply Fin.ext
    have h := (x ⟨0, by decide⟩).isLt
    show (x ⟨0, _⟩).val = 0
    have hs : S1.size ⟨0, by decide⟩ = 1 := by decide
    omega

/-- A 32-bit word read signed: itself below 2³¹, itself less 2³² from there on. -/
private theorem toInt_cases (w : BitVec 32) :
    (w.toInt = w.toNat ∧ w.toNat < 2 ^ 31) ∨ (w.toInt = (w.toNat : Int) - 2 ^ 32 ∧ 2 ^ 31 ≤ w.toNat) := by
  have ht := BitVec.toInt_eq_toNat_cond w
  have hw := w.isLt
  by_cases hc : 2 * w.toNat < 2 ^ 32
  · rw [if_pos hc] at ht; exact Or.inl ⟨ht, by omega⟩
  · rw [if_neg hc] at ht; exact Or.inr ⟨by omega, by omega⟩

private theorem toInt_zero : (0#32 : BitVec 32).toInt = 0 := by decide
private theorem toInt_255 : (255#32 : BitVec 32).toInt = 255 := by decide

/-- The clamp min(255, max(0, w)), signed, lies in 0 … 255, -/
private theorem clamp_le (w : BitVec 32) : (IntOp.minsi 255#32 (IntOp.maxsi 0#32 w)).toNat ≤ 255 := by
  unfold IntOp.minsi IntOp.maxsi
  rcases toInt_cases w with ⟨ht, hlt⟩ | ⟨ht, hge⟩
  · have h1 : ¬ (w.slt 0#32 = true) := by
      simp only [BitVec.slt, toInt_zero, ht, decide_eq_true_eq]; omega
    rw [if_neg h1]
    by_cases h2 : (255#32 : BitVec 32).slt w = true
    · rw [if_pos h2]; decide
    · rw [if_neg h2]
      simp only [BitVec.slt, toInt_255, ht, decide_eq_true_eq] at h2
      omega
  · have h1 : w.slt 0#32 = true := by
      simp only [BitVec.slt, toInt_zero, ht, decide_eq_true_eq]; omega
    rw [if_pos h1]; decide

/-- and leaves a word already there. -/
private theorem clamp_eq (w : BitVec 32) (h : w.toNat < 256) : IntOp.minsi 255#32 (IntOp.maxsi 0#32 w) = w := by
  have ht : w.toInt = w.toNat := StableHlo.Predicate.toInt_eq_toNat_of_lt (by omega)
  unfold IntOp.minsi IntOp.maxsi
  have h1 : ¬ (w.slt 0#32 = true) := by
    simp only [BitVec.slt, toInt_zero, ht, decide_eq_true_eq]; omega
  rw [if_neg h1]
  have h2 : ¬ ((255#32 : BitVec 32).slt w = true) := by
    simp only [BitVec.slt, toInt_255, ht, decide_eq_true_eq]; omega
  rw [if_neg h2]

/-- The block index the embedding window's map computes from the table word: the floor of word / 8, spelt with the
    truncating division, the remainder and a correction for operands of opposite signs. -/
private def idxw (v0 : BitVec 32) : BitVec 32 :=
  Scalar.select
    (Scalar.andi
      (Scalar.cmpi .ne (Scalar.subi (Scalar.extui (Scalar.cmpi .sgt v0 0#32)) (Scalar.extui (Scalar.cmpi .slt v0 0#32)))
        (Scalar.subi (Scalar.extui (Scalar.cmpi .sgt 8#32 0#32)) (Scalar.extui (Scalar.cmpi .slt 8#32 0#32))))
      (Scalar.cmpi .ne (Scalar.remsi v0 8#32) 0#32))
    (Scalar.subi (Scalar.divsi v0 8#32) 1#32) (Scalar.divsi v0 8#32)

/-- For a word in 0 … 255 no correction is made and the division is the natural one. -/
private theorem idxw_toNat (w : BitVec 32) (hw : w.toNat ≤ 255) : (idxw w).toNat = w.toNat / 8 := by
  have ht : w.toInt = w.toNat := StableHlo.Predicate.toInt_eq_toNat_of_lt (by omega)
  have hdiv : (Scalar.divsi w 8#32).toNat = w.toNat / 8 := by
    have hcorner : ¬ IntOp.SDivCorner w 8#32 := by
      intro hc; rcases hc with hc | ⟨_, hc⟩ <;> exact absurd hc (by decide)
    have hm : w.msb = false := BitVec.msb_eq_false_iff_two_mul_lt.mpr (by omega)
    simp only [Scalar.divsi, IntOp.divsi, if_neg hcorner, BitVec.sdiv_eq, hm, show (8#32 : BitVec 32).msb = false from by decide,
      BitVec.udiv_eq, BitVec.toNat_udiv, BitVec.toNat_ofNat]
  have hslt : Scalar.cmpi .slt w 0#32 = 0#1 := by
    show BitVec.ofBool (w.slt 0#32) = 0#1
    have : w.slt 0#32 = false := by
      simp only [BitVec.slt, toInt_zero, ht, decide_eq_false_iff_not]; omega
    rw [this]; rfl
  unfold idxw
  rw [hslt]
  by_cases h0 : w.toNat = 0
  · obtain rfl : w = 0#32 := BitVec.eq_of_toNat_eq h0
    decide
  · have hsgt : Scalar.cmpi .sgt w 0#32 = 1#1 := by
      show BitVec.ofBool ((0#32 : BitVec 32).slt w) = 1#1
      have : (0#32 : BitVec 32).slt w = true := by
        simp only [BitVec.slt, toInt_zero, ht, decide_eq_true_eq]; omega
      rw [this]; rfl
    rw [hsgt]
    have hc : Scalar.andi (Scalar.cmpi .ne (Scalar.subi (Scalar.extui 1#1) (Scalar.extui 0#1))
        (Scalar.subi (Scalar.extui (Scalar.cmpi .sgt 8#32 0#32)) (Scalar.extui (Scalar.cmpi .slt 8#32 0#32))))
        (Scalar.cmpi .ne (Scalar.remsi w 8#32) 0#32) = 0#1 := by
      rw [show Scalar.cmpi .ne (Scalar.subi (Scalar.extui 1#1) (Scalar.extui 0#1))
        (Scalar.subi (Scalar.extui (Scalar.cmpi .sgt 8#32 0#32)) (Scalar.extui (Scalar.cmpi .slt 8#32 0#32))) = 0#1 from by decide]
      show (0#1 : BitVec 1) &&& _ = 0#1
      exact BitVec.zero_and
    rw [hc]
    rw [show ∀ a b : BitVec 32, Scalar.select 0#1 a b = b from fun a b => if_neg (by decide)]
    exact hdiv

section AnyInstance

variable {F : FTy → Type} [FloatOps F] (m : (ℓ : Loc nD τ sig) → Buf (Elt F) ℓ)

/-- The token word: argument 0's one entry (there is one device). -/
def word : BitVec 32 := (m (((0 : Dev nD) : Thread nD τ).loc main_arg0) : IVec S1 32) (ix1 0)

/-- The table is the clamp of argument 0 between the two broadcast constants. -/
private theorem V0 : (V m (0 : Dev nD) main_v0 : IVec S1 32)
    = minsi (broadcastInDim S1 ![] bcast_S_S1 (constantI S_ 32 255#32))
        (maxsi (broadcastInDim S1 ![] bcast_S_S1 (constantI S_ 32 0#32)) (m (((0 : Dev nD) : Thread nD τ).loc main_arg0))) := by
  dsimp only [Gen.V]
  simp only [hostOps0, hostOps0_1, hostOps0_2, List.flatten_cons, List.flatten_nil, List.append_nil, List.cons_append, List.nil_append]
  after_results
  rfl

/-- The table's one word is the token clamped into 0 … 255. -/
private theorem tbl_eq (i : S1.Idx) : (tbl m 0 : IVec S1 32) i = IntOp.minsi 255#32 (IntOp.maxsi 0#32 (word m)) := by
  rw [S1_idx i]
  unfold tbl
  show (V m (0 : Dev nD) main_v0 : IVec S1 32) (ix1 0) = _
  rw [V0]
  rfl

/-- The table's one word, as a natural number, is the token clamped into 0 … 255: at most 255, and the token itself
    when the token is already there. -/
theorem tbl_le (i : S1.Idx) : ((tbl m 0 : IVec S1 32) i).toNat ≤ 255 := by
  rw [tbl_eq]; exact clamp_le _

theorem tbl_of_lt (i : S1.Idx) (h : (word m).toNat < 256) : (tbl m 0 : IVec S1 32) i = word m := by
  rw [tbl_eq]; exact clamp_eq _ h

/-- The embedding window's index map at any contents of the table: the floor of the table word / 8, and 0. -/
private theorem transform0_eq (pf : pre0.Contents (Elt F)) (i : grid0.Coords) :
    cc0_transform_0 inb_S1_S1_0 numel1_S1 pf i = ![(idxw ((pf 0 : IVec S1 32) (ix1 0))).toNat, 0] := by
  obtain ⟨x, e⟩ : ∃ x : S1.Idx, cc0_transform_0 inb_S1_S1_0 numel1_S1 pf i = ![(idxw ((pf 0 : IVec S1 32) x)).toNat, 0] :=
    ⟨_, rfl⟩
  rw [e, S1_idx x]

/-- The pipeline's side condition: the embedding window's block lies inside the table's 256 rows. -/
theorem ok : Ok m := by
  intro i
  obtain ⟨n, hn, e⟩ : ∃ n : Nat, n ≤ 31 ∧ cc0_transform_0 inb_S1_S1_0 numel1_S1 (tbl m) i = ![n, 0] :=
    ⟨_, by rw [idxw_toNat _ (tbl_le m (ix1 0))]; have := tbl_le m (ix1 0); omega, transform0_eq (tbl m) i⟩
  rw [e]
  refine ⟨fun a => ?_, Or.inr (Or.inl (Or.inr ⟨(by decide : 2 ≤ 2), rfl, Or.inl ⟨?_, ?_⟩⟩))⟩
  · fin_cases a
    · show (n + 1) * 8 ≤ 256
      omega
    · show (0 + 1) * 128 ≤ 128
      omega
  · show 2 ∣ n * 8
    omega
  · show 2 ∣ 8
    decide

end AnyInstance

section AtIdeal

variable (m : (ℓ : Loc nD τ sig) → Buf (Elt Ideal) ℓ) (hO : Ok m) (c : Dev nD) (t : Fin (cfgM m hO).N)

/-- The input windows' blocks at the one grid point, each at its literal type. -/
abbrev blk0 : Vec Ideal S8x128 .bf16 := iblk m hO c 0 t
abbrev blk1 : Vec Ideal S3x1x128 .f32 := iblk m hO c 1 t
abbrev blk2 : Vec Ideal S3x1x128 .f32 := iblk m hO c 2 t
abbrev blk3 : Vec Ideal S3x512x256 .bf16 := iblk m hO c 3 t
abbrev blk4 : Vec Ideal S3x512 .f32 := iblk m hO c 4 t
abbrev blk5 : Vec Ideal S256x128 .bf16 := iblk m hO c 5 t
abbrev blk6 : Vec Ideal S1x256 .f32 := iblk m hO c 6 t

/-- The argument arrays. -/
abbrev arr1 : FVec Ideal S3x1x128 .f32 := m ((c : Thread nD τ).loc main_arg1)
abbrev arr2 : FVec Ideal S3x1x128 .f32 := m ((c : Thread nD τ).loc main_arg2)
abbrev arr3 : FVec Ideal S256x128 .f32 := m ((c : Thread nD τ).loc main_arg3)
abbrev arr4 : FVec Ideal S3x512x128 .f32 := m ((c : Thread nD τ).loc main_arg4)
abbrev arr5 : FVec Ideal S3x512x128 .f32 := m ((c : Thread nD τ).loc main_arg5)
abbrev arr6 : FVec Ideal S3x512 .f32 := m ((c : Thread nD τ).loc main_arg6)
abbrev arr7 : FVec Ideal S3x512 .f32 := m ((c : Thread nD τ).loc main_arg7)
abbrev arr8 : FVec Ideal S256x128 .f32 := m ((c : Thread nD τ).loc main_arg8)
abbrev arr9 : FVec Ideal S256 .f32 := m ((c : Thread nD τ).loc main_arg9)

/-! Each whole-array window's block read at an index is the array at that index (block index 0, unit stride). -/

private theorem read1 (a : (pcfg0 (F := Ideal)).Adm) (t : Fin (cfg0 a).N) (f : S3x1x128.Idx → EReal) (y : S3x1x128.Idx) :
    (((cfg0 a).win 1).blk t).view.read (Elt Ideal) f y = f y := by
  show f ((((cfg0 a).win 1).blk t).view.emb y) = f y
  refine congrArg f ?_
  funext k
  apply Fin.ext
  simp only [View.emb_slice, Function.Embedding.trans_apply, Function.Embedding.refl_apply]
  show ((pcfg0.win a 1).rect t).off k + ((pcfg0.win a 1).rect t).stride k * (y k).val = (y k).val
  have hs : ((pcfg0.win a 1).rect t).off k = 0 ∧ ((pcfg0.win a 1).rect t).stride k = 1 := by
    fin_cases k <;> exact ⟨rfl, rfl⟩
  rw [hs.1, hs.2]; omega

private theorem read2 (a : (pcfg0 (F := Ideal)).Adm) (t : Fin (cfg0 a).N) (f : S3x1x128.Idx → EReal) (y : S3x1x128.Idx) :
    (((cfg0 a).win 2).blk t).view.read (Elt Ideal) f y = f y := by
  show f ((((cfg0 a).win 2).blk t).view.emb y) = f y
  refine congrArg f ?_
  funext k
  apply Fin.ext
  simp only [View.emb_slice, Function.Embedding.trans_apply, Function.Embedding.refl_apply]
  show ((pcfg0.win a 2).rect t).off k + ((pcfg0.win a 2).rect t).stride k * (y k).val = (y k).val
  have hs : ((pcfg0.win a 2).rect t).off k = 0 ∧ ((pcfg0.win a 2).rect t).stride k = 1 := by
    fin_cases k <;> exact ⟨rfl, rfl⟩
  rw [hs.1, hs.2]; omega

private theorem read3 (a : (pcfg0 (F := Ideal)).Adm) (t : Fin (cfg0 a).N) (f : S3x512x256.Idx → EReal) (y : S3x512x256.Idx) :
    (((cfg0 a).win 3).blk t).view.read (Elt Ideal) f y = f y := by
  show f ((((cfg0 a).win 3).blk t).view.emb y) = f y
  refine congrArg f ?_
  funext k
  apply Fin.ext
  simp only [View.emb_slice, Function.Embedding.trans_apply, Function.Embedding.refl_apply]
  show ((pcfg0.win a 3).rect t).off k + ((pcfg0.win a 3).rect t).stride k * (y k).val = (y k).val
  have hs : ((pcfg0.win a 3).rect t).off k = 0 ∧ ((pcfg0.win a 3).rect t).stride k = 1 := by
    fin_cases k <;> exact ⟨rfl, rfl⟩
  rw [hs.1, hs.2]; omega

private theorem read4 (a : (pcfg0 (F := Ideal)).Adm) (t : Fin (cfg0 a).N) (f : S3x512.Idx → EReal) (y : S3x512.Idx) :
    (((cfg0 a).win 4).blk t).view.read (Elt Ideal) f y = f y := by
  show f ((((cfg0 a).win 4).blk t).view.emb y) = f y
  refine congrArg f ?_
  funext k
  apply Fin.ext
  simp only [View.emb_slice, Function.Embedding.trans_apply, Function.Embedding.refl_apply]
  show ((pcfg0.win a 4).rect t).off k + ((pcfg0.win a 4).rect t).stride k * (y k).val = (y k).val
  have hs : ((pcfg0.win a 4).rect t).off k = 0 ∧ ((pcfg0.win a 4).rect t).stride k = 1 := by
    fin_cases k <;> exact ⟨rfl, rfl⟩
  rw [hs.1, hs.2]; omega

private theorem read5 (a : (pcfg0 (F := Ideal)).Adm) (t : Fin (cfg0 a).N) (f : S256x128.Idx → EReal) (y : S256x128.Idx) :
    (((cfg0 a).win 5).blk t).view.read (Elt Ideal) f y = f y := by
  show f ((((cfg0 a).win 5).blk t).view.emb y) = f y
  refine congrArg f ?_
  funext k
  apply Fin.ext
  simp only [View.emb_slice, Function.Embedding.trans_apply, Function.Embedding.refl_apply]
  show ((pcfg0.win a 5).rect t).off k + ((pcfg0.win a 5).rect t).stride k * (y k).val = (y k).val
  have hs : ((pcfg0.win a 5).rect t).off k = 0 ∧ ((pcfg0.win a 5).rect t).stride k = 1 := by
    fin_cases k <;> exact ⟨rfl, rfl⟩
  rw [hs.1, hs.2]; omega

private theorem read6 (a : (pcfg0 (F := Ideal)).Adm) (t : Fin (cfg0 a).N) (f : S1x256.Idx → EReal) (y : S1x256.Idx) :
    (((cfg0 a).win 6).blk t).view.read (Elt Ideal) f y = f y := by
  show f ((((cfg0 a).win 6).blk t).view.emb y) = f y
  refine congrArg f ?_
  funext k
  apply Fin.ext
  simp only [View.emb_slice, Function.Embedding.trans_apply, Function.Embedding.refl_apply]
  show ((pcfg0.win a 6).rect t).off k + ((pcfg0.win a 6).rect t).stride k * (y k).val = (y k).val
  have hs : ((pcfg0.win a 6).rect t).off k = 0 ∧ ((pcfg0.win a 6).rect t).stride k = 1 := by
    fin_cases k <;> exact ⟨rfl, rfl⟩
  rw [hs.1, hs.2]; omega

/-! The windows' arrays as the region finds them, in terms of the argument arrays. -/

private theorem V5 : (V m c main_v5 : FVec Ideal S3x512 .f32) = addf (arr6 m c) (arr7 m c) := by
  dsimp only [Gen.V]
  simp only [hostOps0, hostOps0_1, hostOps0_2, List.flatten_cons, List.flatten_nil, List.append_nil, List.cons_append, List.nil_append]
  after_results

private theorem V6 : (V m c main_v6 : FVec Ideal S256x128 .bf16) = truncf .bf16 (arr8 m c) bitsLt_bf16_f32 := by
  dsimp only [Gen.V]
  simp only [hostOps0, hostOps0_1, hostOps0_2, List.flatten_cons, List.flatten_nil, List.append_nil, List.cons_append, List.nil_append]
  after_results

private theorem V2 : (V m c main_v2 : FVec Ideal S256x128 .bf16) = truncf .bf16 (arr3 m c) bitsLt_bf16_f32 := by
  dsimp only [Gen.V]
  simp only [hostOps0, hostOps0_1, hostOps0_2, List.flatten_cons, List.flatten_nil, List.append_nil, List.cons_append, List.nil_append]
  after_results

private theorem V1 : (V m c main_v1 : FVec Ideal S1x256 .f32) = shapeCast S1x256 (arr9 m c) shapeCasts_S256_S1x256 := by
  dsimp only [Gen.V]
  simp only [hostOps0, hostOps0_1, hostOps0_2, List.flatten_cons, List.flatten_nil, List.append_nil, List.cons_append, List.nil_append]
  after_results
  rfl

private theorem V4 : (V m c main_v4 : FVec Ideal S3x512x256 .bf16) = truncf .bf16 (concatenate S3x512x256 2 [⟨S3x512x128, arr4 m c⟩, ⟨S3x512x128, arr5 m c⟩] concatenates_S3x512x128_S3x512x128_S3x512x256_d2 : FVec Ideal S3x512x256 .f32) bitsLt_bf16_f32 := by
  dsimp only [Gen.V]
  simp only [hostOps0, hostOps0_1, hostOps0_2, List.flatten_cons, List.flatten_nil, List.append_nil, List.cons_append, List.nil_append]
  after_results

/-- The embedding window's block read at an index: the table's row (block index × 8 + the row inside the block). -/
private theorem read0 (a' : (pcfg0 (F := Ideal)).Adm) (t : Fin (cfg0 a').N) (f : S256x128.Idx → EReal) (y : S8x128.Idx) (z : S256x128.Idx)
    (pf : pre0.Contents (Elt Ideal)) (hpf : a'.1 = pf) (n : Nat)
    (hn : cc0_transform_0 inb_S1_S1_0 numel1_S1 pf (grid0.coords t) = ![n, 0])
    (hz0 : (z 0).val = n * 8 + (y 0).val) (hz1 : (z 1).val = (y 1).val) :
    (((cfg0 a').win 0).blk t).view.read (Elt Ideal) f y = f z := by
  subst hpf
  show f ((((cfg0 a').win 0).blk t).view.emb y) = f z
  refine congrArg f ?_
  funext k
  apply Fin.ext
  simp only [View.emb_slice, Function.Embedding.trans_apply, Function.Embedding.refl_apply]
  show ((pcfg0.win a' 0).rect t).off k + ((pcfg0.win a' 0).rect t).stride k * (y k).val = (z k).val
  have hoff : ((pcfg0.win a' 0).rect t).off k
      = cc0_transform_0 inb_S1_S1_0 numel1_S1 a'.1 (grid0.coords t) k * S8x128.size k := rfl
  have hstr : ((pcfg0.win a' 0).rect t).stride k = 1 := rfl
  rw [hoff, hstr, hn]
  fin_cases k
  · show n * 8 + 1 * (y 0).val = (z 0).val
    omega
  · show 0 * 128 + 1 * (y 1).val = (z 1).val
    omega

/-- The embedding slab: row a of the block is row 8·⌊x/8⌋ + a of the table, for a token x in 0 … 255. -/
theorem blk0_apply (x : Fin 256) (hx : (word m).toNat = x.val) (a : Fin 8) (j : Fin 128) :
    blk0 m hO c t (ix2 a j) = arr3 m c (ix2 ⟨8 * (x.val / 8) + a.val, by omega⟩ j) := by
  show iblk m hO c 0 t (ix2 a j) = _
  unfold iblk
  have hw : (tbl m 0 : IVec S1 32) (ix1 0) = word m := tbl_of_lt m (ix1 0) (by rw [hx]; exact x.isLt)
  have hn : cc0_transform_0 inb_S1_S1_0 numel1_S1 (tbl m) (grid0.coords t) = ![x.val / 8, 0] := by
    rw [transform0_eq, hw, idxw_toNat _ (by have := x.isLt; omega), hx]
  refine (read0 (adm m hO) t _ (ix2 a j) (ix2 ⟨8 * (x.val / 8) + a.val, by omega⟩ j) (tbl m) rfl (x.val / 8) hn ?_ rfl).trans ?_
  · show 8 * (x.val / 8) + a.val = x.val / 8 * 8 + a.val
    omega
  · exact congrFun (V2 m c) _

theorem blk1_apply (l : Fin 3) (j : Fin 128) : blk1 m hO c t (ix3 l 0 j) = arr1 m c (ix3 l 0 j) := by
  show iblk m hO c 1 t (ix3 l 0 j) = _
  unfold iblk
  refine (read1 (adm m hO) t _ (ix3 l 0 j)).trans ?_
  exact congrFun (V_main_arg1 m c) (ix3 l 0 j)

theorem blk2_apply (l : Fin 3) (j : Fin 128) : blk2 m hO c t (ix3 l 0 j) = arr2 m c (ix3 l 0 j) := by
  show iblk m hO c 2 t (ix3 l 0 j) = _
  unfold iblk
  refine (read2 (adm m hO) t _ (ix3 l 0 j)).trans ?_
  exact congrFun (V_main_arg2 m c) (ix3 l 0 j)

/-- The fused weights: W_ih and W_hh side by side along the contracted axis. -/
theorem blk3_apply (l : Fin 3) (r : Fin 512) (k : Fin 256) :
    blk3 m hO c t (ix3 l r k) = catIn (fun k' => arr4 m c (ix3 l r k')) (fun k' => arr5 m c (ix3 l r k')) k := by
  show iblk m hO c 3 t (ix3 l r k) = _
  unfold iblk
  refine (read3 (adm m hO) t _ (ix3 l r k)).trans ?_
  refine (congrFun (V4 m c) (ix3 l r k)).trans ?_
  show concatenate S3x512x256 2 [⟨S3x512x128, arr4 m c⟩, ⟨S3x512x128, arr5 m c⟩] concatenates_S3x512x128_S3x512x128_S3x512x256_d2 (ix3 l r k) = _
  unfold catIn
  by_cases hk : k.val < 128
  · rw [dif_pos hk]
    exact concatenate_pair_apply_left (2 : Fin 3) (arr4 m c) (arr5 m c) _ (ix3 l r k) rfl (ix3 l r ⟨k.val, hk⟩)
      (fun b => by fin_cases b <;> rfl)
  · rw [dif_neg hk]
    refine concatenate_pair_apply_right (2 : Fin 3) (arr4 m c) (arr5 m c) _ (ix3 l r k) rfl rfl (ix3 l r ⟨k.val - 128, by omega⟩)
      (fun b hb => ?_) ?_
    · fin_cases b
      · rfl
      · rfl
      · exact absurd rfl hb
    · show k.val - 128 + 128 = k.val
      omega

theorem blk4_apply (l : Fin 3) (r : Fin 512) : blk4 m hO c t (ix2 l r) = arr6 m c (ix2 l r) + arr7 m c (ix2 l r) := by
  show iblk m hO c 4 t (ix2 l r) = _
  unfold iblk
  refine (read4 (adm m hO) t _ (ix2 l r)).trans ?_
  exact congrFun (V5 m c) (ix2 l r)

theorem blk5_apply (v : Fin 256) (k : Fin 128) : blk5 m hO c t (ix2 v k) = arr8 m c (ix2 v k) := by
  show iblk m hO c 5 t (ix2 v k) = _
  unfold iblk
  refine (read5 (adm m hO) t _ (ix2 v k)).trans ?_
  exact congrFun (V6 m c) (ix2 v k)

theorem blk6_apply (v : Fin 256) : blk6 m hO c t (ix2 0 v) = arr9 m c (ix1 v) := by
  show iblk m hO c 6 t (ix2 0 v) = _
  unfold iblk
  refine (read6 (adm m hO) t _ (ix2 0 v)).trans ?_
  refine (congrFun (V1 m c) (ix2 0 v)).trans ?_
  refine (shapeCast_addUnit_apply ![256] (arr9 m c) shapeCasts_S256_S1x256 (ix2 0 v)).trans ?_
  refine congrArg (arr9 m c) ?_
  funext a
  fin_cases a
  rfl

end AtIdeal

end Cert.KernelIdeal.Blocks

end
-- ==== Proof.KernelPay.lean ====
/-
  The kernel body's arithmetic, one stored or carried value at a time, read at an index on the extended reals.

  A layer's gate pre-activations are one product of the concatenated input (layer input ‖ previous hidden state) with the
  layer's fused weight rows, plus the pre-summed bias; the four quarters of the 512 rows feed the logistic and tanh
  gates.  Layer 0's input is the embedding row picked from an 8-row slab by a one-hot product.  Changes of float
  format are the identity on the extended reals; reshapes between [1,128] and [1,1,128] keep the last coordinate.
-/
import proofs.«421514_j47012712022524_3_alg».proof.Proof.Gen.KernelIdeal.Skeleton
import proofs.«421514_j47012712022524_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.LstmStep
open Idealize.ShloMosaic Idealize.ShloMosaic.ValueIdx

/-! ## Reshapes that add or drop a unit axis -/

private theorem up_apply (v : FVec Ideal S1x128 .f32) (j : Fin 128) :
    shapeCast S1x1x128 v shapeCasts_S1x128_S1x1x128 (ix3 0 0 j) = v (ix2 0 j) :=
  shapeCast_ab_1ab_apply v _ 0 0 j

private theorem down_apply (v : Vec Ideal S1x1x128 .f32) (j : Fin 128) :
    shapeCast S1x128 v shapeCasts_S1x1x128_S1x128 (ix2 0 j) = v (ix3 0 0 j) :=
  shapeCast_1ab_ab_apply v _ 0 j

/-- A quarter of the 512 gate rows: the slice from column 128 q reads row `quarter q j`. -/
private theorem q0_apply (g : FVec Ideal S1x512 .f32) (j : Fin 128) :
    extractStridedSlice S1x128 ![0, 0] g slices_S1x512_o0_0_S1x128 (ix2 0 j) = g (ix2 0 (quarter 0 j)) :=
  slice2_axis1_apply 0 g _ 0 j (quarter 0 j) (by simp [quarter])
private theorem q1_apply (g : FVec Ideal S1x512 .f32) (j : Fin 128) :
    extractStridedSlice S1x128 ![0, 128] g slices_S1x512_o0_128_S1x128 (ix2 0 j) = g (ix2 0 (quarter 1 j)) :=
  slice2_axis1_apply 128 g _ 0 j (quarter 1 j) (by simp [quarter])
private theorem q2_apply (g : FVec Ideal S1x512 .f32) (j : Fin 128) :
    extractStridedSlice S1x128 ![0, 256] g slices_S1x512_o0_256_S1x128 (ix2 0 j) = g (ix2 0 (quarter 2 j)) :=
  slice2_axis1_apply 256 g _ 0 j (quarter 2 j) (by simp [quarter])
private theorem q3_apply (g : FVec Ideal S1x512 .f32) (j : Fin 128) :
    extractStridedSlice S1x128 ![0, 384] g slices_S1x512_o0_384_S1x128 (ix2 0 j) = g (ix2 0 (quarter 3 j)) :=
  slice2_axis1_apply 384 g _ 0 j (quarter 3 j) (by simp [quarter])

/-- The cell update from the gate rows `g` and the stored cell state `c`. -/
private theorem cell_apply (g : FVec Ideal S1x512 .f32) (c : Vec Ideal S1x1x128 .f32) (j : Fin 128) :
    addf (mulf (logistic (extractStridedSlice S1x128 ![0, 128] g slices_S1x512_o0_128_S1x128))
            (shapeCast S1x128 c shapeCasts_S1x1x128_S1x128))
         (mulf (logistic (extractStridedSlice S1x128 ![0, 0] g slices_S1x512_o0_0_S1x128))
            (tanh (extractStridedSlice S1x128 ![0, 256] g slices_S1x512_o0_256_S1x128))) (ix2 0 j)
      = Ideal.logistic (g (ix2 0 (quarter 1 j))) * c (ix3 0 0 j)
        + Ideal.logistic (g (ix2 0 (quarter 0 j))) * Ideal.tanh (g (ix2 0 (quarter 2 j))) := by
  show FloatOps.logistic (extractStridedSlice S1x128 ![0, 128] g slices_S1x512_o0_128_S1x128 (ix2 0 j))
        * shapeCast S1x128 c shapeCasts_S1x1x128_S1x128 (ix2 0 j)
      + FloatOps.logistic (extractStridedSlice S1x128 ![0, 0] g slices_S1x512_o0_0_S1x128 (ix2 0 j))
        * FloatOps.tanh (extractStridedSlice S1x128 ![0, 256] g slices_S1x512_o0_256_S1x128 (ix2 0 j)) = _
  rw [q0_apply, q1_apply, q2_apply, down_apply]
  rfl

/-- The hidden update from the gate rows `g` and the new cell state `cn`. -/
private theorem hid_apply (g : FVec Ideal S1x512 .f32) (cn : FVec Ideal S1x128 .f32) (j : Fin 128) :
    mulf (logistic (extractStridedSlice S1x128 ![0, 384] g slices_S1x512_o0_384_S1x128)) (tanh cn) (ix2 0 j)
      = Ideal.logistic (g (ix2 0 (quarter 3 j))) * Ideal.tanh (cn (ix2 0 j)) := by
  show FloatOps.logistic (extractStridedSlice S1x128 ![0, 384] g slices_S1x512_o0_384_S1x128 (ix2 0 j))
        * FloatOps.tanh (cn (ix2 0 j)) = _
  rw [q3_apply]
  rfl

/-! ## The three contractions, each a plain sum over its one contracted coordinate -/

private theorem lhsG_0 (j : S1x512.Idx) (k : dot_S1x256_S512x256_S1x512_1_1_0_0_n_n.contr.Idx) :
    (dot_S1x256_S512x256_S1x512_1_1_0_0_n_n.lhsIdx j k 0 : ℕ) = 0 :=
  Nat.lt_one_iff.mp (dot_S1x256_S512x256_S1x512_1_1_0_0_n_n.lhsIdx j k 0).isLt
private theorem lhsG_1 (j : S1x512.Idx) (k : dot_S1x256_S512x256_S1x512_1_1_0_0_n_n.contr.Idx) :
    (dot_S1x256_S512x256_S1x512_1_1_0_0_n_n.lhsIdx j k 1 : ℕ) = k ⟨0, by decide⟩ := by
  simp [DotDims.lhsIdx, dot_S1x256_S512x256_S1x512_1_1_0_0_n_n]; rfl
private theorem rhsG_0 (j : S1x512.Idx) (k : dot_S1x256_S512x256_S1x512_1_1_0_0_n_n.contr.Idx) :
    (dot_S1x256_S512x256_S1x512_1_1_0_0_n_n.rhsIdx j k 0 : ℕ) = j 1 := by
  simp [DotDims.rhsIdx, dot_S1x256_S512x256_S1x512_1_1_0_0_n_n]; rfl
private theorem rhsG_1 (j : S1x512.Idx) (k : dot_S1x256_S512x256_S1x512_1_1_0_0_n_n.contr.Idx) :
    (dot_S1x256_S512x256_S1x512_1_1_0_0_n_n.rhsIdx j k 1 : ℕ) = k ⟨0, by decide⟩ := by
  simp [DotDims.rhsIdx, dot_S1x256_S512x256_S1x512_1_1_0_0_n_n]; rfl

/-- The gates' product: row r of the weights against the concatenated input. -/
private theorem gates_mm (x : FVec Ideal S1x256 .bf16) (w : FVec Ideal S512x256 .bf16) (r : Fin 512) :
    matmul dot_S1x256_S512x256_S1x512_1_1_0_0_n_n none x w (constant (F := Ideal) S1x512 .f32 0x00000000#32) (ix2 0 r)
      = ∑ k : Fin 256, x (ix2 0 k) * w (ix2 r k) := by
  simp only [matmul]
  rw [Ideal.matmul_constant_zero_apply,
    ← Equiv.sum_comp (contrEquiv1 dot_S1x256_S512x256_S1x512_1_1_0_0_n_n 256 rfl rfl).symm]
  refine Finset.sum_congr rfl fun k _ => ?_
  congr 2
  · apply Shape.idx_ext₂
    · exact lhsG_0 _ _
    · exact (lhsG_1 _ _).trans (contrEquiv1_symm_val _ 256 rfl rfl k)
  · apply Shape.idx_ext₂
    · exact rhsG_0 _ _
    · exact (rhsG_1 _ _).trans (contrEquiv1_symm_val _ 256 rfl rfl k)

/-- Two [1,128] rows laid end to end along axis 1. -/
private theorem cat_apply (a b : FVec Ideal S1x128 .bf16) (k : Fin 256) :
    concatenate S1x256 1 [⟨S1x128, a⟩, ⟨S1x128, b⟩] concatenates_S1x128_S1x128_S1x256_d1 (ix2 0 k)
      = catIn (fun j => a (ix2 0 j)) (fun j => b (ix2 0 j)) k := by
  unfold catIn
  split
  · next h =>
    exact concatenate_pair_apply_left 1 a b _ (ix2 0 k) rfl (ix2 0 ⟨k.val, h⟩) (fun bb => by
      match bb with
      | ⟨0, _⟩ => rfl
      | ⟨1, _⟩ => rfl)
  · next h =>
    exact concatenate_pair_apply_right 1 a b _ (ix2 0 k) rfl rfl (ix2 0 ⟨k.val - 128, by omega⟩) (fun bb hb => by
      match bb, hb with
      | ⟨0, _⟩, _ => rfl
      | ⟨1, _⟩, hb => exact absurd rfl hb)
      (by show (k.val - 128) + 128 = k.val; omega)

/-- The fused gate pre-activations of a layer from its input `xin`, its weights, its bias and the stored hidden state. -/
private theorem gates_apply (xin : FVec Ideal S1x128 .f32) (w : Vec Ideal S1x512x256 .bf16) (b : Vec Ideal S1x512 .f32)
    (h : Vec Ideal S1x1x128 .f32) (r : Fin 512) :
    addf (matmul dot_S1x256_S512x256_S1x512_1_1_0_0_n_n none
            (concatenate S1x256 1 [⟨S1x128, truncf .bf16 xin bitsLt_bf16_f32⟩,
              ⟨S1x128, truncf .bf16 (shapeCast S1x128 h shapeCasts_S1x1x128_S1x128 : FVec Ideal S1x128 .f32) bitsLt_bf16_f32⟩]
              concatenates_S1x128_S1x128_S1x256_d1 : FVec Ideal S1x256 .bf16)
            (shapeCast S512x256 w shapeCasts_S1x512x256_S512x256 : FVec Ideal S512x256 .bf16)
            (constant (F := Ideal) S1x512 .f32 0x00000000#32))
         (shapeCast S1x512 (shapeCast S512 b shapeCasts_S1x512_S512 : FVec Ideal S512 .f32) shapeCasts_S512_S1x512
            : FVec Ideal S1x512 .f32) (ix2 0 r)
      = (∑ k : Fin 256, catIn (fun j => xin (ix2 0 j)) (fun j => h (ix3 0 0 j)) k * w (ix3 0 r k)) + b (ix2 0 r) := by
  rw [addf_apply, gates_mm, shapeCast_a_1a_apply, shapeCast_1a_a_apply]
  refine congrArg (· + b (ix2 0 r)) (Finset.sum_congr rfl fun k _ => ?_)
  rw [cat_apply, shapeCast_1ab_ab_apply]
  refine congrArg (fun f => catIn (fun j => xin (ix2 0 j)) f k * w (ix3 0 r k)) (funext fun j => ?_)
  exact down_apply h j

/-- Layers 1 and 2: the fused gate pre-activations at row r. -/
theorem pay7_apply (hin : FVec Ideal S1x128 .f32) (w : Vec Ideal S1x512x256 .bf16) (b : Vec Ideal S1x512 .f32)
    (h : Vec Ideal S1x1x128 .f32) (r : Fin 512) :
    k0_pay7 (F := Ideal) hin w b h (ix2 0 r)
      = (∑ k : Fin 256, catIn (fun j => hin (ix2 0 j)) (fun j => h (ix3 0 0 j)) k * w (ix3 0 r k)) + b (ix2 0 r) :=
  gates_apply hin w b h r

/-- The new cell state from the gates' quarters. -/
theorem pay8_apply (hin : FVec Ideal S1x128 .f32) (w : Vec Ideal S1x512x256 .bf16) (b : Vec Ideal S1x512 .f32)
    (h c : Vec Ideal S1x1x128 .f32) (j : Fin 128) :
    k0_pay8 (F := Ideal) hin w b h c (ix2 0 j)
      = Ideal.logistic (k0_pay7 (F := Ideal) hin w b h (ix2 0 (quarter 1 j))) * c (ix3 0 0 j)
        + Ideal.logistic (k0_pay7 (F := Ideal) hin w b h (ix2 0 (quarter 0 j)))
          * Ideal.tanh (k0_pay7 (F := Ideal) hin w b h (ix2 0 (quarter 2 j))) :=
  cell_apply (k0_pay7 (F := Ideal) hin w b h) c j

/-- The new hidden state. -/
theorem pay9_apply (hin : FVec Ideal S1x128 .f32) (w : Vec Ideal S1x512x256 .bf16) (b : Vec Ideal S1x512 .f32)
    (h c : Vec Ideal S1x1x128 .f32) (j : Fin 128) :
    k0_pay9 (F := Ideal) hin w b h c (ix2 0 j)
      = Ideal.logistic (k0_pay7 (F := Ideal) hin w b h (ix2 0 (quarter 3 j)))
        * Ideal.tanh (k0_pay8 (F := Ideal) hin w b h c (ix2 0 j)) :=
  hid_apply (k0_pay7 (F := Ideal) hin w b h) (k0_pay8 (F := Ideal) hin w b h c) j

/-- Layer 2's three values are layer 1's functions of their own loads. -/
theorem pay12_eq : @k0_pay12 Ideal _ = @k0_pay7 Ideal _ := rfl
theorem pay13_eq : @k0_pay13 Ideal _ = @k0_pay8 Ideal _ := rfl
theorem pay14_eq : @k0_pay14 Ideal _ = @k0_pay9 Ideal _ := rfl

private theorem lhsE_0 (j : S1x128.Idx) (k : dot_S1x8_S8x128_S1x128_1_0_0_1_n_n.contr.Idx) :
    (dot_S1x8_S8x128_S1x128_1_0_0_1_n_n.lhsIdx j k 0 : ℕ) = 0 :=
  Nat.lt_one_iff.mp (dot_S1x8_S8x128_S1x128_1_0_0_1_n_n.lhsIdx j k 0).isLt
private theorem lhsE_1 (j : S1x128.Idx) (k : dot_S1x8_S8x128_S1x128_1_0_0_1_n_n.contr.Idx) :
    (dot_S1x8_S8x128_S1x128_1_0_0_1_n_n.lhsIdx j k 1 : ℕ) = k ⟨0, by decide⟩ := by
  simp [DotDims.lhsIdx, dot_S1x8_S8x128_S1x128_1_0_0_1_n_n]; rfl
private theorem rhsE_0 (j : S1x128.Idx) (k : dot_S1x8_S8x128_S1x128_1_0_0_1_n_n.contr.Idx) :
    (dot_S1x8_S8x128_S1x128_1_0_0_1_n_n.rhsIdx j k 0 : ℕ) = k ⟨0, by decide⟩ := by
  simp [DotDims.rhsIdx, dot_S1x8_S8x128_S1x128_1_0_0_1_n_n]; rfl
private theorem rhsE_1 (j : S1x128.Idx) (k : dot_S1x8_S8x128_S1x128_1_0_0_1_n_n.contr.Idx) :
    (dot_S1x8_S8x128_S1x128_1_0_0_1_n_n.rhsIdx j k 1 : ℕ) = j 1 := by
  simp [DotDims.rhsIdx, dot_S1x8_S8x128_S1x128_1_0_0_1_n_n]; rfl

/-- The embedding product: the one-hot row against column j of the slab. -/
private theorem emb_mm (x : FVec Ideal S1x8 .bf16) (e : FVec Ideal S8x128 .bf16) (j : Fin 128) :
    matmul dot_S1x8_S8x128_S1x128_1_0_0_1_n_n none x e (constant (F := Ideal) S1x128 .f32 0x00000000#32) (ix2 0 j)
      = ∑ k : Fin 8, x (ix2 0 k) * e (ix2 k j) := by
  simp only [matmul]
  rw [Ideal.matmul_constant_zero_apply,
    ← Equiv.sum_comp (contrEquiv1 dot_S1x8_S8x128_S1x128_1_0_0_1_n_n 8 rfl rfl).symm]
  refine Finset.sum_congr rfl fun k _ => ?_
  congr 2
  · apply Shape.idx_ext₂
    · exact lhsE_0 _ _
    · exact (lhsE_1 _ _).trans (contrEquiv1_symm_val _ 8 rfl rfl k)
  · apply Shape.idx_ext₂
    · exact (rhsE_0 _ _).trans (contrEquiv1_symm_val _ 8 rfl rfl k)
    · exact rhsE_1 _ _

/-- The comparison word of two coordinates below 8, widened and read signed: 1 where they agree, 0 elsewhere. -/
private theorem eq_word : ∀ k i : Fin 8,
    ((IntOp.cmpi .eq (BitVec.ofNat 32 k.val) (BitVec.ofNat 32 i.val)).setWidth 32).toInt = if k = i then 1 else 0 := by
  decide

/-- The one-hot row: 1 at the token's slab row, 0 elsewhere. -/
private theorem onehot_apply (v0 : Elt Ideal .i32) (i : Fin 8) (hi : Scalar.remsi v0 8#32 = BitVec.ofNat 32 i.val) (k : Fin 8) :
    (truncf .bf16 (sitofp .f32 (extui 32 (cmpi .eq (iota .tc S1x8 32 [1] iota_S1x8_d1_w32)
        (broadcast S1x8 (Scalar.remsi v0 8#32))) natLt_1_32) : FVec Ideal S1x8 .f32) bitsLt_bf16_f32
        : FVec Ideal S1x8 .bf16) (ix2 0 k) = if k = i then (1 : EReal) else 0 := by
  show ((((IntOp.cmpi .eq (iota .tc S1x8 32 [1] iota_S1x8_d1_w32 (ix2 0 k)) (Scalar.remsi v0 8#32)).setWidth 32).toInt : ℝ) : EReal) = _
  rw [iota_single_apply, hi]
  show ((((IntOp.cmpi .eq (BitVec.ofNat 32 k.val) (BitVec.ofNat 32 i.val)).setWidth 32).toInt : ℝ) : EReal) = _
  rw [eq_word]
  split <;> simp

/-- Layer 0's input: the one-hot row times the slab. -/
private def embRow (v0 : Elt Ideal .i32) (e : Vec Ideal S8x128 .bf16) : FVec Ideal S1x128 .f32 :=
  matmul dot_S1x8_S8x128_S1x128_1_0_0_1_n_n none
    (truncf .bf16 (sitofp .f32 (extui 32 (cmpi .eq (iota .tc S1x8 32 [1] iota_S1x8_d1_w32)
        (broadcast S1x8 (Scalar.remsi v0 8#32))) natLt_1_32) : FVec Ideal S1x8 .f32) bitsLt_bf16_f32
        : FVec Ideal S1x8 .bf16)
    (shapeCast S8x128 e shapeCasts_S8x128_S8x128 : FVec Ideal S8x128 .bf16)
    (constant (F := Ideal) S1x128 .f32 0x00000000#32)

/-- It is the slab's row `i` = token mod 8. -/
private theorem embRow_apply (v0 : Elt Ideal .i32) (i : Fin 8) (hi : Scalar.remsi v0 8#32 = BitVec.ofNat 32 i.val)
    (e : Vec Ideal S8x128 .bf16) (j : Fin 128) : embRow v0 e (ix2 0 j) = e (ix2 i j) := by
  unfold embRow
  rw [emb_mm, shapeCast_self, Finset.sum_congr rfl (fun k _ => by rw [onehot_apply v0 i hi k])]
  exact onehot_sum (fun k => e (ix2 k j)) i

/-- Layer 0: the fused gate pre-activations at row r, the input the slab's row `i` = token mod 8. -/
theorem pay2_apply (v0 : Elt Ideal .i32) (i : Fin 8) (hi : Scalar.remsi v0 8#32 = BitVec.ofNat 32 i.val)
    (e : Vec Ideal S8x128 .bf16) (w : Vec Ideal S1x512x256 .bf16) (b : Vec Ideal S1x512 .f32)
    (h : Vec Ideal S1x1x128 .f32) (r : Fin 512) :
    k0_pay2 (F := Ideal) v0 e w b h (ix2 0 r)
      = (∑ k : Fin 256, catIn (fun j => e (ix2 i j)) (fun j => h (ix3 0 0 j)) k * w (ix3 0 r k)) + b (ix2 0 r) := by
  refine (gates_apply (embRow v0 e) w b h r).trans ?_
  refine congrArg (· + b (ix2 0 r)) (Finset.sum_congr rfl fun k _ => ?_)
  refine congrArg (fun f => catIn f (fun j => h (ix3 0 0 j)) k * w (ix3 0 r k)) (funext fun j => ?_)
  exact embRow_apply v0 i hi e j

theorem pay3_apply (v0 : Elt Ideal .i32) (e : Vec Ideal S8x128 .bf16) (w : Vec Ideal S1x512x256 .bf16) (b : Vec Ideal S1x512 .f32)
    (h c : Vec Ideal S1x1x128 .f32) (j : Fin 128) :
    k0_pay3 (F := Ideal) v0 e w b h c (ix2 0 j)
      = Ideal.logistic (k0_pay2 (F := Ideal) v0 e w b h (ix2 0 (quarter 1 j))) * c (ix3 0 0 j)
        + Ideal.logistic (k0_pay2 (F := Ideal) v0 e w b h (ix2 0 (quarter 0 j)))
          * Ideal.tanh (k0_pay2 (F := Ideal) v0 e w b h (ix2 0 (quarter 2 j))) :=
  cell_apply (k0_pay2 (F := Ideal) v0 e w b h) c j

theorem pay4_apply (v0 : Elt Ideal .i32) (e : Vec Ideal S8x128 .bf16) (w : Vec Ideal S1x512x256 .bf16) (b : Vec Ideal S1x512 .f32)
    (h c : Vec Ideal S1x1x128 .f32) (j : Fin 128) :
    k0_pay4 (F := Ideal) v0 e w b h c (ix2 0 j)
      = Ideal.logistic (k0_pay2 (F := Ideal) v0 e w b h (ix2 0 (quarter 3 j)))
        * Ideal.tanh (k0_pay3 (F := Ideal) v0 e w b h c (ix2 0 j)) :=
  hid_apply (k0_pay2 (F := Ideal) v0 e w b h) (k0_pay3 (F := Ideal) v0 e w b h c) j

private theorem lhsD_0 (j : S1x256.Idx) (k : dot_S1x128_S256x128_S1x256_1_1_0_0_n_n.contr.Idx) :
    (dot_S1x128_S256x128_S1x256_1_1_0_0_n_n.lhsIdx j k 0 : ℕ) = 0 :=
  Nat.lt_one_iff.mp (dot_S1x128_S256x128_S1x256_1_1_0_0_n_n.lhsIdx j k 0).isLt
private theorem lhsD_1 (j : S1x256.Idx) (k : dot_S1x128_S256x128_S1x256_1_1_0_0_n_n.contr.Idx) :
    (dot_S1x128_S256x128_S1x256_1_1_0_0_n_n.lhsIdx j k 1 : ℕ) = k ⟨0, by decide⟩ := by
  simp [DotDims.lhsIdx, dot_S1x128_S256x128_S1x256_1_1_0_0_n_n]; rfl
private theorem rhsD_0 (j : S1x256.Idx) (k : dot_S1x128_S256x128_S1x256_1_1_0_0_n_n.contr.Idx) :
    (dot_S1x128_S256x128_S1x256_1_1_0_0_n_n.rhsIdx j k 0 : ℕ) = j 1 := by
  simp [DotDims.rhsIdx, dot_S1x128_S256x128_S1x256_1_1_0_0_n_n]; rfl
private theorem rhsD_1 (j : S1x256.Idx) (k : dot_S1x128_S256x128_S1x256_1_1_0_0_n_n.contr.Idx) :
    (dot_S1x128_S256x128_S1x256_1_1_0_0_n_n.rhsIdx j k 1 : ℕ) = k ⟨0, by decide⟩ := by
  simp [DotDims.rhsIdx, dot_S1x128_S256x128_S1x256_1_1_0_0_n_n]; rfl

/-- The decoder's product: row v of the weights against the hidden state. -/
private theorem dec_mm (x : FVec Ideal S1x128 .bf16) (w : FVec Ideal S256x128 .bf16) (v : Fin 256) :
    matmul dot_S1x128_S256x128_S1x256_1_1_0_0_n_n none x w (constant (F := Ideal) S1x256 .f32 0x00000000#32) (ix2 0 v)
      = ∑ k : Fin 128, x (ix2 0 k) * w (ix2 v k) := by
  simp only [matmul]
  rw [Ideal.matmul_constant_zero_apply,
    ← Equiv.sum_comp (contrEquiv1 dot_S1x128_S256x128_S1x256_1_1_0_0_n_n 128 rfl rfl).symm]
  refine Finset.sum_congr rfl fun k _ => ?_
  congr 2
  · apply Shape.idx_ext₂
    · exact lhsD_0 _ _
    · exact (lhsD_1 _ _).trans (contrEquiv1_symm_val _ 128 rfl rfl k)
  · apply Shape.idx_ext₂
    · exact rhsD_0 _ _
    · exact (rhsD_1 _ _).trans (contrEquiv1_symm_val _ 128 rfl rfl k)

/-- The decoder: row v of the weight against the last hidden state, plus the bias. -/
theorem pay1_apply (hb : FVec Ideal S1x128 .bf16) (wd : Vec Ideal S256x128 .bf16) (bd : Vec Ideal S1x256 .f32) (v : Fin 256) :
    k0_pay1 (F := Ideal) hb wd bd (ix2 0 v) = (∑ k : Fin 128, hb (ix2 0 k) * wd (ix2 v k)) + bd (ix2 0 v) := by
  show addf (matmul dot_S1x128_S256x128_S1x256_1_1_0_0_n_n none hb
        (shapeCast S256x128 wd shapeCasts_S256x128_S256x128 : FVec Ideal S256x128 .bf16)
        (constant (F := Ideal) S1x256 .f32 0x00000000#32))
      (shapeCast S1x256 bd shapeCasts_S1x256_S1x256 : FVec Ideal S1x256 .f32) (ix2 0 v) = _
  rw [addf_apply, dec_mm, shapeCast_self, shapeCast_self]

/-- The change of float format in front of the decoder keeps the value. -/
theorem pay17_apply (hin : FVec Ideal S1x128 .f32) (w : Vec Ideal S1x512x256 .bf16) (b : Vec Ideal S1x512 .f32)
    (h c : Vec Ideal S1x1x128 .f32) (j : Fin 128) :
    k0_pay17 (F := Ideal) hin w b h c (ix2 0 j) = k0_pay14 (F := Ideal) hin w b h c (ix2 0 j) := rfl

/-- The stored [1,1,128] rows are the [1,128] values, coordinate for coordinate. -/
theorem pay5_apply (v : FVec Ideal S1x128 .f32) (j : Fin 128) : k0_pay5 (F := Ideal) v (ix3 0 0 j) = v (ix2 0 j) := up_apply v j
theorem pay6_apply (v : FVec Ideal S1x128 .f32) (j : Fin 128) : k0_pay6 (F := Ideal) v (ix3 0 0 j) = v (ix2 0 j) := up_apply v j
theorem pay11_apply (v : FVec Ideal S1x128 .f32) (j : Fin 128) : k0_pay11 (F := Ideal) v (ix3 0 0 j) = v (ix2 0 j) := up_apply v j
theorem pay10_apply (hin : FVec Ideal S1x128 .f32) (w : Vec Ideal S1x512x256 .bf16) (b : Vec Ideal S1x512 .f32)
    (h c : Vec Ideal S1x1x128 .f32) (j : Fin 128) :
    k0_pay10 (F := Ideal) hin w b h c (ix3 0 0 j) = k0_pay9 (F := Ideal) hin w b h c (ix2 0 j) :=
  up_apply (k0_pay9 (F := Ideal) hin w b h c) j
theorem pay15_apply (hin : FVec Ideal S1x128 .f32) (w : Vec Ideal S1x512x256 .bf16) (b : Vec Ideal S1x512 .f32)
    (h c : Vec Ideal S1x1x128 .f32) (j : Fin 128) :
    k0_pay15 (F := Ideal) hin w b h c (ix3 0 0 j) = k0_pay14 (F := Ideal) hin w b h c (ix2 0 j) :=
  up_apply (k0_pay14 (F := Ideal) hin w b h c) j
theorem pay16_apply (hin : FVec Ideal S1x128 .f32) (w : Vec Ideal S1x512x256 .bf16) (b : Vec Ideal S1x512 .f32)
    (h c : Vec Ideal S1x1x128 .f32) (j : Fin 128) :
    k0_pay16 (F := Ideal) hin w b h c (ix3 0 0 j) = k0_pay13 (F := Ideal) hin w b h c (ix2 0 j) :=
  up_apply (k0_pay13 (F := Ideal) hin w b h c) j

end Cert.KernelIdeal.Pay

end
-- ==== Proof.KernelLayer.lean ====
/-
  One LSTM layer of the kernel body against the layer function on the extended reals: when the values the body loads
  are the layer's fused weight rows (W_ih r ‖ W_hh r), its pre-summed bias b_ih + b_hh, and its previous hidden and cell
  states, the body's fused gate pre-activations are the layer's (the long sum split at 128, the biases re-associated),
  and its cell and hidden values the layer's new cell and hidden state.  Layer 0 takes the embedding row out of the
  8-row slab by the one-hot product.  The decoder's row product is the output layer.
-/
import proofs.«421514_j47012712022524_3_alg».proof.Proof.KernelPay
import proofs.«421514_j47012712022524_3_alg».proof.Proof.Spec

noncomputable section

namespace Cert.KernelIdeal.Layer

open Cert.KernelIdeal Cert.KernelIdeal.Gen Cert.KernelIdeal.Pay Cert.LstmStep
open Idealize.ShloMosaic Idealize.ShloMosaic.ValueIdx

variable (P : Params) (l : Fin 3)

/-- What the loaded values are in terms of the model's arrays. -/
structure Loads (w : Vec Ideal S1x512x256 .bf16) (b : Vec Ideal S1x512 .f32) (h c : Vec Ideal S1x1x128 .f32) : Prop where
  hw : ∀ r k, w (ix3 0 r k) = catIn (P.wih l r) (P.whh l r) k
  hb : ∀ r, b (ix2 0 r) = P.bih l r + P.bhh l r
  hh : ∀ j, h (ix3 0 0 j) = P.h0 l j
  hc : ∀ j, c (ix3 0 0 j) = P.c0 l j

variable {P l}
variable {w : Vec Ideal S1x512x256 .bf16} {b : Vec Ideal S1x512 .f32} {h c : Vec Ideal S1x1x128 .f32}

/-- The fused sum is the layer's gate pre-activation. -/
theorem fused_eq (L : Loads P l w b h c) (hin : Fin 128 → EReal) (r : Fin 512) :
    (∑ k : Fin 256, catIn hin (fun j => h (ix3 0 0 j)) k * w (ix3 0 r k)) + b (ix2 0 r) = gates P l hin r := by
  rw [← gates_fused, L.hb]
  congr 1
  refine Finset.sum_congr rfl fun k _ => ?_
  rw [L.hw, show (fun j => h (ix3 0 0 j)) = P.h0 l from funext L.hh]

theorem gates7 (L : Loads P l w b h c) (hin : FVec Ideal S1x128 .f32) (r : Fin 512) :
    k0_pay7 (F := Ideal) hin w b h (ix2 0 r) = gates P l (fun j => hin (ix2 0 j)) r := by
  rw [pay7_apply]; exact fused_eq L _ r

theorem cell8 (L : Loads P l w b h c) (hin : FVec Ideal S1x128 .f32) (j : Fin 128) :
    k0_pay8 (F := Ideal) hin w b h c (ix2 0 j) = cell P l (fun j => hin (ix2 0 j)) j := by
  rw [pay8_apply, gates7 L, gates7 L, gates7 L, L.hc]; rfl

theorem hidden9 (L : Loads P l w b h c) (hin : FVec Ideal S1x128 .f32) (j : Fin 128) :
    k0_pay9 (F := Ideal) hin w b h c (ix2 0 j) = hidden P l (fun j => hin (ix2 0 j)) j := by
  rw [pay9_apply, gates7 L, cell8 L]; rfl

theorem cell13 (L : Loads P l w b h c) (hin : FVec Ideal S1x128 .f32) (j : Fin 128) :
    k0_pay13 (F := Ideal) hin w b h c (ix2 0 j) = cell P l (fun j => hin (ix2 0 j)) j := by
  rw [pay13_eq]; exact cell8 L hin j

theorem hidden14 (L : Loads P l w b h c) (hin : FVec Ideal S1x128 .f32) (j : Fin 128) :
    k0_pay14 (F := Ideal) hin w b h c (ix2 0 j) = hidden P l (fun j => hin (ix2 0 j)) j := by
  rw [pay14_eq]; exact hidden9 L hin j

/-! ## Layer 0: the embedding row out of the slab -/

section Layer0
variable {x : Fin 256} {v0 : Elt Ideal .i32} {i : Fin 8} {e : Vec Ideal S8x128 .bf16}

theorem gates2 (L : Loads P 0 w b h c) (hi : Scalar.remsi v0 8#32 = BitVec.ofNat 32 i.val)
    (he : ∀ j, e (ix2 i j) = P.emb x j) (r : Fin 512) :
    k0_pay2 (F := Ideal) v0 e w b h (ix2 0 r) = gates P 0 (P.emb x) r := by
  rw [pay2_apply v0 i hi, show (fun j => e (ix2 i j)) = P.emb x from funext he]
  exact fused_eq L _ r

theorem cell3 (L : Loads P 0 w b h c) (hi : Scalar.remsi v0 8#32 = BitVec.ofNat 32 i.val)
    (he : ∀ j, e (ix2 i j) = P.emb x j) (j : Fin 128) :
    k0_pay3 (F := Ideal) v0 e w b h c (ix2 0 j) = cell P 0 (P.emb x) j := by
  rw [pay3_apply, gates2 L hi he, gates2 L hi he, gates2 L hi he, L.hc]; rfl

theorem hidden4 (L : Loads P 0 w b h c) (hi : Scalar.remsi v0 8#32 = BitVec.ofNat 32 i.val)
    (he : ∀ j, e (ix2 i j) = P.emb x j) (j : Fin 128) :
    k0_pay4 (F := Ideal) v0 e w b h c (ix2 0 j) = hidden P 0 (P.emb x) j := by
  rw [pay4_apply, gates2 L hi he, cell3 L hi he]; rfl

end Layer0

end Cert.KernelIdeal.Layer

end
-- ==== Proof.PreDecode.lean ====
/-
  The precondition read back: besides the finiteness of the float inputs it says that the token, argument 0's one
  word, is at least 0 and below 256 as a signed number; so as an unsigned number it is below 256.
-/
import proofs.«421514_j47012712022524_3_alg».proof.Defs
import proofs.«421514_j47012712022524_3_alg».proof.Proof.Gen.Pre_finite_inputs
import proofs.«421514_j47012712022524_3_alg».proof.Proof.KernelBlocks
import Idealize.ShloMosaic.Lib.ReduceAll
import Idealize.ShloMosaic.Lib.ValueIdx

set_option maxRecDepth 16384

noncomputable section

namespace Cert.KernelIdeal.PreDecode

open Cert.KernelIdeal Cert.KernelIdeal.Gen
open Idealize.ShloMosaic Idealize.ShloMosaic.TcCoe Idealize.ShloMosaic.ValueIdx Idealize.SL.Sem

instance : Subsingleton Cert.Pre_finite_inputs.S_.Idx := ⟨fun a b => funext fun d => d.elim0⟩

theorem ofBool_eq_one (b : Bool) : BitVec.ofBool b = 1#1 ↔ b = true := by cases b <;> decide

/-- A word that is at least 0 and below 256 as a signed number is below 256 as an unsigned one. -/
theorem toNat_lt_256 (w : BitVec 32) (h0 : IntOp.cmpi .sge w (0#32) = 1#1) (h1 : IntOp.cmpi .slt w (256#32) = 1#1) :
    w.toNat < 256 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

variable [hP : Cert.Pre_finite_inputs.Facts]

/-- Under the precondition the token is in 0 … 255. -/
theorem word_lt (m : (ℓ : Loc nD τ sig) → Buf (Elt Ideal) ℓ) (h : Cert.Pre_KernelIdeal m) : (Blocks.word m).toNat < 256 := by
  have e := congrFun (h 0) ValueIdx.ix0
  dsimp only [Cert.Pre_finite_inputs.fn, Cert.Pre_finite_inputs.fn_part1, Cert.Pre_finite_inputs.fn_part2] at e
  have e2 := (IntOp.andi_eq_one.1 e).2
  have e3 := Host.reduce_andi_all _ _ _ _ ValueIdx.ix0 e2 (ValueIdx.ix1 (0 : Fin 1))
  have e4 := IntOp.andi_eq_one.1 e3
  exact toNat_lt_256 _ e4.1 e4.2

end Cert.KernelIdeal.PreDecode

end
-- ==== Proof.KernelPoint.lean ====
/-
  The kernel's three output blocks at the one grid point are the decoder output and the stacked new hidden and cell
  states of the LSTM step on the token's embedding row.

  The token x is in 0 … 255, so the prefetched table holds x itself; the embedding window's block is rows
  8·⌊x/8⌋ … +7 of the table and the body picks row x mod 8 of it, which is row x.  Layer l loads the l-th slab of the
  fused weights, the summed bias and the two state arrays; with these the body's values are the layer functions, layer
  by layer, each layer's hidden state the next one's input.  The three stores into a [3,1,128] buffer put layer l's row
  at offset l, so the buffer read at (l, 0, j) is layer l's value at j.
-/
import proofs.«421514_j47012712022524_3_alg».proof.Proof.KernelOuts
import proofs.«421514_j47012712022524_3_alg».proof.Proof.KernelBlocks
import proofs.«421514_j47012712022524_3_alg».proof.Proof.KernelLayer
import proofs.«421514_j47012712022524_3_alg».proof.Proof.PreDecode

set_option maxRecDepth 16384

noncomputable section

namespace Cert.KernelIdeal.Point

open Cert.KernelIdeal Cert.KernelIdeal.Gen Cert.KernelIdeal.Outs Cert.KernelIdeal.Blocks Cert.KernelIdeal.Layer Cert.LstmStep
open Idealize.ShloMosaic Idealize.ShloMosaic.TcCoe Idealize.ShloMosaic.ValueIdx Idealize.SL.Sem

/-! ## Loads of a slab read at an index -/

theorem ldW0_apply (x : Vec Ideal S3x512x256 .bf16) (r : Fin 512) (k : Fin 256) : ldW0 x (ix3 0 r k) = x (ix3 0 r k) := by
  show x _ = x _
  refine congrArg x (funext fun a => Fin.ext ?_)
  match a with
  | ⟨0, _⟩ => rfl
  | ⟨1, _⟩ => show 0 + 1 * r.val = r.val; omega
  | ⟨2, _⟩ => show 0 + 1 * k.val = k.val; omega
theorem ldW1_apply (x : Vec Ideal S3x512x256 .bf16) (r : Fin 512) (k : Fin 256) : ldW1 x (ix3 0 r k) = x (ix3 1 r k) := by
  show x _ = x _
  refine congrArg x (funext fun a => Fin.ext ?_)
  match a with
  | ⟨0, _⟩ => rfl
  | ⟨1, _⟩ => show 0 + 1 * r.val = r.val; omega
  | ⟨2, _⟩ => show 0 + 1 * k.val = k.val; omega
theorem ldW2_apply (x : Vec Ideal S3x512x256 .bf16) (r : Fin 512) (k : Fin 256) : ldW2 x (ix3 0 r k) = x (ix3 2 r k) := by
  show x _ = x _
  refine congrArg x (funext fun a => Fin.ext ?_)
  match a with
  | ⟨0, _⟩ => rfl
  | ⟨1, _⟩ => show 0 + 1 * r.val = r.val; omega
  | ⟨2, _⟩ => show 0 + 1 * k.val = k.val; omega
theorem ldB0_apply (x : Vec Ideal S3x512 .f32) (r : Fin 512) : ldB0 x (ix2 0 r) = x (ix2 0 r) := by
  show x _ = x _
  refine congrArg x (funext fun a => Fin.ext ?_)
  match a with
  | ⟨0, _⟩ => rfl
  | ⟨1, _⟩ => show 0 + 1 * r.val = r.val; omega
theorem ldB1_apply (x : Vec Ideal S3x512 .f32) (r : Fin 512) : ldB1 x (ix2 0 r) = x (ix2 1 r) := by
  show x _ = x _
  refine congrArg x (funext fun a => Fin.ext ?_)
  match a with
  | ⟨0, _⟩ => rfl
  | ⟨1, _⟩ => show 0 + 1 * r.val = r.val; omega
theorem ldB2_apply (x : Vec Ideal S3x512 .f32) (r : Fin 512) : ldB2 x (ix2 0 r) = x (ix2 2 r) := by
  show x _ = x _
  refine congrArg x (funext fun a => Fin.ext ?_)
  match a with
  | ⟨0, _⟩ => rfl
  | ⟨1, _⟩ => show 0 + 1 * r.val = r.val; omega
theorem ldS0_apply (x : Vec Ideal S3x1x128 .f32) (j : Fin 128) : ldS0 x (ix3 0 0 j) = x (ix3 0 0 j) := by
  show x _ = x _
  refine congrArg x (funext fun a => Fin.ext ?_)
  match a with
  | ⟨0, _⟩ => rfl
  | ⟨1, _⟩ => rfl
  | ⟨2, _⟩ => show 0 + 1 * j.val = j.val; omega
theorem ldS1_apply (x : Vec Ideal S3x1x128 .f32) (j : Fin 128) : ldS1 x (ix3 0 0 j) = x (ix3 1 0 j) := by
  show x _ = x _
  refine congrArg x (funext fun a => Fin.ext ?_)
  match a with
  | ⟨0, _⟩ => rfl
  | ⟨1, _⟩ => rfl
  | ⟨2, _⟩ => show 0 + 1 * j.val = j.val; omega
theorem ldS2_apply (x : Vec Ideal S3x1x128 .f32) (j : Fin 128) : ldS2 x (ix3 0 0 j) = x (ix3 2 0 j) := by
  show x _ = x _
  refine congrArg x (funext fun a => Fin.ext ?_)
  match a with
  | ⟨0, _⟩ => rfl
  | ⟨1, _⟩ => rfl
  | ⟨2, _⟩ => show 0 + 1 * j.val = j.val; omega

theorem ldE_eq (x : Vec Ideal S8x128 .bf16) : ldE x = x := View.ld_unit_zero hz2 _ x
theorem ldWd_eq (x : Vec Ideal S256x128 .bf16) : ldWd x = x := View.ld_unit_zero hz2 _ x
theorem ldBd_eq (x : Vec Ideal S1x256 .f32) : ldBd x = x := View.ld_unit_zero hz2 _ x

/-! ## Words -/

/-- A small non-negative word's signed remainder by 8 is its value's. -/
theorem remsi_eight (w : BitVec 32) (hw : w.toNat < 2 ^ 31) : Scalar.remsi w 8#32 = BitVec.ofNat 32 (w.toNat % 8) := by
  have hcorner : ¬ IntOp.SDivCorner w 8#32 := by
    intro hc; rcases hc with hc | ⟨_, hc⟩ <;> exact absurd hc (by decide)
  have hm : w.msb = false := BitVec.msb_eq_false_iff_two_mul_lt.mpr (by omega)
  apply BitVec.eq_of_toNat_eq
  simp only [Scalar.remsi, IntOp.remsi, if_neg hcorner, BitVec.srem_eq, hm, show (8#32 : BitVec 32).msb = false from by decide,
    BitVec.umod_eq, BitVec.toNat_umod, BitVec.toNat_ofNat, Nat.reducePow, Nat.reduceMod]
  omega

/-! ## The values at the point -/

section AtPoint

variable (m : (ℓ : Loc nD τ sig) → Buf (Elt Ideal) ℓ) (h : Cert.Pre_KernelIdeal m) (hO : Ok m) (c : Dev nD) (t : Fin (cfgM m hO).N)

/-- The token as a row number of the embedding table. -/
def tokRow : Fin 256 := ⟨(word m).toNat, PreDecode.word_lt m h⟩

/-- The token's row inside its 8-row slab. -/
def tokSub : Fin 8 := ⟨(word m).toNat % 8, Nat.mod_lt _ (by decide)⟩

/-- The model's arrays. -/
def params : Params :=
  mkParams (arr1 m c) (arr2 m c) (arr3 m c) (arr4 m c) (arr5 m c) (arr6 m c) (arr7 m c) (arr8 m c) (arr9 m c)

include h in
/-- The word the body reads from the table is the token. -/
theorem tok_eq : tok c (tbl m 0) = word m :=
  tbl_of_lt m _ (PreDecode.word_lt m h)

include h in
theorem tok_rem : Scalar.remsi (tok c (tbl m 0)) 8#32 = BitVec.ofNat 32 (tokSub m).val := by
  rw [tok_eq m h c]
  exact remsi_eight _ (by have := PreDecode.word_lt m h; omega)

/-- Row x mod 8 of the slab is row x of the table. -/
theorem slab_row (j : Fin 128) : ldE (blk0 m hO c t) (ix2 (tokSub m) j) = (params m c).emb (tokRow m h) j := by
  rw [ldE_eq, blk0_apply m hO c t (tokRow m h) rfl]
  show arr3 m c _ = arr3 m c _
  refine congrArg (arr3 m c) (congrArg (fun r => ix2 r j) (Fin.ext ?_))
  show 8 * ((word m).toNat / 8) + (word m).toNat % 8 = (word m).toNat
  exact Nat.div_add_mod _ _

theorem loads0 : Loads (params m c) 0 (ldW0 (blk3 m hO c t)) (ldB0 (blk4 m hO c t)) (ldS0 (blk1 m hO c t)) (ldS0 (blk2 m hO c t)) where
  hw r k := by rw [ldW0_apply, blk3_apply]; rfl
  hb r := by rw [ldB0_apply, blk4_apply]; rfl
  hh j := by rw [ldS0_apply, blk1_apply]; rfl
  hc j := by rw [ldS0_apply, blk2_apply]; rfl

theorem loads1 : Loads (params m c) 1 (ldW1 (blk3 m hO c t)) (ldB1 (blk4 m hO c t)) (ldS1 (blk1 m hO c t)) (ldS1 (blk2 m hO c t)) where
  hw r k := by rw [ldW1_apply, blk3_apply]; rfl
  hb r := by rw [ldB1_apply, blk4_apply]; rfl
  hh j := by rw [ldS1_apply, blk1_apply]; rfl
  hc j := by rw [ldS1_apply, blk2_apply]; rfl

theorem loads2 : Loads (params m c) 2 (ldW2 (blk3 m hO c t)) (ldB2 (blk4 m hO c t)) (ldS2 (blk1 m hO c t)) (ldS2 (blk2 m hO c t)) where
  hw r k := by rw [ldW2_apply, blk3_apply]; rfl
  hb r := by rw [ldB2_apply, blk4_apply]; rfl
  hh j := by rw [ldS2_apply, blk1_apply]; rfl
  hc j := by rw [ldS2_apply, blk2_apply]; rfl

/-- The body's hidden and cell values, layer by layer, at the blocks the point holds. -/
abbrev H1 : FVec Ideal S1x128 .f32 := hid1 (tok c (tbl m 0)) (blk0 m hO c t) (blk1 m hO c t) (blk2 m hO c t) (blk3 m hO c t) (blk4 m hO c t)
abbrev C1 : FVec Ideal S1x128 .f32 := cel1 (tok c (tbl m 0)) (blk0 m hO c t) (blk1 m hO c t) (blk2 m hO c t) (blk3 m hO c t) (blk4 m hO c t)
abbrev H2 : FVec Ideal S1x128 .f32 := hid2 (tok c (tbl m 0)) (blk0 m hO c t) (blk1 m hO c t) (blk2 m hO c t) (blk3 m hO c t) (blk4 m hO c t)
abbrev C2 : FVec Ideal S1x128 .f32 := cel2 (tok c (tbl m 0)) (blk0 m hO c t) (blk1 m hO c t) (blk2 m hO c t) (blk3 m hO c t) (blk4 m hO c t)
abbrev H3 : FVec Ideal S1x128 .f32 := hid3 (tok c (tbl m 0)) (blk0 m hO c t) (blk1 m hO c t) (blk2 m hO c t) (blk3 m hO c t) (blk4 m hO c t)
abbrev C3 : FVec Ideal S1x128 .f32 := cel3 (tok c (tbl m 0)) (blk0 m hO c t) (blk1 m hO c t) (blk2 m hO c t) (blk3 m hO c t) (blk4 m hO c t)

theorem H1_apply (j : Fin 128) : H1 m hO c t (ix2 0 j) = hn (params m c) (tokRow m h) 0 j :=
  hidden4 (loads0 m hO c t) (tok_rem m h c) (slab_row m h hO c t) j
theorem C1_apply (j : Fin 128) : C1 m hO c t (ix2 0 j) = cn (params m c) (tokRow m h) 0 j :=
  cell3 (loads0 m hO c t) (tok_rem m h c) (slab_row m h hO c t) j
theorem H1_fun : (fun j => H1 m hO c t (ix2 0 j)) = inp (params m c) (tokRow m h) 1 := funext (H1_apply m h hO c t)

theorem H2_apply (j : Fin 128) : H2 m hO c t (ix2 0 j) = hn (params m c) (tokRow m h) 1 j := by
  show k0_pay9 (F := Ideal) (H1 m hO c t) _ _ _ _ (ix2 0 j) = _
  rw [hidden9 (loads1 m hO c t), H1_fun m h hO c t]; rfl
theorem C2_apply (j : Fin 128) : C2 m hO c t (ix2 0 j) = cn (params m c) (tokRow m h) 1 j := by
  show k0_pay8 (F := Ideal) (H1 m hO c t) _ _ _ _ (ix2 0 j) = _
  rw [cell8 (loads1 m hO c t), H1_fun m h hO c t]; rfl
theorem H2_fun : (fun j => H2 m hO c t (ix2 0 j)) = inp (params m c) (tokRow m h) 2 := funext (H2_apply m h hO c t)

theorem H3_apply (j : Fin 128) : H3 m hO c t (ix2 0 j) = hn (params m c) (tokRow m h) 2 j := by
  show k0_pay14 (F := Ideal) (H2 m hO c t) _ _ _ _ (ix2 0 j) = _
  rw [hidden14 (loads2 m hO c t), H2_fun m h hO c t]; rfl
theorem C3_apply (j : Fin 128) : C3 m hO c t (ix2 0 j) = cn (params m c) (tokRow m h) 2 j := by
  show k0_pay13 (F := Ideal) (H2 m hO c t) _ _ _ _ (ix2 0 j) = _
  rw [cell13 (loads2 m hO c t), H2_fun m h hO c t]; rfl

end AtPoint

/-! ## The three output blocks at the point -/

section OutBlocks

variable (m : (ℓ : Loc nD τ sig) → Buf (Elt Ideal) ℓ) (h : Cert.Pre_KernelIdeal m) (hO : Ok m) (c : Dev nD) (t : Fin (cfgM m hO).N)

theorem outs7 : (outsAt0 m hO c t).1
    = k0_pay1 (k0_pay17 (H2 m hO c t) (ldW2 (blk3 m hO c t)) (ldB2 (blk4 m hO c t)) (ldS2 (blk1 m hO c t)) (ldS2 (blk2 m hO c t))) (ldWd (blk5 m hO c t)) (ldBd (blk6 m hO c t)) := by
  unfold outsAt0
  dsimp only
  exact out7_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (tbl m 0)

theorem outs8 : (outsAt0 m hO c t).2.1
    = View.canon [
        ⟨Rect.unit (s := S3x1x128) ![2, 0, 0] S1x1x128.size inb_S3x1x128_S1x1x128_2_0_0, k0_pay15 (H2 m hO c t) (ldW2 (blk3 m hO c t)) (ldB2 (blk4 m hO c t)) (ldS2 (blk1 m hO c t)) (ldS2 (blk2 m hO c t))⟩,
        ⟨Rect.unit (s := S3x1x128) ![1, 0, 0] S1x1x128.size inb_S3x1x128_S1x1x128_1_0_0, k0_pay10 (H1 m hO c t) (ldW1 (blk3 m hO c t)) (ldB1 (blk4 m hO c t)) (ldS1 (blk1 m hO c t)) (ldS1 (blk2 m hO c t))⟩,
        ⟨Rect.unit (s := S3x1x128) ![0, 0, 0] S1x1x128.size inb_S3x1x128_S1x1x128_0_0_0, k0_pay5 (H1 m hO c t)⟩] := by
  unfold outsAt0
  dsimp only
  exact out8_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (tbl m 0)

theorem outs9 : (outsAt0 m hO c t).2.2
    = View.canon [
        ⟨Rect.unit (s := S3x1x128) ![2, 0, 0] S1x1x128.size inb_S3x1x128_S1x1x128_2_0_0, k0_pay16 (H2 m hO c t) (ldW2 (blk3 m hO c t)) (ldB2 (blk4 m hO c t)) (ldS2 (blk1 m hO c t)) (ldS2 (blk2 m hO c t))⟩,
        ⟨Rect.unit (s := S3x1x128) ![1, 0, 0] S1x1x128.size inb_S3x1x128_S1x1x128_1_0_0, k0_pay11 (C2 m hO c t)⟩,
        ⟨Rect.unit (s := S3x1x128) ![0, 0, 0] S1x1x128.size inb_S3x1x128_S1x1x128_0_0_0, k0_pay6 (C1 m hO c t)⟩] := by
  unfold outsAt0
  dsimp only
  exact out9_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (iblk m hO c 2 t) (iblk m hO c 3 t) (iblk m hO c 4 t) (iblk m hO c 5 t) (iblk m hO c 6 t) (tbl m 0)

/-- Where a row store at offset l puts entry j of its payload. -/
theorem emb_row (l : Nat) (inb : ∀ a, (![l, 0, 0] : Fin 3 → Nat) a + S1x1x128.size a ≤ S3x1x128.size a) (hl : l < 3) (j : Fin 128) :
    (Rect.unit (s := S3x1x128) ![l, 0, 0] S1x1x128.size inb).emb (ix3 0 0 j) = ix3 ⟨l, hl⟩ 0 j := by
  funext a
  apply Fin.ext
  match a with
  | ⟨0, _⟩ => show l + 1 * 0 = l; omega
  | ⟨1, _⟩ => show 0 + 1 * 0 = 0; omega
  | ⟨2, _⟩ => show 0 + 1 * j.val = j.val; omega

/-- Row l' of the buffer is not under the store at another offset l. -/
theorem row_not_mem (l l' : Nat) (inb : ∀ a, (![l, 0, 0] : Fin 3 → Nat) a + S1x1x128.size a ≤ S3x1x128.size a) (hl' : l' < 3) (hne : l' < l) (j : Fin 128) :
    ix3 (⟨l', hl'⟩ : Fin 3) (0 : Fin 1) j ∉ (Rect.unit (s := S3x1x128) ![l, 0, 0] S1x1x128.size inb).set := by
  rw [Rect.mem_set_unit]
  intro hm
  have := (hm ⟨0, by decide⟩).1
  have e : ((ix3 (⟨l', hl'⟩ : Fin 3) (0 : Fin 1) j) ⟨0, by decide⟩ : Nat) = l' := rfl
  have e2 : (![l, 0, 0] : Fin 3 → Nat) ⟨0, by decide⟩ = l := rfl
  omega

/-- The three row rectangles of the [3,1,128] buffer. -/
abbrev R0 : Rect S3x1x128 := Rect.unit (s := S3x1x128) ![0, 0, 0] S1x1x128.size inb_S3x1x128_S1x1x128_0_0_0
abbrev R1 : Rect S3x1x128 := Rect.unit (s := S3x1x128) ![1, 0, 0] S1x1x128.size inb_S3x1x128_S1x1x128_1_0_0
abbrev R2 : Rect S3x1x128 := Rect.unit (s := S3x1x128) ![2, 0, 0] S1x1x128.size inb_S3x1x128_S1x1x128_2_0_0

theorem emb_R0 (j : Fin 128) : R0.emb (ix3 0 0 j) = ix3 0 0 j := emb_row 0 _ (by decide) j
theorem emb_R1 (j : Fin 128) : R1.emb (ix3 0 0 j) = ix3 1 0 j := emb_row 1 _ (by decide) j
theorem emb_R2 (j : Fin 128) : R2.emb (ix3 0 0 j) = ix3 2 0 j := emb_row 2 _ (by decide) j
theorem not_mem_R2_1 (j : Fin 128) : ix3 (1 : Fin 3) (0 : Fin 1) j ∉ R2.set := row_not_mem 2 1 _ (by decide) (by decide) j
theorem not_mem_R2_0 (j : Fin 128) : ix3 (0 : Fin 3) (0 : Fin 1) j ∉ R2.set := row_not_mem 2 0 _ (by decide) (by decide) j
theorem not_mem_R1_0 (j : Fin 128) : ix3 (0 : Fin 3) (0 : Fin 1) j ∉ R1.set := row_not_mem 1 0 _ (by decide) (by decide) j

/-- Three row stores into the [3,1,128] buffer, last first: the buffer's row l is the payload of the store at offset l. -/
theorem canon3_row2 (w2 w1 w0 : S1x1x128.Idx → Elt Ideal .f32) (j : Fin 128) :
    View.canon [(⟨R2, w2⟩ : View.Piece (Elt Ideal) S3x1x128 .f32), ⟨R1, w1⟩, ⟨R0, w0⟩] (ix3 2 0 j) = w2 (ix3 0 0 j) := by
  have e := View.canon_cons_emb (Val := Elt Ideal) R2 w2 [⟨R1, w1⟩, ⟨R0, w0⟩] (ix3 0 0 j)
  rw [emb_R2 j] at e
  exact e

theorem canon3_row1 (w2 w1 w0 : S1x1x128.Idx → Elt Ideal .f32) (j : Fin 128) :
    View.canon [(⟨R2, w2⟩ : View.Piece (Elt Ideal) S3x1x128 .f32), ⟨R1, w1⟩, ⟨R0, w0⟩] (ix3 1 0 j) = w1 (ix3 0 0 j) := by
  have e := View.canon_cons_emb (Val := Elt Ideal) R1 w1 [⟨R0, w0⟩] (ix3 0 0 j)
  rw [emb_R1 j] at e
  exact (View.canon_cons_of_not_mem (⟨R2, w2⟩ : View.Piece (Elt Ideal) S3x1x128 .f32) [⟨R1, w1⟩, ⟨R0, w0⟩] (not_mem_R2_1 j)).trans e

theorem canon3_row0 (w2 w1 w0 : S1x1x128.Idx → Elt Ideal .f32) (j : Fin 128) :
    View.canon [(⟨R2, w2⟩ : View.Piece (Elt Ideal) S3x1x128 .f32), ⟨R1, w1⟩, ⟨R0, w0⟩] (ix3 0 0 j) = w0 (ix3 0 0 j) := by
  have e := View.canon_cons_emb (Val := Elt Ideal) R0 w0 [] (ix3 0 0 j)
  rw [emb_R0 j] at e
  exact ((View.canon_cons_of_not_mem (⟨R2, w2⟩ : View.Piece (Elt Ideal) S3x1x128 .f32) [⟨R1, w1⟩, ⟨R0, w0⟩] (not_mem_R2_0 j)).trans
    (View.canon_cons_of_not_mem (⟨R1, w1⟩ : View.Piece (Elt Ideal) S3x1x128 .f32) [⟨R0, w0⟩] (not_mem_R1_0 j))).trans e

/-- The decoder output block. -/
theorem outs7_apply (v : Fin 256) : (outsAt0 m hO c t).1 (ix2 0 v) = logits (params m c) (tokRow m h) v := by
  rw [outs7, Pay.pay1_apply]
  unfold logits
  refine congrArg₂ (· + ·) (Finset.sum_congr rfl fun k _ => ?_) ?_
  · rw [Pay.pay17_apply, ldWd_eq, blk5_apply]
    refine congrArg₂ (· * ·) ?_ rfl
    exact H3_apply m h hO c t k
  · rw [ldBd_eq, blk6_apply]; rfl

/-- The hidden states' block. -/
theorem outs8_apply2 (j : Fin 128) : (outsAt0 m hO c t).2.1 (ix3 2 0 j) = hn (params m c) (tokRow m h) 2 j := by
  rw [outs8, canon3_row2, Pay.pay15_apply]; exact H3_apply m h hO c t j
theorem outs8_apply1 (j : Fin 128) : (outsAt0 m hO c t).2.1 (ix3 1 0 j) = hn (params m c) (tokRow m h) 1 j := by
  rw [outs8, canon3_row1, Pay.pay10_apply]; exact H2_apply m h hO c t j
theorem outs8_apply0 (j : Fin 128) : (outsAt0 m hO c t).2.1 (ix3 0 0 j) = hn (params m c) (tokRow m h) 0 j := by
  rw [outs8, canon3_row0, Pay.pay5_apply]; exact H1_apply m h hO c t j
theorem outs8_apply (l : Fin 3) (j : Fin 128) : (outsAt0 m hO c t).2.1 (ix3 l 0 j) = hn (params m c) (tokRow m h) l j :=
  match l with
  | ⟨0, _⟩ => outs8_apply0 m h hO c t j
  | ⟨1, _⟩ => outs8_apply1 m h hO c t j
  | ⟨2, _⟩ => outs8_apply2 m h hO c t j

/-- The cell states' block. -/
theorem outs9_apply2 (j : Fin 128) : (outsAt0 m hO c t).2.2 (ix3 2 0 j) = cn (params m c) (tokRow m h) 2 j := by
  rw [outs9, canon3_row2, Pay.pay16_apply]; exact C3_apply m h hO c t j
theorem outs9_apply1 (j : Fin 128) : (outsAt0 m hO c t).2.2 (ix3 1 0 j) = cn (params m c) (tokRow m h) 1 j := by
  rw [outs9, canon3_row1, Pay.pay11_apply]; exact C2_apply m h hO c t j
theorem outs9_apply0 (j : Fin 128) : (outsAt0 m hO c t).2.2 (ix3 0 0 j) = cn (params m c) (tokRow m h) 0 j := by
  rw [outs9, canon3_row0, Pay.pay6_apply]; exact C1_apply m h hO c t j
theorem outs9_apply (l : Fin 3) (j : Fin 128) : (outsAt0 m hO c t).2.2 (ix3 l 0 j) = cn (params m c) (tokRow m h) l j :=
  match l with
  | ⟨0, _⟩ => outs9_apply0 m h hO c t j
  | ⟨1, _⟩ => outs9_apply1 m h hO c t j
  | ⟨2, _⟩ => outs9_apply2 m h hO c t j

end OutBlocks

end Cert.KernelIdeal.Point

end
-- ==== Proof.KernelRun.lean ====
/-
  The kernel's run with its three results named: the pallas_call's grid has one point and each output window's block
  is its whole array, so each result array ends holding the block the body left at that point: the decoder output and
  the stacked new hidden and cell states of the LSTM step on the token's embedding row.
-/
import proofs.«421514_j47012712022524_3_alg».proof.Proof.KernelPoint
import Idealize.ShloMosaic.Lib.Pipeline.Value

set_option maxRecDepth 16384

noncomputable section

namespace Cert.KernelIdeal.Run

open Cert.KernelIdeal Cert.KernelIdeal.Gen Cert.KernelIdeal.Blocks Cert.KernelIdeal.Point Cert.LstmStep
open Idealize.ShloMosaic Idealize.ShloMosaic.TcCoe Idealize.ShloMosaic.ValueIdx Idealize.SL.Sem
open Idealize.ShloMosaic.Pipeline (Dat)

/-! ## The output windows -/

section Windows
variable (a : (pcfg0 (F := Ideal)).Adm) (t : Fin (cfg0 a).N)

theorem idx7 (a' : Fin 2) : (win0 a 7).index t a' = 0 := by
  fin_cases a' <;> rfl

theorem xsize7 (a' : Fin 2) : (win0 a 7).xsize (grid0.coords t) a' = S1x256.size a' := by
  fin_cases a' <;> rfl

/-- Window 7's block is its whole array: an array function read back through the block's rectangle is itself. -/
theorem blk7_read (f : S1x256.Idx → EReal) (j : S1x256.Idx) : ((win0 a 7).blk t).view.read (Elt Ideal) f j = f j := by
  rw [View.read_apply]
  simp only [cast_eq]
  show f _ = f _
  refine congrArg f (funext fun a' => Fin.ext ?_)
  simp only [View.emb_slice, Function.Embedding.trans_apply, Function.Embedding.refl_apply]
  exact Pipeline.Window.rect_emb_val_of_index_zero (win0 a 7) t a' (idx7 a t a') j

theorem mem7 (i : S1x256.Idx) : i ∈ ((win0 a 7).blk t).view.set := by
  show i ∈ ((View.whole main_v7_0).slice ((win0 a 7).rect t)).set
  rw [View.set_slice_whole, Rect.mem_set_unit]
  intro a'
  have h1 := idx7 a t a'
  have h2 := xsize7 a t a'
  have h3 := (i a').isLt
  show (win0 a 7).index t a' * (win0 a 7).size a' ≤ (i a').val ∧ (i a').val < (win0 a 7).index t a' * (win0 a 7).size a' + (win0 a 7).xsize (grid0.coords t) a'
  rw [h1, h2]
  omega

theorem idx8 (a' : Fin 3) : (win0 a 8).index t a' = 0 := by
  fin_cases a' <;> rfl

theorem xsize8 (a' : Fin 3) : (win0 a 8).xsize (grid0.coords t) a' = S3x1x128.size a' := by
  fin_cases a' <;> rfl

/-- Window 8's block is its whole array: an array function read back through the block's rectangle is itself. -/
theorem blk8_read (f : S3x1x128.Idx → EReal) (j : S3x1x128.Idx) : ((win0 a 8).blk t).view.read (Elt Ideal) f j = f j := by
  rw [View.read_apply]
  simp only [cast_eq]
  show f _ = f _
  refine congrArg f (funext fun a' => Fin.ext ?_)
  simp only [View.emb_slice, Function.Embedding.trans_apply, Function.Embedding.refl_apply]
  exact Pipeline.Window.rect_emb_val_of_index_zero (win0 a 8) t a' (idx8 a t a') j

theorem mem8 (i : S3x1x128.Idx) : i ∈ ((win0 a 8).blk t).view.set := by
  show i ∈ ((View.whole main_v7_1).slice ((win0 a 8).rect t)).set
  rw [View.set_slice_whole, Rect.mem_set_unit]
  intro a'
  have h1 := idx8 a t a'
  have h2 := xsize8 a t a'
  have h3 := (i a').isLt
  show (win0 a 8).index t a' * (win0 a 8).size a' ≤ (i a').val ∧ (i a').val < (win0 a 8).index t a' * (win0 a 8).size a' + (win0 a 8).xsize (grid0.coords t) a'
  rw [h1, h2]
  omega

theorem idx9 (a' : Fin 3) : (win0 a 9).index t a' = 0 := by
  fin_cases a' <;> rfl

theorem xsize9 (a' : Fin 3) : (win0 a 9).xsize (grid0.coords t) a' = S3x1x128.size a' := by
  fin_cases a' <;> rfl

/-- Window 9's block is its whole array: an array function read back through the block's rectangle is itself. -/
theorem blk9_read (f : S3x1x128.Idx → EReal) (j : S3x1x128.Idx) : ((win0 a 9).blk t).view.read (Elt Ideal) f j = f j := by
  rw [View.read_apply]
  simp only [cast_eq]
  show f _ = f _
  refine congrArg f (funext fun a' => Fin.ext ?_)
  simp only [View.emb_slice, Function.Embedding.trans_apply, Function.Embedding.refl_apply]
  exact Pipeline.Window.rect_emb_val_of_index_zero (win0 a 9) t a' (idx9 a t a') j

theorem mem9 (i : S3x1x128.Idx) : i ∈ ((win0 a 9).blk t).view.set := by
  show i ∈ ((View.whole main_v7_2).slice ((win0 a 9).rect t)).set
  rw [View.set_slice_whole, Rect.mem_set_unit]
  intro a'
  have h1 := idx9 a t a'
  have h2 := xsize9 a t a'
  have h3 := (i a').isLt
  show (win0 a 9).index t a' * (win0 a 9).size a' ≤ (i a').val ∧ (i a').val < (win0 a 9).index t a' * (win0 a 9).size a' + (win0 a 9).xsize (grid0.coords t) a'
  rw [h1, h2]
  omega

end Windows

/-- A [1,256] index is (0, its column); a [3,1,128] index is (its layer, 0, its entry). -/
theorem idx_row (j : S1x256.Idx) : j = ix2 0 (j 1) := by
  funext a
  match a with
  | ⟨0, _⟩ =>
    apply Fin.ext
    have hlt := (j ⟨0, by decide⟩).isLt
    have hs : S1x256.size ⟨0, by decide⟩ = 1 := by decide
    show (j ⟨0, _⟩).val = 0
    omega
  | ⟨1, _⟩ => rfl
theorem idx_slab (j : S3x1x128.Idx) : j = ix3 (j 0) 0 (j 2) := by
  funext a
  match a with
  | ⟨0, _⟩ => rfl
  | ⟨1, _⟩ =>
    apply Fin.ext
    have hlt := (j ⟨1, by decide⟩).isLt
    have hs : S3x1x128.size ⟨1, by decide⟩ = 1 := by decide
    show (j ⟨1, _⟩).val = 0
    omega
  | ⟨2, _⟩ => rfl

/-! ## The result arrays -/

variable (m : (ℓ : Loc nD τ sig) → Buf (Elt Ideal) ℓ) (ρ : Dev nD → PrngReg) (h : Cert.Pre_KernelIdeal m)

/-- The three result arrays: the decoder output and the stacked new hidden and cell states. -/
def res0 (c : Dev nD) : Buf (Elt Ideal) ((c : Thread nD τ).loc main_v7_0) := fun y => logits (params m c) (tokRow m h) (y 1)
def res1 (c : Dev nD) : Buf (Elt Ideal) ((c : Thread nD τ).loc main_v7_1) := fun y => hn (params m c) (tokRow m h) (y 0) (y 2)
def res2 (c : Dev nD) : Buf (Elt Ideal) ((c : Thread nD τ).loc main_v7_2) := fun y => cn (params m c) (tokRow m h) (y 0) (y 2)

variable (hO : Ok m) (c : Dev nD)

theorem outs7_fun (t : Fin (cfgM m hO).N) : (outsAt0 m hO c t).1 = res0 m h c := by
  funext j
  rw [idx_row j]
  exact outs7_apply m h hO c t (j 1)

theorem outs8_fun (t : Fin (cfgM m hO).N) : (outsAt0 m hO c t).2.1 = res1 m h c := by
  funext j
  rw [idx_slab j]
  exact outs8_apply m h hO c t (j 0) (j 2)

theorem outs9_fun (t : Fin (cfgM m hO).N) : (outsAt0 m hO c t).2.2 = res2 m h c := by
  funext j
  rw [idx_slab j]
  exact outs9_apply m h hO c t (j 0) (j 2)

theorem flushed7 (t : Fin (cfgM m hO).N) (_ : ((cfgM m hO).win 7).flush t = true) :
    (dats m hO 0 c).flushed 7 t = (((cfgM m hO).win 7).blk t).view.read (Elt Ideal) (res0 m h c) := by
  show ((cfgM m hO).win 7).cut ((cfgM m hO).grid.coords t) ((dats m hO 0 c).after 7 t) = _
  rw [after0_7, outs7_fun m h hO c t]
  funext j
  exact (blk7_read (adm m hO) t (res0 m h c) j).symm

theorem flushed8 (t : Fin (cfgM m hO).N) (_ : ((cfgM m hO).win 8).flush t = true) :
    (dats m hO 0 c).flushed 8 t = (((cfgM m hO).win 8).blk t).view.read (Elt Ideal) (res1 m h c) := by
  show ((cfgM m hO).win 8).cut ((cfgM m hO).grid.coords t) ((dats m hO 0 c).after 8 t) = _
  rw [after0_8, outs8_fun m h hO c t]
  funext j
  exact (blk8_read (adm m hO) t (res1 m h c) j).symm

theorem flushed9 (t : Fin (cfgM m hO).N) (_ : ((cfgM m hO).win 9).flush t = true) :
    (dats m hO 0 c).flushed 9 t = (((cfgM m hO).win 9).blk t).view.read (Elt Ideal) (res2 m h c) := by
  show ((cfgM m hO).win 9).cut ((cfgM m hO).grid.coords t) ((dats m hO 0 c).after 9 t) = _
  rw [after0_9, outs9_fun m h hO c t]
  funext j
  exact (blk9_read (adm m hO) t (res2 m h c) j).symm

/-- Each result array ends holding its block. -/
theorem final7 : (dats m hO 0 c).arrAt 7 (cfgM m hO).N = res0 m h c :=
  (dats m hO 0 c).arrAt_eq_of_cover 7 (res0 m h c) (flushed7 m h hO c)
    (fun i => ⟨t0_0, flush0_7 (adm m hO) _, mem7 (adm m hO) t0_0 i⟩)

theorem final8 : (dats m hO 0 c).arrAt 8 (cfgM m hO).N = res1 m h c :=
  (dats m hO 0 c).arrAt_eq_of_cover 8 (res1 m h c) (flushed8 m h hO c)
    (fun i => ⟨t0_0, flush0_8 (adm m hO) _, mem8 (adm m hO) t0_0 i⟩)

theorem final9 : (dats m hO 0 c).arrAt 9 (cfgM m hO).N = res2 m h c :=
  (dats m hO 0 c).arrAt_eq_of_cover 9 (res2 m h c) (flushed9 m h hO c)
    (fun i => ⟨t0_0, flush0_9 (adm m hO) _, mem9 (adm m hO) t0_0 i⟩)

/-- THE KERNEL'S RUN with its three results named and its arguments unchanged. -/
theorem run : θ_run defs (onTc (τ := τ) (main (F := Ideal))) ⟨m, fun _ => 0, ρ⟩ (fun r => ∀ c : Dev nD,
      r.2.mem ((c.tc : Thread nD τ).loc main_v7_0) = res0 m h c
      ∧ r.2.mem ((c.tc : Thread nD τ).loc main_v7_1) = res1 m h c
      ∧ r.2.mem ((c.tc : Thread nD τ).loc main_v7_2) = res2 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hO : Ok m := ok m
  refine (θ_run defs _ _).mono (fun _ hq c => ?_) (run_main m ρ hO)
  exact ⟨((hq c).1 7).trans (final7 m h hO c), ((hq c).1 8).trans (final8 m h hO c), ((hq c).1 9).trans (final9 m h hO c),
    ((hq c).2 main_arg0 (by decide : main_arg0 ∈ Pipeline.restRefs sig spec0)).trans (V_main_arg0 m c),
    ((hq c).1 1).trans (((dats m hO 0 c).arrAt_in 1 rfl _).trans ((A_eq m hO c 1).trans (V_main_arg1 m c))),
    ((hq c).1 2).trans (((dats m hO 0 c).arrAt_in 2 rfl _).trans ((A_eq m hO c 2).trans (V_main_arg2 m c))),
    ((hq c).2 main_arg3 (by decide : main_arg3 ∈ Pipeline.restRefs sig spec0)).trans (V_main_arg3 m c),
    ((hq c).2 main_arg4 (by decide : main_arg4 ∈ Pipeline.restRefs sig spec0)).trans (V_main_arg4 m c),
    ((hq c).2 main_arg5 (by decide : main_arg5 ∈ Pipeline.restRefs sig spec0)).trans (V_main_arg5 m c),
    ((hq c).2 main_arg6 (by decide : main_arg6 ∈ Pipeline.restRefs sig spec0)).trans (V_main_arg6 m c),
    ((hq c).2 main_arg7 (by decide : main_arg7 ∈ Pipeline.restRefs sig spec0)).trans (V_main_arg7 m c),
    ((hq c).2 main_arg8 (by decide : main_arg8 ∈ Pipeline.restRefs sig spec0)).trans (V_main_arg8 m c),
    ((hq c).2 main_arg9 (by decide : main_arg9 ∈ Pipeline.restRefs sig spec0)).trans (V_main_arg9 m c)⟩

end Cert.KernelIdeal.Run

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.RefValue.lean ====
/-
  The reference's run read at an index: its three results are the decoder output and the stacked new hidden and cell
  states of the three-layer LSTM step on the embedding row of the token.

  The reference takes the embedding row by a gather whose start index is the token, wrapped when negative; with the
  token in 0 … 255 the wrap is not taken and the start lies inside the table, so the gather reads the token's row.
  A layer's gate pre-activations are two matrix products against transposed slices of the weights plus the two
  broadcast biases; jax's logistic prints as 1 / (1 + exp (−x)), which on the extended reals is the logistic function.
-/
import proofs.«421514_j47012712022524_3_alg».proof.Proof.Gen.ReferenceIdeal.Run
import proofs.«421514_j47012712022524_3_alg».proof.Proof.Spec
import proofs.«421514_j47012712022524_3_alg».proof.Proof.LibGatherScatterRows
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.ReferenceIdeal.RefValue

open Cert.ReferenceIdeal Cert.ReferenceIdeal.Gen Cert.ReferenceIdeal.Value Cert.LstmStep
open Idealize.ShloMosaic Idealize.ShloMosaic.TcCoe Idealize.ShloMosaic.ValueIdx Idealize.ShloMosaic.StableHlo Idealize.SL.Sem

/-! ## The two matrix products read at an index -/

theorem lhs512_0 (j : S1x512.Idx) (k : dot_S1x128_S128x512_S1x512_1_0_0_1_n_n.contr.Idx) :
    (dot_S1x128_S128x512_S1x512_1_0_0_1_n_n.lhsIdx j k 0 : ℕ) = j 0 := by
  have h := (j 0).isLt
  change (j 0).val < 1 at h
  simp [DotDims.lhsIdx, dot_S1x128_S128x512_S1x512_1_0_0_1_n_n]; omega
theorem lhs512_1 (j : S1x512.Idx) (k : dot_S1x128_S128x512_S1x512_1_0_0_1_n_n.contr.Idx) :
    (dot_S1x128_S128x512_S1x512_1_0_0_1_n_n.lhsIdx j k 1 : ℕ) = k ⟨0, by decide⟩ := by
  simp [DotDims.lhsIdx, dot_S1x128_S128x512_S1x512_1_0_0_1_n_n]; rfl
theorem rhs512_0 (j : S1x512.Idx) (k : dot_S1x128_S128x512_S1x512_1_0_0_1_n_n.contr.Idx) :
    (dot_S1x128_S128x512_S1x512_1_0_0_1_n_n.rhsIdx j k 0 : ℕ) = k ⟨0, by decide⟩ := by
  simp [DotDims.rhsIdx, dot_S1x128_S128x512_S1x512_1_0_0_1_n_n]; rfl
theorem rhs512_1 (j : S1x512.Idx) (k : dot_S1x128_S128x512_S1x512_1_0_0_1_n_n.contr.Idx) :
    (dot_S1x128_S128x512_S1x512_1_0_0_1_n_n.rhsIdx j k 1 : ℕ) = j 1 := by
  simp [DotDims.rhsIdx, dot_S1x128_S128x512_S1x512_1_0_0_1_n_n]; rfl

/-- A [1,128] row times a [128,512] matrix, at (a, b): the sum over the contracted coordinate. -/
theorem dot512_apply (A : FVec Ideal S1x128 .f32) (B : FVec Ideal S128x512 .f32) (a : Fin 1) (b : Fin 512) :
    Host.dotGeneral dot_S1x128_S128x512_S1x512_1_0_0_1_n_n none A B (ix2 a b) = ∑ c : Fin 128, A (ix2 a c) * B (ix2 c b) := by
  show FloatOps.dotGeneral _ none _ A B (ix2 a b) = _
  rw [Ideal.dotGeneral_apply, ← Equiv.sum_comp (contrEquiv1 dot_S1x128_S128x512_S1x512_1_0_0_1_n_n 128 rfl rfl).symm]
  refine Finset.sum_congr rfl fun c _ => ?_
  have c2 := contrEquiv1_symm_val dot_S1x128_S128x512_S1x512_1_0_0_1_n_n 128 rfl rfl c
  have l2 : dot_S1x128_S128x512_S1x512_1_0_0_1_n_n.lhsIdx (ix2 a b)
      ((contrEquiv1 dot_S1x128_S128x512_S1x512_1_0_0_1_n_n 128 rfl rfl).symm c) = ix2 a c := by
    funext ax; apply Fin.ext
    match ax with
    | ⟨0, _⟩ => exact lhs512_0 _ _
    | ⟨1, _⟩ => exact (lhs512_1 _ _).trans c2
  have r2 : dot_S1x128_S128x512_S1x512_1_0_0_1_n_n.rhsIdx (ix2 a b)
      ((contrEquiv1 dot_S1x128_S128x512_S1x512_1_0_0_1_n_n 128 rfl rfl).symm c) = ix2 c b := by
    funext ax; apply Fin.ext
    match ax with
    | ⟨0, _⟩ => exact (rhs512_0 _ _).trans c2
    | ⟨1, _⟩ => exact rhs512_1 _ _
  rw [l2, r2]

theorem lhs256_0 (j : S1x256.Idx) (k : dot_S1x128_S128x256_S1x256_1_0_0_1_n_n.contr.Idx) :
    (dot_S1x128_S128x256_S1x256_1_0_0_1_n_n.lhsIdx j k 0 : ℕ) = j 0 := by
  have h := (j 0).isLt
  change (j 0).val < 1 at h
  simp [DotDims.lhsIdx, dot_S1x128_S128x256_S1x256_1_0_0_1_n_n]; omega
theorem lhs256_1 (j : S1x256.Idx) (k : dot_S1x128_S128x256_S1x256_1_0_0_1_n_n.contr.Idx) :
    (dot_S1x128_S128x256_S1x256_1_0_0_1_n_n.lhsIdx j k 1 : ℕ) = k ⟨0, by decide⟩ := by
  simp [DotDims.lhsIdx, dot_S1x128_S128x256_S1x256_1_0_0_1_n_n]; rfl
theorem rhs256_0 (j : S1x256.Idx) (k : dot_S1x128_S128x256_S1x256_1_0_0_1_n_n.contr.Idx) :
    (dot_S1x128_S128x256_S1x256_1_0_0_1_n_n.rhsIdx j k 0 : ℕ) = k ⟨0, by decide⟩ := by
  simp [DotDims.rhsIdx, dot_S1x128_S128x256_S1x256_1_0_0_1_n_n]; rfl
theorem rhs256_1 (j : S1x256.Idx) (k : dot_S1x128_S128x256_S1x256_1_0_0_1_n_n.contr.Idx) :
    (dot_S1x128_S128x256_S1x256_1_0_0_1_n_n.rhsIdx j k 1 : ℕ) = j 1 := by
  simp [DotDims.rhsIdx, dot_S1x128_S128x256_S1x256_1_0_0_1_n_n]; rfl

/-- A [1,128] row times a [128,256] matrix, at (a, b): the sum over the contracted coordinate. -/
theorem dot256_apply (A : FVec Ideal S1x128 .f32) (B : FVec Ideal S128x256 .f32) (a : Fin 1) (b : Fin 256) :
    Host.dotGeneral dot_S1x128_S128x256_S1x256_1_0_0_1_n_n none A B (ix2 a b) = ∑ c : Fin 128, A (ix2 a c) * B (ix2 c b) := by
  show FloatOps.dotGeneral _ none _ A B (ix2 a b) = _
  rw [Ideal.dotGeneral_apply, ← Equiv.sum_comp (contrEquiv1 dot_S1x128_S128x256_S1x256_1_0_0_1_n_n 128 rfl rfl).symm]
  refine Finset.sum_congr rfl fun c _ => ?_
  have c2 := contrEquiv1_symm_val dot_S1x128_S128x256_S1x256_1_0_0_1_n_n 128 rfl rfl c
  have l2 : dot_S1x128_S128x256_S1x256_1_0_0_1_n_n.lhsIdx (ix2 a b)
      ((contrEquiv1 dot_S1x128_S128x256_S1x256_1_0_0_1_n_n 128 rfl rfl).symm c) = ix2 a c := by
    funext ax; apply Fin.ext
    match ax with
    | ⟨0, _⟩ => exact lhs256_0 _ _
    | ⟨1, _⟩ => exact (lhs256_1 _ _).trans c2
  have r2 : dot_S1x128_S128x256_S1x256_1_0_0_1_n_n.rhsIdx (ix2 a b)
      ((contrEquiv1 dot_S1x128_S128x256_S1x256_1_0_0_1_n_n 128 rfl rfl).symm c) = ix2 c b := by
    funext ax; apply Fin.ext
    match ax with
    | ⟨0, _⟩ => exact (rhs256_0 _ _).trans c2
    | ⟨1, _⟩ => exact rhs256_1 _ _
  rw [l2, r2]

/-! ## Layout operations of the reference read at an index -/

/-- A vector broadcast to a one-row matrix reads, at (a, q), the vector at q. -/
theorem bcast_row_apply {α : Type} {m : Nat} (h : (⟨1, ![m]⟩ : Shape).BroadcastsInDim ⟨2, ![1, m]⟩ ![1])
    (v : (⟨1, ![m]⟩ : Shape).Idx → α) (a : Fin 1) (q : Fin m) :
    broadcastInDim ⟨2, ![1, m]⟩ ![1] h v (ix2 a q) = v (ix1 q) :=
  broadcastInDim_apply _ h v _ (ix1 q) fun ax => by
    match ax with
    | ⟨0, _⟩ =>
      show q.val = if m = 1 then 0 else q.val
      split
      · omega
      · rfl

/-- A scalar broadcast to any shape reads the scalar everywhere. -/
theorem bcast0_apply {α : Type} {t : Shape} (h : S_.BroadcastsInDim t ![]) (v : S_.Idx → α) (j : t.Idx) :
    broadcastInDim t ![] h v j = v ix0 := broadcastInDim_apply _ h v j ix0 fun a => a.elim0

/-- Layer l's [512,128] weight slice, reshaped, at (r, k). -/
theorem slice_w_apply {α : Type} (lv : Nat) (a : S3x512x128.Idx → α) (h : S3x512x128.Slices ![lv, 0, 0] S1x512x128)
    (l : Fin 3) (hl : l.val = lv) (r : Fin 512) (k : Fin 128) :
    (shapeCast S512x128 (extractStridedSlice S1x512x128 ![lv, 0, 0] a h) shapeCasts_S1x512x128_S512x128) (ix2 r k)
      = a (ix3 l r k) := by
  rw [shapeCast_1ab_ab_apply]
  exact extractStridedSlice_apply _ a h _ _ fun ax => by
    match ax with
    | ⟨0, _⟩ => show l.val = lv + 0; omega
    | ⟨1, _⟩ => show r.val = 0 + r.val; omega
    | ⟨2, _⟩ => show k.val = 0 + k.val; omega

/-- Layer l's [1,128] state slice, reshaped, at (0, k). -/
theorem slice_s_apply {α : Type} (lv : Nat) (a : S3x1x128.Idx → α) (h : S3x1x128.Slices ![lv, 0, 0] S1x1x128)
    (l : Fin 3) (hl : l.val = lv) (u : Fin 1) (k : Fin 128) :
    (shapeCast S1x128 (extractStridedSlice S1x1x128 ![lv, 0, 0] a h) shapeCasts_S1x1x128_S1x128) (ix2 u k)
      = a (ix3 l 0 k) := by
  rw [shapeCast_1ab_ab_apply]
  exact extractStridedSlice_apply _ a h _ _ fun ax => by
    match ax with
    | ⟨0, _⟩ => show l.val = lv + 0; omega
    | ⟨1, _⟩ => show (0 : Fin 1).val = 0 + u.val; omega
    | ⟨2, _⟩ => show k.val = 0 + k.val; omega

/-- Layer l's [512] bias slice, reshaped, at r. -/
theorem slice_b_apply {α : Type} (lv : Nat) (a : S3x512.Idx → α) (h : S3x512.Slices ![lv, 0] S1x512)
    (l : Fin 3) (hl : l.val = lv) (r : Fin 512) :
    (shapeCast S512 (extractStridedSlice S1x512 ![lv, 0] a h) shapeCasts_S1x512_S512) (ix1 r) = a (ix2 l r) := by
  rw [shapeCast_1a_a_apply]
  exact extractStridedSlice_apply _ a h _ _ fun ax => by
    match ax with
    | ⟨0, _⟩ => show l.val = lv + 0; omega
    | ⟨1, _⟩ => show r.val = 0 + r.val; omega

/-- Quarter q of the gate row, at (0, j): the row at 128 q + j. -/
theorem slice_q_apply {α : Type} (o : Nat) (g : S1x512.Idx → α) (h : S1x512.Slices ![0, o] S1x128)
    (q : Fin 4) (hq : 128 * q.val = o) (u : Fin 1) (j : Fin 128) :
    extractStridedSlice S1x128 ![0, o] g h (ix2 u j) = g (ix2 u (quarter q j)) :=
  slice2_axis1_apply o g h u j (quarter q j) (by show 128 * q.val + j.val = o + j.val; omega)

/-! ## One layer's gate pre-activations -/

theorem gate_apply (hin h1 : FVec Ideal S1x128 .f32) (w4 w5 : FVec Ideal S512x128 .f32) (b6 b7 : FVec Ideal S512 .f32)
    (r : Fin 512) :
    (addf (addf (addf
        (Host.dotGeneral dot_S1x128_S128x512_S1x512_1_0_0_1_n_n none hin
          (transpose S128x512 [1, 0] w4 transposes_S512x128_S128x512_1_0))
        (Host.dotGeneral dot_S1x128_S128x512_S1x512_1_0_0_1_n_n none h1
          (transpose S128x512 [1, 0] w5 transposes_S512x128_S128x512_1_0)))
        (broadcastInDim S1x512 ![1] bcast_S512_S1x512_1 b6))
        (broadcastInDim S1x512 ![1] bcast_S512_S1x512_1 b7) : FVec Ideal S1x512 .f32) (ix2 0 r)
      = (∑ k : Fin 128, hin (ix2 0 k) * w4 (ix2 r k)) + (∑ k : Fin 128, h1 (ix2 0 k) * w5 (ix2 r k))
          + b6 (ix1 r) + b7 (ix1 r) := by
  have t4 : ∀ k : Fin 128, transpose S128x512 [1, 0] w4 transposes_S512x128_S128x512_1_0 (ix2 k r) = w4 (ix2 r k) :=
    fun k => transpose_ix2_apply w4 _ k r
  have t5 : ∀ k : Fin 128, transpose S128x512 [1, 0] w5 transposes_S512x128_S128x512_1_0 (ix2 k r) = w5 (ix2 r k) :=
    fun k => transpose_ix2_apply w5 _ k r
  rw [addf_apply, addf_apply, addf_apply, dot512_apply, dot512_apply, bcast_row_apply, bcast_row_apply]
  simp only [t4, t5]

/-! ## The pointwise tail -/

theorem one_bits : Ideal.ofBits .f32 0x3F800000#32 = 1 := by
  simp [Ideal.ofBits, Ideal.ieee, -EReal.coe_mul]; norm_num

/-- The logistic function written 1 / (1 + exp (−z)), entry by entry. -/
theorem sigmoid_apply (z : FVec Ideal S1x128 .f32) (i : S1x128.Idx) :
    (Host.divf (F := Ideal) (broadcastInDim S1x128 ![] bcast_S_S1x128 (constant (F := Ideal) S_ .f32 0x3F800000#32))
      (addf (broadcastInDim S1x128 ![] bcast_S_S1x128 (constant (F := Ideal) S_ .f32 0x3F800000#32))
        (Host.exp (F := Ideal) (Host.negf (F := Ideal) z))) : FVec Ideal S1x128 .f32) i = Ideal.logistic (z i) := by
  have hb : (broadcastInDim S1x128 ![] bcast_S_S1x128 (constant (F := Ideal) S_ .f32 0x3F800000#32)
      : FVec Ideal S1x128 .f32) i = 1 := by
    rw [bcast0_apply]; exact one_bits
  show Ideal.div (broadcastInDim S1x128 ![] bcast_S_S1x128 (constant (F := Ideal) S_ .f32 0x3F800000#32) i)
      (broadcastInDim S1x128 ![] bcast_S_S1x128 (constant (F := Ideal) S_ .f32 0x3F800000#32) i + Ideal.exp (-(z i)))
    = Ideal.logistic (z i)
  rw [hb]; rfl

theorem tanh_apply (z : FVec Ideal S1x128 .f32) (i : S1x128.Idx) : (Host.tanh (F := Ideal) z) i = Ideal.tanh (z i) := rfl

/-- The new cell state from the gate row g and the old cell state c0, at (0, j). -/
theorem cell_apply (g : FVec Ideal S1x512 .f32) (c0 : FVec Ideal S1x128 .f32) (j : Fin 128) :
    (addf (mulf (Host.divf (F := Ideal) (broadcastInDim S1x128 ![] bcast_S_S1x128 (constant (F := Ideal) S_ .f32 0x3F800000#32))
        (addf (broadcastInDim S1x128 ![] bcast_S_S1x128 (constant (F := Ideal) S_ .f32 0x3F800000#32))
          (Host.exp (F := Ideal) (Host.negf (F := Ideal) (extractStridedSlice S1x128 ![0, 128] g slices_S1x512_S1x128_0_128))))) c0)
      (mulf (Host.divf (F := Ideal) (broadcastInDim S1x128 ![] bcast_S_S1x128 (constant (F := Ideal) S_ .f32 0x3F800000#32))
        (addf (broadcastInDim S1x128 ![] bcast_S_S1x128 (constant (F := Ideal) S_ .f32 0x3F800000#32))
          (Host.exp (F := Ideal) (Host.negf (F := Ideal) (extractStridedSlice S1x128 ![0, 0] g slices_S1x512_S1x128_0_0)))))
        (Host.tanh (F := Ideal) (extractStridedSlice S1x128 ![0, 256] g slices_S1x512_S1x128_0_256)))
      : FVec Ideal S1x128 .f32) (ix2 0 j)
      = Ideal.logistic (g (ix2 0 (quarter 1 j))) * c0 (ix2 0 j)
        + Ideal.logistic (g (ix2 0 (quarter 0 j))) * Ideal.tanh (g (ix2 0 (quarter 2 j))) := by
  rw [addf_apply, mulf_apply, mulf_apply, sigmoid_apply, sigmoid_apply, tanh_apply,
    slice_q_apply 128 g _ 1 rfl, slice_q_apply 0 g _ 0 rfl, slice_q_apply 256 g _ 2 rfl]

/-- The new hidden state from the gate row g and the new cell state c, at (0, j). -/
theorem hidden_apply (g : FVec Ideal S1x512 .f32) (c : FVec Ideal S1x128 .f32) (j : Fin 128) :
    (mulf (Host.divf (F := Ideal) (broadcastInDim S1x128 ![] bcast_S_S1x128 (constant (F := Ideal) S_ .f32 0x3F800000#32))
        (addf (broadcastInDim S1x128 ![] bcast_S_S1x128 (constant (F := Ideal) S_ .f32 0x3F800000#32))
          (Host.exp (F := Ideal) (Host.negf (F := Ideal) (extractStridedSlice S1x128 ![0, 384] g slices_S1x512_S1x128_0_384)))))
      (Host.tanh (F := Ideal) c) : FVec Ideal S1x128 .f32) (ix2 0 j)
      = Ideal.logistic (g (ix2 0 (quarter 3 j))) * Ideal.tanh (c (ix2 0 j)) := by
  rw [mulf_apply, sigmoid_apply, tanh_apply, slice_q_apply 384 g _ 3 rfl]

/-! ## The decoder and the stacked states -/

/-- The decoder: a row times the transposed [256,128] matrix plus the bias row, at (0, v). -/
theorem logit_apply (h : FVec Ideal S1x128 .f32) (w8 : FVec Ideal S256x128 .f32) (b9 : FVec Ideal S256 .f32) (v : Fin 256) :
    (addf (Host.dotGeneral dot_S1x128_S128x256_S1x256_1_0_0_1_n_n none h
        (transpose S128x256 [1, 0] w8 transposes_S256x128_S128x256_1_0))
      (broadcastInDim S1x256 ![1] bcast_S256_S1x256_1 b9) : FVec Ideal S1x256 .f32) (ix2 0 v)
      = (∑ k : Fin 128, h (ix2 0 k) * w8 (ix2 v k)) + b9 (ix1 v) := by
  have t8 : ∀ k : Fin 128, transpose S128x256 [1, 0] w8 transposes_S256x128_S128x256_1_0 (ix2 k v) = w8 (ix2 v k) :=
    fun k => transpose_ix2_apply w8 _ k v
  rw [addf_apply, dot256_apply, bcast_row_apply]
  simp only [t8]

/-- A [1,128] row given a unit middle axis reads, at (u, w, j), the row at (0, j). -/
theorem bcast_mid_apply {α : Type} (v : S1x128.Idx → α) (u w : Fin 1) (j : Fin 128) :
    broadcastInDim S1x1x128 ![1, 2] bcast_S1x128_S1x1x128_1_2 v (ix3 u w j) = v (ix2 0 j) :=
  broadcastInDim_apply _ _ v _ (ix2 0 j) fun a => by
    match a with
    | ⟨0, _⟩ => exact (if_pos rfl).symm
    | ⟨1, _⟩ => exact (if_neg (show ¬ (128 : Nat) = 1 by decide)).symm

/-- Three [1,1,128] pieces stacked along axis 0, at (l, 0, j): piece l at (0, 0, j). -/
theorem concat3_apply_0 {α : Type} (u0 u1 u2 : S1x1x128.Idx → α) (j : Fin 128) :
    concatenate S3x1x128 0 [⟨S1x1x128, u0⟩, ⟨S1x1x128, u1⟩, ⟨S1x1x128, u2⟩]
      concatenates_S1x1x128_S1x1x128_S1x1x128_S3x1x128_d0 (ix3 0 0 j) = u0 (ix3 0 0 j) := by
  refine concatenate_apply_piece (t := S3x1x128) 0 [⟨S1x1x128, u0⟩, ⟨S1x1x128, u1⟩, ⟨S1x1x128, u2⟩] _ _ 0 (show (0 : Nat) < 3 by decide)
    S1x1x128 u0 rfl rfl 0 rfl (ix3 0 0 j) ?_ rfl
  intro b hb
  match b with
  | ⟨0, _⟩ => exact absurd rfl hb
  | ⟨1, _⟩ => rfl
  | ⟨2, _⟩ => rfl

theorem concat3_apply_1 {α : Type} (u0 u1 u2 : S1x1x128.Idx → α) (j : Fin 128) :
    concatenate S3x1x128 0 [⟨S1x1x128, u0⟩, ⟨S1x1x128, u1⟩, ⟨S1x1x128, u2⟩]
      concatenates_S1x1x128_S1x1x128_S1x1x128_S3x1x128_d0 (ix3 1 0 j) = u1 (ix3 0 0 j) := by
  refine concatenate_apply_piece (t := S3x1x128) 0 [⟨S1x1x128, u0⟩, ⟨S1x1x128, u1⟩, ⟨S1x1x128, u2⟩] _ _ 1 (show (1 : Nat) < 3 by decide)
    S1x1x128 u1 rfl rfl 1 rfl (ix3 0 0 j) ?_ rfl
  intro b hb
  match b with
  | ⟨0, _⟩ => exact absurd rfl hb
  | ⟨1, _⟩ => rfl
  | ⟨2, _⟩ => rfl

theorem concat3_apply_2 {α : Type} (u0 u1 u2 : S1x1x128.Idx → α) (j : Fin 128) :
    concatenate S3x1x128 0 [⟨S1x1x128, u0⟩, ⟨S1x1x128, u1⟩, ⟨S1x1x128, u2⟩]
      concatenates_S1x1x128_S1x1x128_S1x1x128_S3x1x128_d0 (ix3 2 0 j) = u2 (ix3 0 0 j) := by
  refine concatenate_apply_piece (t := S3x1x128) 0 [⟨S1x1x128, u0⟩, ⟨S1x1x128, u1⟩, ⟨S1x1x128, u2⟩] _ _ 2 (show (2 : Nat) < 3 by decide)
    S1x1x128 u2 rfl rfl 2 rfl (ix3 0 0 j) ?_ rfl
  intro b hb
  match b with
  | ⟨0, _⟩ => exact absurd rfl hb
  | ⟨1, _⟩ => rfl
  | ⟨2, _⟩ => rfl

/-! ## The token's embedding row -/

theorem slt_zero_of_nonneg (w : BitVec 32) (n : Nat) (h : w.toInt = (n : Int)) : IntOp.cmpi .slt w 0#32 = 0#1 := by
  have hs : w.slt 0#32 = false := by
    simp only [BitVec.slt, h]
    simp
  show BitVec.ofBool (w.slt 0#32) = 0#1
  rw [hs]; rfl

/-- The gather's start index: the token word, since the wrap of a negative word is not taken. -/
theorem start_apply (a0 : IVec S1 32) (n : Nat) (h : (a0 (ix1 0)).toInt = (n : Int)) (u : Fin 1) :
    ((broadcastInDim S1x1 ![0] bcast_S1_S1x1_0
      (select (cmpi .slt a0 (broadcastInDim S1 ![] bcast_S_S1 (constantI S_ 32 0#32)))
        (addi a0 (broadcastInDim S1 ![] bcast_S_S1 (constantI S_ 32 256#32))) a0) : IVec S1x1 32) (ix2 u 0)).toInt
      = (n : Int) := by
  have e : (broadcastInDim S1x1 ![0] bcast_S1_S1x1_0
      (select (cmpi .slt a0 (broadcastInDim S1 ![] bcast_S_S1 (constantI S_ 32 0#32)))
        (addi a0 (broadcastInDim S1 ![] bcast_S_S1 (constantI S_ 32 256#32))) a0) : IVec S1x1 32) (ix2 u 0)
      = a0 (ix1 0) := by
    rw [broadcastInDim_apply _ _ _ _ (ix1 0) (fun a => by match a with | ⟨0, _⟩ => exact (if_pos rfl).symm)]
    show Scalar.select (IntOp.cmpi .slt (a0 (ix1 0)) (broadcastInDim S1 ![] bcast_S_S1 (constantI S_ 32 0#32) (ix1 0))) _ _ = _
    rw [bcast0_apply]
    show Scalar.select (IntOp.cmpi .slt (a0 (ix1 0)) 0#32) _ _ = _
    rw [slt_zero_of_nonneg _ n h, select_zero]
  rw [e, h]

/-- The gathered row: the embedding table's row at the token. -/
theorem embed_apply (a0 : IVec S1 32) (tbl : FVec Ideal S256x128 .f32) (x : Fin 256) (h : (a0 (ix1 0)).toInt = (x.val : Int))
    (u : Fin 1) (c : Fin 128) :
    (Host.gather gather_S256x128_S1x1_S1x128_1_0_n_n_0_1_1128 tbl (broadcastInDim S1x1 ![0] bcast_S1_S1x1_0
      (select (cmpi .slt a0 (broadcastInDim S1 ![] bcast_S_S1 (constantI S_ 32 0#32)))
        (addi a0 (broadcastInDim S1 ![] bcast_S_S1 (constantI S_ 32 256#32))) a0)) : FVec Ideal S1x128 .f32) (ix2 u c)
      = tbl (ix2 x c) :=
  RowsGS.gather_rows2_apply _ rfl rfl rfl rfl rfl rfl rfl tbl _ u c x (start_apply a0 x.val h u)

variable (V0 : Valuation τ sig (Elt Ideal))

/-- The token word: argument 0's one entry. -/
def word : BitVec 32 := (V0 (Proc.devRef .tc main_arg0) : IVec S1 32) (ix1 0)

/-- The model's arrays read off the argument buffers. -/
def P : Params :=
  mkParams (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))

/-! ## The three layers -/

/-- Layer 0's gate row. -/
theorem v25_apply (x : Fin 256) (hx : (word V0).toInt = (x.val : Int)) (r : Fin 512) :
    (res_main_v25 V0 : FVec Ideal S1x512 .f32) (ix2 0 r) = gates (P V0) 0 ((P V0).emb x) r := by
  unfold res_main_v25
  refine (gate_apply _ _ _ _ _ _ r).trans ?_
  simp only [embed_apply _ _ x hx, slice_w_apply 0 _ _ 0 rfl, slice_s_apply 0 _ _ 0 rfl, slice_b_apply 0 _ _ 0 rfl]
  rfl

/-- Layer 0's new cell state. -/
theorem v47_apply (x : Fin 256) (hx : (word V0).toInt = (x.val : Int)) (j : Fin 128) :
    (res_main_v47 V0 : FVec Ideal S1x128 .f32) (ix2 0 j) = cell (P V0) 0 ((P V0).emb x) j := by
  unfold res_main_v47
  refine (cell_apply _ _ j).trans ?_
  simp only [v25_apply V0 x hx]
  exact congrArg₂ (· + ·) (congrArg₂ (· * ·) rfl (slice_s_apply 0 _ _ 0 rfl 0 j)) rfl

/-- Layer 0's new hidden state. -/
theorem v55_apply (x : Fin 256) (hx : (word V0).toInt = (x.val : Int)) (j : Fin 128) :
    (res_main_v55 V0 : FVec Ideal S1x128 .f32) (ix2 0 j) = hidden (P V0) 0 ((P V0).emb x) j := by
  unfold res_main_v55
  refine (hidden_apply _ _ j).trans ?_
  simp only [v25_apply V0 x hx, v47_apply V0 x hx]
  rfl

/-- Layer 1's gate row. -/
theorem v74_apply (x : Fin 256) (hx : (word V0).toInt = (x.val : Int)) (r : Fin 512) :
    (res_main_v74 V0 : FVec Ideal S1x512 .f32) (ix2 0 r) = gates (P V0) 1 (hidden (P V0) 0 ((P V0).emb x)) r := by
  unfold res_main_v74
  refine (gate_apply _ _ _ _ _ _ r).trans ?_
  simp only [v55_apply V0 x hx, slice_w_apply 1 _ _ 1 rfl, slice_s_apply 1 _ _ 1 rfl, slice_b_apply 1 _ _ 1 rfl]
  rfl

/-- Layer 1's new cell state. -/
theorem v96_apply (x : Fin 256) (hx : (word V0).toInt = (x.val : Int)) (j : Fin 128) :
    (res_main_v96 V0 : FVec Ideal S1x128 .f32) (ix2 0 j) = cell (P V0) 1 (hidden (P V0) 0 ((P V0).emb x)) j := by
  unfold res_main_v96
  refine (cell_apply _ _ j).trans ?_
  simp only [v74_apply V0 x hx]
  exact congrArg₂ (· + ·) (congrArg₂ (· * ·) rfl (slice_s_apply 1 _ _ 1 rfl 0 j)) rfl

/-- Layer 1's new hidden state. -/
theorem v104_apply (x : Fin 256) (hx : (word V0).toInt = (x.val : Int)) (j : Fin 128) :
    (res_main_v104 V0 : FVec Ideal S1x128 .f32) (ix2 0 j) = hidden (P V0) 1 (hidden (P V0) 0 ((P V0).emb x)) j := by
  unfold res_main_v104
  refine (hidden_apply _ _ j).trans ?_
  simp only [v74_apply V0 x hx, v96_apply V0 x hx]
  rfl

/-- Layer 2's gate row. -/
theorem v123_apply (x : Fin 256) (hx : (word V0).toInt = (x.val : Int)) (r : Fin 512) :
    (res_main_v123 V0 : FVec Ideal S1x512 .f32) (ix2 0 r)
      = gates (P V0) 2 (hidden (P V0) 1 (hidden (P V0) 0 ((P V0).emb x))) r := by
  unfold res_main_v123
  refine (gate_apply _ _ _ _ _ _ r).trans ?_
  simp only [v104_apply V0 x hx, slice_w_apply 2 _ _ 2 rfl, slice_s_apply 2 _ _ 2 rfl, slice_b_apply 2 _ _ 2 rfl]
  rfl

/-- Layer 2's new cell state. -/
theorem v145_apply (x : Fin 256) (hx : (word V0).toInt = (x.val : Int)) (j : Fin 128) :
    (res_main_v145 V0 : FVec Ideal S1x128 .f32) (ix2 0 j)
      = cell (P V0) 2 (hidden (P V0) 1 (hidden (P V0) 0 ((P V0).emb x))) j := by
  unfold res_main_v145
  refine (cell_apply _ _ j).trans ?_
  simp only [v123_apply V0 x hx]
  exact congrArg₂ (· + ·) (congrArg₂ (· * ·) rfl (slice_s_apply 2 _ _ 2 rfl 0 j)) rfl

/-- Layer 2's new hidden state. -/
theorem v153_apply (x : Fin 256) (hx : (word V0).toInt = (x.val : Int)) (j : Fin 128) :
    (res_main_v153 V0 : FVec Ideal S1x128 .f32) (ix2 0 j)
      = hidden (P V0) 2 (hidden (P V0) 1 (hidden (P V0) 0 ((P V0).emb x))) j := by
  unfold res_main_v153
  refine (hidden_apply _ _ j).trans ?_
  simp only [v123_apply V0 x hx, v145_apply V0 x hx]
  rfl

/-- The decoder output the run ends with (the generated run names it `val4 V0 main_v165`), at vocabulary entry v. -/
theorem logits_apply (x : Fin 256) (hx : (word V0).toInt = (x.val : Int)) (v : Fin 256) :
    (val4 V0 (Proc.devRef .tc main_v165) : FVec Ideal S1x256 .f32) (ix2 0 v) = logits (P V0) x v := by
  rw [val4_main_v165]
  refine (logit_apply _ _ _ v).trans ?_
  simp only [v153_apply V0 x hx]
  rfl

/-- The stacked hidden states the run ends with. -/
theorem hn_apply (x : Fin 256) (hx : (word V0).toInt = (x.val : Int)) (l : Fin 3) (j : Fin 128) :
    (val4 V0 (Proc.devRef .tc main_v157) : FVec Ideal S3x1x128 .f32) (ix3 l 0 j) = hn (P V0) x l j := by
  rw [val4_main_v157]
  match l with
  | ⟨0, _⟩ => exact (concat3_apply_0 _ _ _ j).trans ((bcast_mid_apply _ 0 0 j).trans (v55_apply V0 x hx j))
  | ⟨1, _⟩ => exact (concat3_apply_1 _ _ _ j).trans ((bcast_mid_apply _ 0 0 j).trans (v104_apply V0 x hx j))
  | ⟨2, _⟩ => exact (concat3_apply_2 _ _ _ j).trans ((bcast_mid_apply _ 0 0 j).trans (v153_apply V0 x hx j))

/-- The stacked cell states the run ends with. -/
theorem cn_apply (x : Fin 256) (hx : (word V0).toInt = (x.val : Int)) (l : Fin 3) (j : Fin 128) :
    (val4 V0 (Proc.devRef .tc main_v161) : FVec Ideal S3x1x128 .f32) (ix3 l 0 j) = cn (P V0) x l j := by
  rw [val4_main_v161]
  match l with
  | ⟨0, _⟩ => exact (concat3_apply_0 _ _ _ j).trans ((bcast_mid_apply _ 0 0 j).trans (v47_apply V0 x hx j))
  | ⟨1, _⟩ => exact (concat3_apply_1 _ _ _ j).trans ((bcast_mid_apply _ 0 0 j).trans (v96_apply V0 x hx j))
  | ⟨2, _⟩ => exact (concat3_apply_2 _ _ _ j).trans ((bcast_mid_apply _ 0 0 j).trans (v145_apply V0 x hx j))

end Cert.ReferenceIdeal.RefValue

end
-- ==== Proof.lean ====
/-
  A single decoding step of a three-layer LSTM language model — embedding row of the token, three stacked LSTM cells,
  a linear decoder — computed by one fused kernel, against the plain reference, on the extended reals.

  The kernel clamps the token into 0 … 255, fetches the 8-row slab of the embedding table that holds it and picks the
  row by a one-hot product; each layer multiplies the concatenation (layer input ‖ previous hidden state) with the
  concatenated weights (W_ih ‖ W_hh) and adds the pre-summed bias b_ih + b_hh; the reference gathers the row, makes
  two products per layer and adds the two biases one after the other.  With the token in 0 … 255 (the precondition's
  evident-domain conjunct: the reference indexes its table with it) both the clamp and the reference's wrap of
  negative indices leave the token alone, the long sum splits at 128 into the reference's two sums, and the bias terms
  re-associate; changes of float format are the identity on the extended reals, and the reference's
  1 / (1 + exp (−z)) is the logistic function.  So the three results — decoder output, new hidden states, new cell
  states — are the same functions of the arguments, index by index.  No finiteness is used.

  The frames: the kernel's table-indexed window lies inside its array for every token because of the clamp, so the
  kernel's frame holds for every input; the reference's frame is its run with the results dropped.  The ideal pass
  rewrote nothing, so there is nothing to preserve.
-/
import proofs.«421514_j47012712022524_3_alg».proof.Defs
import proofs.«421514_j47012712022524_3_alg».proof.Proof.Gen.Kernel
import proofs.«421514_j47012712022524_3_alg».proof.Proof.Gen.Kernel.Skeleton
import proofs.«421514_j47012712022524_3_alg».proof.Proof.Gen.Kernel.Launch
import proofs.«421514_j47012712022524_3_alg».proof.Proof.Gen.Kernel.Points
import proofs.«421514_j47012712022524_3_alg».proof.Proof.Gen.Kernel.Frame
import proofs.«421514_j47012712022524_3_alg».proof.Proof.Gen.KernelIdeal
import proofs.«421514_j47012712022524_3_alg».proof.Proof.Gen.KernelIdeal.Skeleton
import proofs.«421514_j47012712022524_3_alg».proof.Proof.Gen.KernelIdeal.Launch
import proofs.«421514_j47012712022524_3_alg».proof.Proof.Gen.KernelIdeal.Points
import proofs.«421514_j47012712022524_3_alg».proof.Proof.Gen.KernelIdeal.Frame
import proofs.«421514_j47012712022524_3_alg».proof.Proof.Gen.ReferenceIdeal
import proofs.«421514_j47012712022524_3_alg».proof.Proof.Gen.Pre_finite_inputs
import proofs.«421514_j47012712022524_3_alg».proof.Proof.Gen.ReferenceIdeal.Run
import proofs.«421514_j47012712022524_3_alg».proof.Proof.KernelBitsOk
import proofs.«421514_j47012712022524_3_alg».proof.Proof.KernelRun
import proofs.«421514_j47012712022524_3_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.LstmStep

/-! ## The frames -/

theorem frame_k : Cert.frame_Kernel := fun m ρ _ => Cert.Kernel.Gen.frame m ρ (Cert.Kernel.Blocks.ok m)

theorem frame_ki : Cert.frame_KernelIdeal := fun m ρ _ => Cert.KernelIdeal.Gen.frame m ρ (Cert.KernelIdeal.Blocks.ok m)

theorem frame_ri : Cert.frame_ReferenceIdeal := fun m ρ _ =>
  (θ_run Cert.ReferenceIdeal.defs _ _).mono (fun _ h c => (h c).2.2.2) (Cert.ReferenceIdeal.Value.run (F := Ideal) m ρ)

/-! ## The two programs' results are one function of the arguments -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal m) (c : Dev Cert.KernelIdeal.nD)
  (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))

include hagree in
/-- The model's arrays read off the two memories are the same. -/
theorem params_eq : Cert.ReferenceIdeal.RefValue.P (StableHlo.launchContents m' c) = Cert.KernelIdeal.Point.params m c := by
  obtain ⟨-, h1, h2, h3, h4, h5, h6, h7, h8, h9⟩ := hagree
  unfold Cert.ReferenceIdeal.RefValue.P Cert.KernelIdeal.Point.params
  exact congr (congr (congr (congr (congr (congr (congr (congr (congrArg mkParams h1) h2) h3) h4) h5) h6) h7) h8) h9

include hagree hpre in
/-- The reference's token word is the kernel's: its signed value is the token's row number. -/
theorem word_eq : (Cert.ReferenceIdeal.RefValue.word (StableHlo.launchContents m' c)).toInt = ((Cert.KernelIdeal.Point.tokRow m hpre).val : Int) := by
  have e : Cert.ReferenceIdeal.RefValue.word (StableHlo.launchContents m' c) = Cert.KernelIdeal.Blocks.word m := by
    obtain rfl : c = 0 := Subsingleton.elim _ _
    exact congrFun hagree.1 (ix1 0)
  rw [e]
  exact StableHlo.Predicate.toInt_eq_toNat_of_lt (by have := Cert.KernelIdeal.PreDecode.word_lt m hpre; omega)

end Agree

theorem algebraic : Cert.algebraic_KernelIdeal_ReferenceIdeal := by
  intro m ρ m' ρ' hpre hagree
  refine ⟨fun c => Cert.KernelIdeal.Run.res0 m hpre c, fun c => Cert.KernelIdeal.Run.res1 m hpre c,
    fun c => Cert.KernelIdeal.Run.res2 m hpre c, Cert.KernelIdeal.Run.run m ρ hpre, ?_⟩
  refine (θ_run Cert.ReferenceIdeal.defs _ _).mono (fun _ hq c => ?_) (Cert.ReferenceIdeal.Value.run (F := Ideal) m' ρ')
  obtain ⟨q0, q1, q2, qargs⟩ := hq c
  have hx := word_eq m m' hpre c (hagree c)
  have hP := params_eq m m' c (hagree c)
  refine ⟨?_, ?_, ?_, qargs⟩
  · rw [q0, ← Cert.ReferenceIdeal.Value.val4_main_v165]
    funext j
    rw [Cert.KernelIdeal.Run.idx_row j]
    refine (Cert.ReferenceIdeal.RefValue.logits_apply (StableHlo.launchContents m' c) (Cert.KernelIdeal.Point.tokRow m hpre) hx (j 1)).trans ?_
    rw [hP]
    rfl
  · rw [q1, ← Cert.ReferenceIdeal.Value.val4_main_v157]
    funext j
    rw [Cert.KernelIdeal.Run.idx_slab j]
    refine (Cert.ReferenceIdeal.RefValue.hn_apply (StableHlo.launchContents m' c) (Cert.KernelIdeal.Point.tokRow m hpre) hx (j 0) (j 2)).trans ?_
    rw [hP]
    rfl
  · rw [q2, ← Cert.ReferenceIdeal.Value.val4_main_v161]
    funext j
    rw [Cert.KernelIdeal.Run.idx_slab j]
    refine (Cert.ReferenceIdeal.RefValue.cn_apply (StableHlo.launchContents m' c) (Cert.KernelIdeal.Point.tokRow m hpre) hx (j 0) (j 2)).trans ?_
    rw [hP]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
